-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_v28 : IVec S1x800000 32 := (extractStridedSlice S1x800000 ![0, 0] · slices_S2x800000_S1x800000_0_0) main_arg1
  let main_v29 : IVec S800000 32 := shapeCast S800000 main_v28 shapeCasts_S1x800000_S800000
  let main_c_9 : IVec S_ 32 := constantI S_ 32 50000#32
  let main_v30 : IVec S800000 32 := broadcastInDim S800000 ![] bcast_S_S800000 main_c_9
  let main_v31 : IVec S800000 1 := cmpi .slt main_v29 main_v30
  let main_v32 : IVec S800000 1 := andi main_v27 main_v31
  let main_c_10 : IVec S_ 1 := constantI S_ 1 1#1
  let main_v33 : IVec S_ 1 := (fun x v => Host.reduce IntOp.andi x v reducesTo_S800000_S_d0 h_S_) main_v32 main_c_10
  let main_v34 : IVec S_ 1 := andi main_v23 main_v33
  main_v34

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S176 : Shape := ⟨1, ![176]⟩
abbrev S850176 : Shape := ⟨1, ![850176]⟩
abbrev S1x850176 : Shape := ⟨2, ![1, 850176]⟩
abbrev S51200x128 : Shape := ⟨2, ![51200, 128]⟩
abbrev S1x128 : Shape := ⟨2, ![1, 128]⟩
abbrev S1x64 : Shape := ⟨2, ![1, 64]⟩
abbrev S6400x128 : Shape := ⟨2, ![6400, 128]⟩
abbrev S1x256 : Shape := ⟨2, ![1, 256]⟩
abbrev S256x128 : Shape := ⟨2, ![256, 128]⟩
abbrev S800x128 : Shape := ⟨2, ![800, 128]⟩
abbrev S800x1 : Shape := ⟨2, ![800, 1]⟩
abbrev S800x256 : Shape := ⟨2, ![800, 256]⟩
abbrev S51200x64 : Shape := ⟨2, ![51200, 64]⟩
abbrev S6400x64 : Shape := ⟨2, ![6400, 64]⟩
abbrev S256x64 : Shape := ⟨2, ![256, 64]⟩
abbrev S800x64 : Shape := ⟨2, ![800, 64]⟩
abbrev S50000x64 : Shape := ⟨2, ![50000, 64]⟩

abbrev nBuf : Space → Nat
  | .hbm => 70
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S176, .i32⟩
  | .hbm, ⟨48, _⟩ => ⟨S850176, .i32⟩
  | .hbm, ⟨49, _⟩ => ⟨S_, .i32⟩
  | .hbm, ⟨50, _⟩ => ⟨S176, .i32⟩
  | .hbm, ⟨51, _⟩ => ⟨S850176, .i32⟩
  | .hbm, ⟨52, _⟩ => ⟨S_, .f32⟩
  | .hbm, ⟨53, _⟩ => ⟨S176, .f32⟩
  | .hbm, ⟨54, _⟩ => ⟨S850176, .f32⟩
  | .hbm, ⟨55, _⟩ => ⟨S1x850176, .i32⟩
  | .hbm, ⟨56, _⟩ => ⟨S1x850176, .i32⟩
  | .hbm, ⟨57, _⟩ => ⟨S1x850176, .f32⟩
  | .hbm, ⟨58, _⟩ => ⟨S_, .i32⟩
  | .hbm, ⟨59, _⟩ => ⟨S_, .f32⟩
  | .hbm, ⟨60, _⟩ => ⟨S51200x128, .f32⟩
  | .hbm, ⟨61, _⟩ => ⟨S1x128, .f32⟩
  | .hbm, ⟨62, _⟩ => ⟨S1x64, .f32⟩
  | .hbm, ⟨63, _⟩ => ⟨S51200x128, .f32⟩
  | .hbm, ⟨64, _⟩ => ⟨S51200x128, .bf16⟩
  | .hbm, ⟨65, _⟩ => ⟨S51200x128, .f32⟩
  | .hbm, ⟨66, _⟩ => ⟨S51200x64, .f32⟩
  | .hbm, ⟨67, _⟩ => ⟨S51200x64, .bf16⟩
  | .hbm, ⟨68, _⟩ => ⟨S51200x64, .f32⟩
  | .hbm, ⟨69, _⟩ => ⟨S50000x64, .f32⟩
  | .local _ .vmem, ⟨0, _⟩ => ⟨S6400x128, .f32⟩
  | .local _ .vmem, ⟨1, _⟩ => ⟨S6400x128, .f32⟩
  | .local _ .vmem, ⟨2, _⟩ => ⟨S128x128, .f32⟩
  | .local _ .vmem, ⟨3, _⟩ => ⟨S6400x128, .f32⟩
  | .local _ .vmem, ⟨4, _⟩ => ⟨S6400x128, .f32⟩
  | .local _ .vmem, ⟨5, _⟩ => ⟨S1x256, .i32⟩
  | .local _ .vmem, ⟨6, _⟩ => ⟨S1x256, .i32⟩
  | .local _ .vmem, ⟨7, _⟩ => ⟨S1x256, .i32⟩
  | .local _ .vmem, ⟨8, _⟩ => ⟨S1x256, .i32⟩
  | .local _ .vmem, ⟨9, _⟩ => ⟨S1x256, .f32⟩
  | .local _ .vmem, ⟨10, _⟩ => ⟨S1x256, .f32⟩
  | .local _ .vmem, ⟨11, _⟩ => ⟨S51200x128, .bf16⟩
  | .local _ .vmem, ⟨12, _⟩ => ⟨S1x128, .f32⟩
  | .local _ .vmem, ⟨13, _⟩ => ⟨S51200x128, .f32⟩
  | .local _ .vmem, ⟨14, _⟩ => ⟨S256x128, .f32⟩
  | .local _ .vmem, ⟨15, _⟩ => ⟨S6400x128, .f32⟩
  | .local _ .vmem, ⟨16, _⟩ => ⟨S6400x128, .f32⟩
  | .local _ .vmem, ⟨17, _⟩ => ⟨S128x64, .f32⟩
  | .local _ .vmem, ⟨18, _⟩ => ⟨S6400x64, .f32⟩
  | .local _ .vmem, ⟨19, _⟩ => ⟨S6400x64, .f32⟩
  | .local _ .vmem, ⟨20, _⟩ => ⟨S1x256, .i32⟩
  | .local _ .vmem, ⟨21, _⟩ => ⟨S1x256, .i32⟩
  | .local _ .vmem, ⟨22, _⟩ => ⟨S1x256, .i32⟩
  | .local _ .vmem, ⟨23, _⟩ => ⟨S1x256, .i32⟩
  | .local _ .vmem, ⟨24, _⟩ => ⟨S1x256, .f32⟩
  | .local _ .vmem, ⟨25, _⟩ => ⟨S1x256, .f32⟩
  | .local _ .vmem, ⟨26, _⟩ => ⟨S51200x64, .bf16⟩
  | .local _ .vmem, ⟨27, _⟩ => ⟨S1x64, .f32⟩
  | .local _ .vmem, ⟨28, _⟩ => ⟨S51200x64, .f32⟩
  | .local _ .vmem, ⟨29, _⟩ => ⟨S256x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![3321], ![false]⟩

@[reducible] def k1_t1_loop : Scf.Loop 32 :=
  let c0_i32_8 : BitVec 32 := 0#32
  let c64_i32 : BitVec 32 := 64#32
  let v13 : BitVec 32 := Scalar.addi c0_i32_8 c64_i32
  let c1_i32 : BitVec 32 := 1#32
  ⟨c0_i32_8, v13, c1_i32⟩
def k1_mult1 (k1_t1 : Fin k1_t1_loop.trips) : BitVec 32 :=
  let c0_i32_18 : BitVec 32 := 0#32
  let c0_i32_8 : BitVec 32 := 0#32
  let c1_i32 : BitVec 32 := 1#32
  let arg8 : BitVec 32 := Scf.iv c0_i32_8 c1_i32 k1_t1
  let c1_i32_17 : BitVec 32 := 1#32
  let v20 : BitVec 32 := Scalar.muli arg8 c1_i32_17
  let v21 : BitVec 32 := Scalar.addi c0_i32_18 v20
  let c800_i32 : BitVec 32 := 800#32
  let v22 : BitVec 32 := Scalar.muli v21 c800_i32
  v22
def k1_off1 (k1_t1 : Fin k1_t1_loop.trips) : Fin 2 → Nat :=
  let c0_i32_18 : BitVec 32 := 0#32
  let c0_i32_8 : BitVec 32 := 0#32
  let c1_i32 : BitVec 32 := 1#32
  let arg8 : BitVec 32 := Scf.iv c0_i32_8 c1_i32 k1_t1
  let c1_i32_17 : BitVec 32 := 1#32
  let v20 : BitVec 32 := Scalar.muli arg8 c1_i32_17
  let v21 : BitVec 32 := Scalar.addi c0_i32_18 v20
  let c800_i32 : BitVec 32 := 800#32
  let v22 : BitVec 32 := Scalar.muli v21 c800_i32
  let v23 : BitVec 32 := v22
  let v24 : Index := Scalar.indexCast v23
  let c0_19 : Index := 0#32
  ![v24.toNat, 0]
@[reducible] def k1_t2_loop : Scf.Loop 32 :=
  let c0_i32_12 : BitVec 32 := 0#32
  let c64_i32_13 : BitVec 32 := 64#32
  let v16 : BitVec 32 := Scalar.addi c0_i32_12 c64_i32_13
  let c1_i32_14 : BitVec 32 := 1#32
  ⟨c0_i32_12, v16, c1_i32_14⟩
def k1_mult2 (k1_t2 : Fin k1_t2_loop.trips) : BitVec 32 :=
  let c0_i32_18 : BitVec 32 := 0#32
  let c0_i32_12 : BitVec 32 := 0#32
  let c1_i32_14 : BitVec 32 := 1#32
  let arg8 : BitVec 32 := Scf.iv c0_i32_12 c1_i32_14 k1_t2
  let c1_i32_17 : BitVec 32 := 1#32
  let v20 : BitVec 32 := Scalar.muli arg8 c1_i32_17
  let v21 : BitVec 32 := Scalar.addi c0_i32_18 v20
  let c800_i32 : BitVec 32 := 800#32
  let v22 : BitVec 32 := Scalar.muli v21 c800_i32
  v22
def k1_off2 (k1_t2 : Fin k1_t2_loop.trips) : Fin 2 → Nat :=
  let c0_i32_18 : BitVec 32 := 0#32
  let c0_i32_12 : BitVec 32 := 0#32
  let c1_i32_14 : BitVec 32 := 1#32
  let arg8 : BitVec 32 := Scf.iv c0_i32_12 c1_i32_14 k1_t2
  let c1_i32_17 : BitVec 32 := 1#32
  let v20 : BitVec 32 := Scalar.muli arg8 c1_i32_17
  let v21 : BitVec 32 := Scalar.addi c0_i32_18 v20
  let c800_i32 : BitVec 32 := 800#32
  let v22 : BitVec 32 := Scalar.muli v21 c800_i32
  let v23 : BitVec 32 := v22
  let v34 : Index := Scalar.indexCast v23
  let c0_20 : Index := 0#32
  ![v34.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S51200x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S51200x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![3321], ![false]⟩

@[reducible] def k3_t1_loop : Scf.Loop 32 :=
  let c0_i32_8 : BitVec 32 := 0#32
  let c64_i32 : BitVec 32 := 64#32
  let v13 : BitVec 32 := Scalar.addi c0_i32_8 c64_i32
  let c1_i32 : BitVec 32 := 1#32
  ⟨c0_i32_8, v13, c1_i32⟩
def k3_mult1 (k3_t1 : Fin k3_t1_loop.trips) : BitVec 32 :=
  let c0_i32_18 : BitVec 32 := 0#32
  let c0_i32_8 : BitVec 32 := 0#32
  let c1_i32 : BitVec 32 := 1#32
  let arg8 : BitVec 32 := Scf.iv c0_i32_8 c1_i32 k3_t1
  let c1_i32_17 : BitVec 32 := 1#32
  let v20 : BitVec 32 := Scalar.muli arg8 c1_i32_17
  let v21 : BitVec 32 := Scalar.addi c0_i32_18 v20
  let c800_i32 : BitVec 32 := 800#32
  let v22 : BitVec 32 := Scalar.muli v21 c800_i32
  v22
def k3_off1 (k3_t1 : Fin k3_t1_loop.trips) : Fin 2 → Nat :=
  let c0_i32_18 : BitVec 32 := 0#32
  let c0_i32_8 : BitVec 32 := 0#32
  let c1_i32 : BitVec 32 := 1#32
  let arg8 : BitVec 32 := Scf.iv c0_i32_8 c1_i32 k3_t1
  let c1_i32_17 : BitVec 32 := 1#32
  let v20 : BitVec 32 := Scalar.muli arg8 c1_i32_17
  let v21 : BitVec 32 := Scalar.addi c0_i32_18 v20
  let c800_i32 : BitVec 32 := 800#32
  let v22 : BitVec 32 := Scalar.muli v21 c800_i32
  let v23 : BitVec 32 := v22
  let v24 : Index := Scalar.indexCast v23
  let c0_19 : Index := 0#32
  ![v24.toNat, 0]
@[reducible] def k3_t2_loop : Scf.Loop 32 :=
  let c0_i32_12 : BitVec 32 := 0#32
  let c64_i32_13 : BitVec 32 := 64#32
  let v16 : BitVec 32 := Scalar.addi c0_i32_12 c64_i32_13
  let c1_i32_14 : BitVec 32 := 1#32
  ⟨c0_i32_12, v16, c1_i32_14⟩
def k3_mult2 (k3_t2 : Fin k3_t2_loop.trips) : BitVec 32 :=
  let c0_i32_18 : BitVec 32 := 0#32
  let c0_i32_12 : BitVec 32 := 0#32
  let c1_i32_14 : BitVec 32 := 1#32
  let arg8 : BitVec 32 := Scf.iv c0_i32_12 c1_i32_14 k3_t2
  let c1_i32_17 : BitVec 32 := 1#32
  let v20 : BitVec 32 := Scalar.muli arg8 c1_i32_17
  let v21 : BitVec 32 := Scalar.addi c0_i32_18 v20
  let c800_i32 : BitVec 32 := 800#32
  let v22 : BitVec 32 := Scalar.muli v21 c800_i32
  v22
def k3_off2 (k3_t2 : Fin k3_t2_loop.trips) : Fin 2 → Nat :=
  let c0_i32_18 : BitVec 32 := 0#32
  let c0_i32_12 : BitVec 32 := 0#32
  let c1_i32_14 : BitVec 32 := 1#32
  let arg8 : BitVec 32 := Scf.iv c0_i32_12 c1_i32_14 k3_t2
  let c1_i32_17 : BitVec 32 := 1#32
  let v20 : BitVec 32 := Scalar.muli arg8 c1_i32_17
  let v21 : BitVec 32 := Scalar.addi c0_i32_18 v20
  let c800_i32 : BitVec 32 := 800#32
  let v22 : BitVec 32 := Scalar.muli v21 c800_i32
  let v23 : BitVec 32 := v22
  let v34 : Index := Scalar.indexCast v23
  let c0_20 : Index := 0#32
  ![v34.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x256 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S51200x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S51200x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S176 : S_.BroadcastsInDim S176 (![] : Fin 0 → Fin S176.rank)
  concatenates_S850000_S176_S850176_d0 : Shape.Concatenates [S850000, S176] S850176 0
  shapeCasts_S850176_S1x850176 : S850176.ShapeCasts S1x850176
  pads_S50000x128_S51200x128_012000_000 : S50000x128.Pads (![0, 0] : Fin 2 → Nat) ![1200, 0] ![0, 0] S51200x128
  h_S_ : 0 < S_.numel
  shapeCasts_S128_S1x128 : S128.ShapeCasts S1x128
  shapeCasts_S64_S1x64 : S64.ShapeCasts S1x64
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S51200x128_S51200x128_0_0 : ∀ a, (![0, 0] : Fin 2 → Nat) a + S51200x128.size a ≤ S51200x128.size a
  h_S51200x128 : 0 < S51200x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  h_S800x128 : 0 < S800x128.numel
  shapeCasts_S800x128_S800x128 : S800x128.ShapeCasts S800x128
  iota_S800x1_d0_w32 : S800x1.Iotas .tc 32 [0]
  broadcasts_S800x1_S800x256 : S800x1.Broadcasts S800x256
  broadcasts_S1x256_S800x256 : S1x256.Broadcasts S800x256
  natLt_1_32 : 1 < 32
  shapeCasts_S51200x128_S51200x128 : S51200x128.ShapeCasts S51200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S51200x128 : S1x128.Broadcasts S51200x128
  inb_S128x64_S128x64_0_0 : ∀ a, (![0, 0] : Fin 2 → Nat) a + S128x64.size a ≤ S128x64.size a
  h_S128x64 : 0 < S128x64.numel
  inb_S6400x64_S6400x64_0_0 : ∀ a, (![0, 0] : Fin 2 → Nat) a + S6400x64.size a ≤ S6400x64.size a
  h_S6400x64 : 0 < S6400x64.numel
  inb_S51200x64_S51200x64_0_0 : ∀ a, (![0, 0] : Fin 2 → Nat) a + S51200x64.size a ≤ S51200x64.size a
  h_S51200x64 : 0 < S51200x64.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  h_S800x64 : 0 < S800x64.numel
  shapeCasts_S800x64_S800x64 : S800x64.ShapeCasts S800x64
  shapeCasts_S51200x64_S51200x64 : S51200x64.ShapeCasts S51200x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S51200x64 : S1x64.Broadcasts S51200x64
  slices_S51200x64_S50000x64_0_0 : S51200x64.Slices ![0, 0] S50000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S6400x128_S128x128_S6400x128_1_0_0_1_n_n_wf : DotDims.WF S6400x128 S128x128 S6400x128 [1] [0] [0] [1] [] []
  dot_S800x256_S800x128_S256x128_0_0_1_1_n_n_wf : DotDims.WF S800x256 S800x128 S256x128 [0] [0] [1] [1] [] []
  dot_S800x256_S256x128_S800x128_1_0_0_1_n_n_wf : DotDims.WF S800x256 S256x128 S800x128 [1] [0] [0] [1] [] []
  dot_S6400x128_S128x64_S6400x64_1_0_0_1_n_n_wf : DotDims.WF S6400x128 S128x64 S6400x64 [1] [0] [0] [1] [] []
  dot_S800x256_S800x64_S256x64_0_0_1_1_n_n_wf : DotDims.WF S800x256 S800x64 S256x64 [0] [0] [1] [1] [] []
  dot_S800x256_S256x64_S800x64_1_0_0_1_n_n_wf : DotDims.WF S800x256 S256x64 S800x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S51200x128.size a
  hwx0_0 : ∀ i : grid0.Coords, EltTy.bits .f32 = 32 ∨ (Rect.block (s := S51200x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S51200x128.size a
  hwx0_2 : ∀ i : grid0.Coords, EltTy.bits .f32 = 32 ∨ (Rect.block (s := S51200x128) S6400x128.size (cc0_transform_2 i) (hinb0_2 i)).WholeWords (EltTy.packing .f32)
  hrank1 : 0 < grid1.rank
  k1_t1_ok : k1_t1_loop.OK
  k1_mult1_dvd : ∀ k1_t1 : Fin k1_t1_loop.trips, 800 ∣ (k1_mult1 k1_t1).toNat
  k1_off1_inb : ∀ k1_t1 : Fin k1_t1_loop.trips, ∀ a, (k1_off1 k1_t1) a + S800x128.size a ≤ S51200x128.size a
  k1_t2_ok : k1_t2_loop.OK
  k1_mult2_dvd : ∀ k1_t2 : Fin k1_t2_loop.trips, 800 ∣ (k1_mult2 k1_t2).toNat
  k1_off2_inb : ∀ k1_t2 : Fin k1_t2_loop.trips, ∀ a, (k1_off2 k1_t2) a + S800x128.size a ≤ S51200x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x850176.size a
  hwx1_0 : ∀ i : grid1.Coords, EltTy.bits .i32 = 32 ∨ (Rect.block (s := S1x850176) S1x256.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x850176.size a
  hwx1_1 : ∀ i : grid1.Coords, EltTy.bits .i32 = 32 ∨ (Rect.block (s := S1x850176) S1x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x850176.size a
  hwx1_2 : ∀ i : grid1.Coords, EltTy.bits .f32 = 32 ∨ (Rect.block (s := S1x850176) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S51200x128.size a ≤ S51200x128.size a
  hwx1_3 : ∀ i : grid1.Coords, EltTy.bits .bf16 = 32 ∨ (Rect.block (s := S51200x128) S51200x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S51200x128.size a ≤ S51200x128.size a
  hwx1_5 : ∀ i : grid1.Coords, EltTy.bits .f32 = 32 ∨ (Rect.block (s := S51200x128) S51200x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S51200x128.size a
  hwx2_0 : ∀ i : grid2.Coords, EltTy.bits .f32 = 32 ∨ (Rect.block (s := S51200x128) S6400x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x64.size a ≤ S51200x64.size a
  hwx2_2 : ∀ i : grid2.Coords, EltTy.bits .f32 = 32 ∨ (Rect.block (s := S51200x64) S6400x64.size (cc2_transform_2 i) (hinb2_2 i)).WholeWords (EltTy.packing .f32)
  hrank3 : 0 < grid3.rank
  k3_t1_ok : k3_t1_loop.OK
  k3_mult1_dvd : ∀ k3_t1 : Fin k3_t1_loop.trips, 800 ∣ (k3_mult1 k3_t1).toNat
  k3_off1_inb : ∀ k3_t1 : Fin k3_t1_loop.trips, ∀ a, (k3_off1 k3_t1) a + S800x64.size a ≤ S51200x64.size a
  k3_t2_ok : k3_t2_loop.OK
  k3_mult2_dvd : ∀ k3_t2 : Fin k3_t2_loop.trips, 800 ∣ (k3_mult2 k3_t2).toNat
  k3_off2_inb : ∀ k3_t2 : Fin k3_t2_loop.trips, ∀ a, (k3_off2 k3_t2) a + S800x64.size a ≤ S51200x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256.size a ≤ S1x850176.size a
  hwx3_0 : ∀ i : grid3.Coords, EltTy.bits .i32 = 32 ∨ (Rect.block (s := S1x850176) S1x256.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x850176.size a
  hwx3_1 : ∀ i : grid3.Coords, EltTy.bits .i32 = 32 ∨ (Rect.block (s := S1x850176) S1x256.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x850176.size a
  hwx3_2 : ∀ i : grid3.Coords, EltTy.bits .f32 = 32 ∨ (Rect.block (s := S1x850176) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S51200x64.size a ≤ S51200x64.size a
  hwx3_3 : ∀ i : grid3.Coords, EltTy.bits .bf16 = 32 ∨ (Rect.block (s := S51200x64) S51200x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S51200x64.size a ≤ S51200x64.size a
  hwx3_5 : ∀ i : grid3.Coords, EltTy.bits .f32 = 32 ∨ (Rect.block (s := S51200x64) S51200x64.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S800x256_S800x128_S256x128_0_0_1_1_n_n : DotDims S800x256 S800x128 S256x128 where
  lhsContracting := [0]
  rhsContracting := [0]
  lhsNonContracting := [1]
  rhsNonContracting := [1]
  lhsBatch := []
  rhsBatch := []
  wf := dot_S800x256_S800x128_S256x128_0_0_1_1_n_n_wf
def dot_S800x256_S256x128_S800x128_1_0_0_1_n_n : DotDims S800x256 S256x128 S800x128 where
  lhsContracting := [1]
  rhsContracting := [0]
  lhsNonContracting := [0]
  rhsNonContracting := [1]
  lhsBatch := []
  rhsBatch := []
  wf := dot_S800x256_S256x128_S800x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def dot_S800x256_S800x64_S256x64_0_0_1_1_n_n : DotDims S800x256 S800x64 S256x64 where
  lhsContracting := [0]
  rhsContracting := [0]
  lhsNonContracting := [1]
  rhsNonContracting := [1]
  lhsBatch := []
  rhsBatch := []
  wf := dot_S800x256_S800x64_S256x64_0_0_1_1_n_n_wf
def dot_S800x256_S256x64_S800x64_1_0_0_1_n_n : DotDims S800x256 S256x64 S800x64 where
  lhsContracting := [1]
  rhsContracting := [0]
  lhsNonContracting := [0]
  rhsNonContracting := [1]
  lhsBatch := []
  rhsBatch := []
  wf := dot_S800x256_S256x64_S800x64_1_0_0_1_n_n_wf

abbrev win0_0 : Pipeline.Window sig grid0 :=
  Pipeline.Window.ofSpec (Memref.whole main_v39) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S1x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S51200x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S51200x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S6400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S1x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S1x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S51200x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S51200x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  A two-layer graph convolution over 50000 nodes and 850000 weighted edges (800000 given edges followed by one
  self-loop per node), as plain functions on the extended reals.

  An edge e has a source word, a destination word and a weight.  One layer maps node features h (one row per
  node) to: first the linear map of every row (lin), then, for node n, the sum over the edges e whose destination
  reads n of the source node's row times the edge's weight, plus a bias (conv).  The network is conv after lin, a
  clamp at zero from below, and conv after lin again.  The source word of an edge names its node as a signed
  integer clamped into the node range (nodeOf); on a word already in range that is the word's own value.
-/
import Idealize.ShloMosaic.PureOps.Ideal

noncomputable section

namespace Cert.Spec

open scoped BigOperators

/-- The node a source word names: its signed value clamped into [0, 49999]. -/
def nodeOf (s : BitVec 32) : Fin 50000 := ⟨min s.toInt.toNat 49999, by omega⟩

/-- A word in the node range names the node of its own value. -/
theorem nodeOf_val {s : BitVec 32} (h0 : 0 ≤ s.toInt) (h1 : s.toInt < 50000) : ((nodeOf s).val : Int) = s.toInt := by
  unfold nodeOf
  show ((min s.toInt.toNat 49999 : Nat) : Int) = s.toInt
  omega

/-- The linear map of one row: entry (n, o) of x · w. -/
def lin {K C : Nat} (x : Fin 50000 → Fin K → EReal) (w : Fin K → Fin C → EReal) (n : Fin 50000) (o : Fin C) : EReal :=
  ∑ k : Fin K, x n k * w k o

/-- One propagation: node n collects, over the edges that end at n, the source node's feature times the edge's
    weight; then the bias of the column. -/
def conv {C : Nat} (src dst : Fin 850000 → BitVec 32) (nrm : Fin 850000 → EReal)
    (h : Fin 50000 → Fin C → EReal) (b : Fin C → EReal) (n : Fin 50000) (o : Fin C) : EReal :=
  (∑ e : Fin 850000, if (dst e).toInt = (n.val : Int) then h (nodeOf (src e)) o * nrm e else 0) + b o

/-- The hidden layer: propagate x · W1, add b1, clamp at zero from below. -/
def hidden (src dst : Fin 850000 → BitVec 32) (nrm : Fin 850000 → EReal)
    (x : Fin 50000 → Fin 128 → EReal) (W1 : Fin 128 → Fin 128 → EReal) (b1 : Fin 128 → EReal)
    (n : Fin 50000) (k : Fin 128) : EReal :=
  max (conv src dst nrm (lin x W1) b1 n k) 0

/-- The network's output: propagate hidden · W2, add b2. -/
def out (src dst : Fin 850000 → BitVec 32) (nrm : Fin 850000 → EReal)
    (x : Fin 50000 → Fin 128 → EReal) (W1 : Fin 128 → Fin 128 → EReal) (b1 : Fin 128 → EReal)
    (W2 : Fin 128 → Fin 64 → EReal) (b2 : Fin 64 → EReal) (n : Fin 50000) (o : Fin 64) : EReal :=
  conv src dst nrm (lin (hidden src dst nrm x W1 b1) W2) b2 n o

end Cert.Spec

end
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.SpecAlgebra.lean ====
/-
  The law that joins two arrangements of one propagation step of the graph convolution, on the extended reals.

  Blocked arrangement: the 850000 edge positions, padded to 850176 = 3321 · 256, are walked in 3321 blocks of 256
  lanes.  A lane's message is a sum over the 51200 = 64 · 800 padded feature rows of a selector (the lane's weight
  where the row's number, as a 32-bit word, equals the lane's source word, else 0) times the row's feature; the
  message is added into node n where the word of n equals the lane's destination word.

  Plain arrangement: node n collects, over the real positions whose destination word reads n as a signed integer, the
  feature of the node the source word names times the weight.

  The two agree (agg_eq) when every source word is in the node range and the padded lanes carry weight 0.  The
  steps: a word equals the word of a small natural exactly when its signed value is that natural
  (ofNat_eq_iff_toInt_eq); a selector that is on at exactly one (chunk, row) pair collapses the double sum to one
  term (sum_sum_select); a lane of weight 0 sends nothing (lane_pad); a 0/1 factor times x is a choice between x
  and 0; and the sum over blocks and lanes is the sum over positions, the padding contributing 0 (sum_tiles_pad).
  Only 0 · x = 0, 1 · x = x, x · 0 = 0 and commutativity are used: no distributivity, so infinite features are
  covered.  conv_eq_agg and lin_chunk restate the result for whole layers: the propagation with its bias, and a
  row of the linear map read through the chunked numbering of the rows.
-/
import proofs.«415787_j87273735454854_1_alg».proof.Proof.Spec
import proofs.«415787_j87273735454854_1_alg».proof.Proof.LibTileSum

noncomputable section

namespace Cert.Spec

open scoped BigOperators

/-- A word equals the word of a natural below 2^31 exactly when its signed value is that natural (a word that is
    negative as a signed integer equals the word of no such natural). -/
theorem ofNat_eq_iff_toInt_eq {a : ℕ} (ha : a < 2 ^ 31) (w : BitVec 32) :
    BitVec.ofNat 32 a = w ↔ w.toInt = (a : Int) := by
  constructor
  · intro h
    subst h
    rw [BitVec.toInt_eq_toNat_cond, BitVec.toNat_ofNat]
    have hm : a % 2 ^ 32 = a := Nat.mod_eq_of_lt (by omega)
    rw [hm]
    split <;> omega
  · intro h
    apply BitVec.eq_of_toNat_eq
    rw [BitVec.toNat_ofNat]
    rw [BitVec.toInt_eq_toNat_cond] at h
    have hw := w.isLt
    split at h <;> omega

/-- A double sum whose terms carry a selector that is on at exactly one pair (k0, r0) is the term at that pair: every
    other term is 0 · x = 0. -/
theorem sum_sum_select {K R : ℕ} (P : Fin K → Fin R → Prop) [∀ k r, Decidable (P k r)] (w : EReal)
    (H : Fin K → Fin R → EReal) (k0 : Fin K) (r0 : Fin R) (h0 : P k0 r0)
    (huniq : ∀ k r, P k r → k = k0 ∧ r = r0) :
    ∑ k : Fin K, ∑ r : Fin R, (if P k r then w else 0) * H k r = w * H k0 r0 := by
  have hin : ∑ r : Fin R, (if P k0 r then w else 0) * H k0 r = w * H k0 r0 := by
    rw [Finset.sum_eq_single r0, if_pos h0]
    · intro r _ hr
      rw [if_neg (fun hp => hr (huniq k0 r hp).2), zero_mul]
    · intro hn
      exact absurd (Finset.mem_univ _) hn
  rw [Finset.sum_eq_single k0, hin]
  · intro k _ hk
    exact Finset.sum_eq_zero fun r _ => by
      rw [if_neg (fun hp => hk (huniq k r hp).1), zero_mul]
  · intro hn
    exact absurd (Finset.mem_univ _) hn

/-- S tiles of T positions cover N ≤ T · S real positions and then padding; a function of the position number that
    vanishes on the padding sums over the tiles to its sum over the real positions. -/
theorem sum_tiles_pad {M : Type*} [AddCommMonoid M] (T S N : ℕ) (hN : N ≤ T * S) (G : ℕ → M)
    (hG : ∀ e, N ≤ e → G e = 0) :
    ∑ s : Fin S, ∑ k : Fin T, G (T * s.val + k.val) = ∑ e : Fin N, G e.val := by
  rw [Fin.sum_univ_eq_sum_range (fun s => ∑ k : Fin T, G (T * s + k.val)) S, Cert.Lib.sum_fin_tiles T S G,
    Fin.sum_univ_eq_sum_range G (T * S), Fin.sum_univ_eq_sum_range G N]
  symm
  refine Finset.sum_subset (Finset.range_mono hN) fun e _ he => hG e ?_
  rw [Finset.mem_range] at he
  omega

/-- One real edge position seen from node n.  The source word s is in the node range, so exactly one (chunk, row)
    pair has 800 · chunk + row equal to the value of s, and the row there is the feature of the node s names; the
    message is that feature times the weight, and it lands on n exactly when the destination word reads n. -/
theorem lane_real (s d : BitVec 32) (w : EReal) (hs0 : 0 ≤ s.toInt) (hs1 : s.toInt < 50000)
    (Hc : Fin 64 → Fin 800 → EReal) (h : Fin 50000 → EReal)
    (hH : ∀ (k : Fin 64) (r : Fin 800) (hn : 800 * k.val + r.val < 50000), Hc k r = h ⟨800 * k.val + r.val, hn⟩)
    (n : Fin 50000) :
    (if BitVec.ofNat 32 n.val = d then (1 : EReal) else 0)
        * ∑ k : Fin 64, ∑ r : Fin 800, (if BitVec.ofNat 32 (800 * k.val + r.val) = s then w else 0) * Hc k r
      = if d.toInt = (n.val : Int) then h (nodeOf s) * w else 0 := by
  have hm : ((nodeOf s).val : Int) = s.toInt := nodeOf_val hs0 hs1
  have hlt : (nodeOf s).val < 50000 := (nodeOf s).isLt
  let k0 : Fin 64 := ⟨(nodeOf s).val / 800, by omega⟩
  let r0 : Fin 800 := ⟨(nodeOf s).val % 800, Nat.mod_lt _ (by norm_num)⟩
  have hkr : 800 * k0.val + r0.val = (nodeOf s).val := Nat.div_add_mod _ 800
  have hsel := sum_sum_select (fun (k : Fin 64) (r : Fin 800) => BitVec.ofNat 32 (800 * k.val + r.val) = s) w Hc k0 r0
    ((ofNat_eq_iff_toInt_eq (by omega) s).mpr (by omega))
    (fun k r hp => by
      have hk := k.isLt
      have hr := r.isLt
      have h1 := (ofNat_eq_iff_toInt_eq (by omega) s).mp hp
      constructor
      · apply Fin.ext
        show k.val = (nodeOf s).val / 800
        omega
      · apply Fin.ext
        show r.val = (nodeOf s).val % 800
        omega)
  rw [hsel, hH k0 r0 (by omega)]
  have hrow : (⟨800 * k0.val + r0.val, by omega⟩ : Fin 50000) = nodeOf s := Fin.ext hkr
  rw [hrow, Cert.Lib.indicator_mul (ofNat_eq_iff_toInt_eq (by have := n.isLt; omega) d), mul_comm]

/-- A position of weight 0 sends nothing, whatever its source and destination words are. -/
theorem lane_pad {K R : ℕ} (a : EReal) (P : Fin K → Fin R → Prop) [∀ k r, Decidable (P k r)]
    (H : Fin K → Fin R → EReal) :
    a * ∑ k : Fin K, ∑ r : Fin R, (if P k r then (0 : EReal) else 0) * H k r = 0 := by
  rw [Finset.sum_eq_zero (fun k _ => Finset.sum_eq_zero (fun r _ => by rw [ite_self, zero_mul])), mul_zero]

/-- What edge position e' gives node n in the plain arrangement, as a function of the bare position number (0 past
    the last real position). -/
def aggTerm (src dst : Fin 850000 → BitVec 32) (nrm : Fin 850000 → EReal) (h : Fin 50000 → EReal) (n : Fin 50000)
    (e' : ℕ) : EReal :=
  if he : e' < 850000 then
    (if (dst ⟨e', he⟩).toInt = (n.val : Int) then h (nodeOf (src ⟨e', he⟩)) * nrm ⟨e', he⟩ else 0)
  else 0

/-- The blocked arrangement of one propagation step equals the plain one.  Lane j of block t is position 256 · t + j:
    below 850000 it carries that position's words and weight, from 850000 on it carries weight 0 (its words are
    unconstrained).  Feature row r of chunk k is the feature of node 800 · k + r where that is a node. -/
theorem agg_eq
    (src dst : Fin 850000 → BitVec 32) (nrm : Fin 850000 → EReal)
    (hsrc : ∀ e, 0 ≤ (src e).toInt ∧ (src e).toInt < 50000)
    (srcB dstB : Fin 3321 → Fin 256 → BitVec 32) (nrmB : Fin 3321 → Fin 256 → EReal)
    (hsrcB : ∀ (t : Fin 3321) (j : Fin 256) (h : 256 * t.val + j.val < 850000), srcB t j = src ⟨256 * t.val + j.val, h⟩)
    (hdstB : ∀ (t : Fin 3321) (j : Fin 256) (h : 256 * t.val + j.val < 850000), dstB t j = dst ⟨256 * t.val + j.val, h⟩)
    (hnrmB : ∀ (t : Fin 3321) (j : Fin 256) (h : 256 * t.val + j.val < 850000), nrmB t j = nrm ⟨256 * t.val + j.val, h⟩)
    (hpad : ∀ (t : Fin 3321) (j : Fin 256), 850000 ≤ 256 * t.val + j.val → nrmB t j = 0)
    (Hc : Fin 64 → Fin 800 → EReal) (h : Fin 50000 → EReal)
    (hH : ∀ (k : Fin 64) (r : Fin 800) (hn : 800 * k.val + r.val < 50000), Hc k r = h ⟨800 * k.val + r.val, hn⟩)
    (n : Fin 50000) :
    (∑ t : Fin 3321, ∑ j : Fin 256,
        (if BitVec.ofNat 32 n.val = dstB t j then (1 : EReal) else 0)
          * ∑ k : Fin 64, ∑ r : Fin 800,
              (if BitVec.ofNat 32 (800 * k.val + r.val) = srcB t j then nrmB t j else 0) * Hc k r)
      = ∑ e : Fin 850000, if (dst e).toInt = (n.val : Int) then h (nodeOf (src e)) * nrm e else 0 := by
  -- lane by lane: a real lane gives its position's term, a padded lane gives 0
  have hterm : ∀ (t : Fin 3321) (j : Fin 256),
      (if BitVec.ofNat 32 n.val = dstB t j then (1 : EReal) else 0)
          * ∑ k : Fin 64, ∑ r : Fin 800,
              (if BitVec.ofNat 32 (800 * k.val + r.val) = srcB t j then nrmB t j else 0) * Hc k r
        = aggTerm src dst nrm h n (256 * t.val + j.val) := by
    intro t j
    by_cases he : 256 * t.val + j.val < 850000
    · rw [hsrcB t j he, hdstB t j he, hnrmB t j he, aggTerm, dif_pos he]
      exact lane_real _ _ _ (hsrc _).1 (hsrc _).2 Hc h hH n
    · rw [hpad t j (by omega), aggTerm, dif_neg he]
      exact lane_pad _ _ Hc
  -- blocks and lanes are the positions; the padding contributes 0
  rw [Finset.sum_congr rfl (fun t _ => Finset.sum_congr rfl (fun j _ => hterm t j)),
    sum_tiles_pad 256 3321 850000 (by norm_num) (aggTerm src dst nrm h n) (fun e he => dif_neg (by omega))]
  refine Finset.sum_congr rfl fun e _ => ?_
  rw [aggTerm, dif_pos e.isLt]

/-- The same for a whole layer: the blocked arrangement of column o of the features, plus the bias of the column, is
    the propagation conv at (n, o). -/
theorem conv_eq_agg {C : ℕ}
    (src dst : Fin 850000 → BitVec 32) (nrm : Fin 850000 → EReal)
    (hsrc : ∀ e, 0 ≤ (src e).toInt ∧ (src e).toInt < 50000)
    (srcB dstB : Fin 3321 → Fin 256 → BitVec 32) (nrmB : Fin 3321 → Fin 256 → EReal)
    (hsrcB : ∀ (t : Fin 3321) (j : Fin 256) (h : 256 * t.val + j.val < 850000), srcB t j = src ⟨256 * t.val + j.val, h⟩)
    (hdstB : ∀ (t : Fin 3321) (j : Fin 256) (h : 256 * t.val + j.val < 850000), dstB t j = dst ⟨256 * t.val + j.val, h⟩)
    (hnrmB : ∀ (t : Fin 3321) (j : Fin 256) (h : 256 * t.val + j.val < 850000), nrmB t j = nrm ⟨256 * t.val + j.val, h⟩)
    (hpad : ∀ (t : Fin 3321) (j : Fin 256), 850000 ≤ 256 * t.val + j.val → nrmB t j = 0)
    (Hc : Fin 64 → Fin 800 → Fin C → EReal) (hf : Fin 50000 → Fin C → EReal)
    (hH : ∀ (k : Fin 64) (r : Fin 800) (hn : 800 * k.val + r.val < 50000) (o : Fin C),
      Hc k r o = hf ⟨800 * k.val + r.val, hn⟩ o)
    (b : Fin C → EReal) (n : Fin 50000) (o : Fin C) :
    (∑ t : Fin 3321, ∑ j : Fin 256,
        (if BitVec.ofNat 32 n.val = dstB t j then (1 : EReal) else 0)
          * ∑ k : Fin 64, ∑ r : Fin 800,
              (if BitVec.ofNat 32 (800 * k.val + r.val) = srcB t j then nrmB t j else 0) * Hc k r o) + b o
      = conv src dst nrm hf b n o := by
  unfold conv
  rw [agg_eq src dst nrm hsrc srcB dstB nrmB hsrcB hdstB hnrmB hpad (fun k r => Hc k r o) (fun m => hf m o)
    (fun k r hn => hH k r hn o) n]

/-- A row of the linear map read through the chunked numbering of the rows: if row r of chunk k of Xc is row
    800 · k + r of x, the contraction of that row with column o of w is lin x w at that node. -/
theorem lin_chunk {K C : ℕ} (x : Fin 50000 → Fin K → EReal) (w : Fin K → Fin C → EReal)
    (Xc : Fin 64 → Fin 800 → Fin K → EReal)
    (hX : ∀ (k : Fin 64) (r : Fin 800) (hn : 800 * k.val + r.val < 50000) (c : Fin K),
      Xc k r c = x ⟨800 * k.val + r.val, hn⟩ c)
    (k : Fin 64) (r : Fin 800) (hn : 800 * k.val + r.val < 50000) (o : Fin C) :
    ∑ c : Fin K, Xc k r c * w c o = lin x w ⟨800 * k.val + r.val, hn⟩ o := by
  unfold lin
  exact Finset.sum_congr rfl fun c _ => by rw [hX k r hn c]

end Cert.Spec

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.KMat.lean ====
/-
  The two dense products of the kernel, read at an entry.

  Regions 0 and 2 of the kernel's @main are row-tiled matrix products: 8 grid points, point t taking the row tile
  [6400, K] of the left operand at block row t and the whole right operand [K, n], and writing back the row tile
  [6400, n] of the output at block row t. The body changes both operands' format (the identity on extended reals)
  and multiplies them into a zero accumulator, so what it leaves at entry (p, q) of the tile is the sum over k of
  tile (p, k) * right (k, q). Row p of the tile at point t is row 6400 * t + p of the left operand, so each
  written-back tile is the restriction of ONE whole-array function, the product
      (n, o) ↦ ∑ k, left (n, k) * right (k, o),
  and the 8 tiles cover the output array (row n lies in the tile of point n / 6400). Hence the output array after
  the region is that product, stated here over the region-entry contents V, index by index.
-/
import proofs.«415787_j87273735454854_1_alg».proof.Proof.FrameKernelIdeal
import proofs.«415787_j87273735454854_1_alg».proof.Proof.LibRowTile
import Idealize.ShloMosaic.PureOps.Ideal.Laws
import Idealize.ShloMosaic.Lib.ValueIdx
import Idealize.ShloMosaic.Lib.Pipeline.Value

noncomputable section

namespace Cert.KernelIdeal.KMat

open Idealize.ShloMosaic Idealize.ShloMosaic.ValueIdx Idealize.ShloMosaic.TcCoe
open Idealize.ShloMosaic.Pipeline (Dat)
open Cert.KernelIdeal Cert.KernelIdeal.Gen
open scoped BigOperators

/-- The zero offsets of a whole-buffer access, however spelt. -/
theorem hz : (![0, 0] : Fin 2 → Nat) = fun _ => 0 := funext fun a => by fin_cases a <;> rfl

-- the TensorCore's buffer contents when a region is entered: the parameter both regions' facts are stated at
variable (V : (c : Dev nD) → (b : Ref sig .tc) → Buf (Elt Ideal) ((c : Thread nD τ).loc b))

/-! ## Region 0: x_pad [51200,128] times W1 [128,128] -/

/-- The dimension numbers of the row tile's product are those of a plain product. -/
theorem plain0 : Cert.Lib.IsPlain dot_S6400x128_S128x128_S6400x128_1_0_0_1_n_n where
  lc := rfl
  rc := rfl
  ln := rfl
  rn := rfl
  lb := rfl
  rb := rfl
  rank := rfl
  size := rfl

/-- The whole product: entry (n, o) is the sum over k of A (n, k) * B (k, o). -/
def prod0 (A : S51200x128.Idx → EReal) (B : S128x128.Idx → EReal) : S51200x128.Idx → EReal :=
  fun i => ∑ k : Fin 128, A (ix2 (i 0) k) * B (ix2 k (i 1))

/-- The body's payload at an entry (p, q) of the tile: both format changes are the identity on extended reals,
    and the product into a zero accumulator is the contraction sum, re-indexed over the contracted coordinate. -/
theorem pay0_apply (x0 : Vec Ideal S6400x128 .f32) (x1 : Vec Ideal S128x128 .f32) (j : S6400x128.Idx) :
    (k0_pay1 (F := Ideal) x0 x1 : S6400x128.Idx → EReal) j
      = ∑ k : Fin 128, (x0 : S6400x128.Idx → EReal) (ix2 (j 0) k) * (x1 : S128x128.Idx → EReal) (ix2 k (j 1)) := by
  unfold k0_pay1
  simp only [matmul]
  rw [Ideal.matmul_constant_zero_apply, plain0.sum_eq, shapeCast_self]
  rfl

/-- A row tile of the product: if row (j 0) of the tile x0 is row (i 0) of A, the right operand is B, and j, i
    name the same column, the payload at j is the whole product at i. -/
theorem pay0_tile (A : S51200x128.Idx → EReal) (B : S128x128.Idx → EReal)
    (x0 : Vec Ideal S6400x128 .f32) (x1 : Vec Ideal S128x128 .f32) (j : S6400x128.Idx) (i : S51200x128.Idx)
    (hrow : ∀ k : Fin 128, (x0 : S6400x128.Idx → EReal) (ix2 (j 0) k) = A (ix2 (i 0) k))
    (hB : ∀ y : S128x128.Idx, (x1 : S128x128.Idx → EReal) y = B y) (hcol : j 1 = i 1) :
    (k0_pay1 (F := Ideal) x0 x1 : S6400x128.Idx → EReal) j = prod0 A B i := by
  rw [pay0_apply]
  unfold prod0
  exact Finset.sum_congr rfl fun k _ => by rw [hrow k, hB, hcol]

/-- The printed index maps, decided over the 8 grid points: the left operand's and the output's row tiles are at
    block row t, column block 0; the right operand's block is the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the output is some point's. -/
theorem onto0 : ∀ q : Fin 8, ∃ t : Fin cfg0.N, t.val = q.val :=
  (by decide +kernel : ∀ q : Fin 8, ∃ t : Fin grid0.N, t.val = q.val)

/-- An index of the output array is in point t's block iff each coordinate is in the block's range on its axis. -/
theorem mem_blk0 (t : Fin cfg0.N) (i : S51200x128.Idx) :
    i ∈ ((cfg0.win 2).blk t).view.set ↔ ∀ a : Fin 2, win0_2.index t a * S6400x128.size a ≤ (i a).val ∧ (i a).val < win0_2.index t a * S6400x128.size a + S6400x128.size a := by
  show i ∈ ((View.whole main_v42).slice (win0_2.rect t)).set ↔ _
  rw [View.set_slice_whole, Rect.mem_set_unit]
  exact Iff.rfl

/-- The output's 8 row tiles cover the array: row n is in the tile of point n / 6400. -/
theorem cover0 (i : S51200x128.Idx) : ∃ t : Fin cfg0.N, (cfg0.win 2).flush t = true ∧ i ∈ ((cfg0.win 2).blk t).view.set := by
  have hi0 : (i 0).val < 51200 := (i 0).isLt
  have hi1 : (i 1).val < 128 := (i 1).isLt
  obtain ⟨t, ht⟩ := onto0 ⟨(i 0).val / 6400, by omega⟩
  obtain ⟨-, -, -, -, e4, e5⟩ := idx0 t
  refine ⟨t, flush0_2 t, ?_⟩
  rw [mem_blk0]
  intro a
  match a with
  | ⟨0, _⟩ => show win0_2.index t (0 : Fin 2) * 6400 ≤ (i 0).val ∧ (i 0).val < win0_2.index t (0 : Fin 2) * 6400 + 6400; simp only at ht; omega
  | ⟨1, _⟩ => show win0_2.index t (1 : Fin 2) * 128 ≤ (i 1).val ∧ (i 1).val < win0_2.index t (1 : Fin 2) * 128 + 128; omega

/-- WHAT POINT t WRITES BACK in region 0 is block t of the product of the two operand arrays as the region finds
    them: the body's one store leaves its payload; the left block's row p is the array's row 6400 * t + p, the
    right block is the whole matrix, and the output block's entry (p, q) is the array's entry (6400 * t + p, q). -/
theorem flushed0_eq (c : Dev nD) (t : Fin cfg0.N) :
    (GenP.dat0 (F := Ideal) V c).flushed 2 t
      = ((cfg0.win 2).blk t).view.read (Elt Ideal) (prod0 (V c (Pipeline.arrRef spec0 0)) (V c (Pipeline.arrRef spec0 1))) := by
  show (cfg0.win 2).cut (grid0.coords t) ((GenP.dat0 (F := Ideal) V c).after 2 t) = _
  rw [GenP.after0_2]
  unfold GenP.out0_2
  rw [View.canon_unit_zero hz]
  simp only [View.ld_unit_zero (S := S6400x128) hz, View.ld_unit_zero (S := S128x128) hz]
  obtain ⟨e0, e1, e2, e3, e4, e5⟩ := idx0 t
  funext j
  show (k0_pay1 (F := Ideal) (GenP.iblk0 V c 0 t) (GenP.iblk0 V c 1 t) : S6400x128.Idx → EReal) j
    = prod0 (V c (Pipeline.arrRef spec0 0)) (V c (Pipeline.arrRef spec0 1)) (((cfg0.win 2).blk t).view.emb j)
  refine pay0_tile _ _ _ _ j _ (fun k => ?_) (fun y => ?_) ?_
  · show V c (Pipeline.arrRef spec0 0) (((cfg0.win 0).blk t).view.emb (ix2 (j 0) k))
      = V c (Pipeline.arrRef spec0 0) (ix2 ((((cfg0.win 2).blk t).view.emb j) 0) k)
    congr 1
    funext a; apply Fin.ext
    match a with
    | ⟨0, _⟩ => show win0_0.index t (0 : Fin 2) * 6400 + 1 * (j 0).val = win0_2.index t (0 : Fin 2) * 6400 + 1 * (j 0).val; omega
    | ⟨1, _⟩ => show win0_0.index t (1 : Fin 2) * 128 + 1 * k.val = k.val; omega
  · show V c (Pipeline.arrRef spec0 1) (((cfg0.win 1).blk t).view.emb y) = V c (Pipeline.arrRef spec0 1) y
    congr 1
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · apply Fin.ext
    show (j 1).val = win0_2.index t (1 : Fin 2) * 128 + 1 * (j 1).val; omega

/-- The output array of region 0 after its 8 points: the product of the operand arrays. -/
theorem arr0 (c : Dev nD) :
    (GenP.dat0 (F := Ideal) V c).arrAt 2 cfg0.N = prod0 (V c (Pipeline.arrRef spec0 0)) (V c (Pipeline.arrRef spec0 1)) :=
  (GenP.dat0 (F := Ideal) V c).arrAt_eq_of_cover 2 _ (fun t _ => flushed0_eq V c t) cover0

/-- Region 0's operand arrays as the region finds them, and its output array after the region, as functions on the
    literal index types (the buffers' types are those functions' types, by unfolding). -/
abbrev lhs0 (c : Dev nD) : S51200x128.Idx → EReal := V c (Pipeline.arrRef spec0 0)
abbrev rhs0 (c : Dev nD) : S128x128.Idx → EReal := V c (Pipeline.arrRef spec0 1)
abbrev res0 (c : Dev nD) : S51200x128.Idx → EReal := (GenP.dat0 (F := Ideal) V c).arrAt 2 cfg0.N

/-- Region 0 at an entry: row n of the left operand against column o of the right operand. -/
theorem mat0_apply (c : Dev nD) (n : Fin 51200) (o : Fin 128) :
    res0 V c (ix2 n o) = ∑ k : Fin 128, lhs0 V c (ix2 n k) * rhs0 V c (ix2 k o) := by
  show ((GenP.dat0 (F := Ideal) V c).arrAt 2 cfg0.N : S51200x128.Idx → EReal) (ix2 n o) = _
  rw [arr0]
  rfl

/-! ## Region 2: agg1 [51200,128] times W2 [128,64] -/

/-- The dimension numbers of the row tile's product are those of a plain product. -/
theorem plain2 : Cert.Lib.IsPlain dot_S6400x128_S128x64_S6400x64_1_0_0_1_n_n where
  lc := rfl
  rc := rfl
  ln := rfl
  rn := rfl
  lb := rfl
  rb := rfl
  rank := rfl
  size := rfl

/-- The whole product: entry (n, o) is the sum over k of A (n, k) * B (k, o). -/
def prod2 (A : S51200x128.Idx → EReal) (B : S128x64.Idx → EReal) : S51200x64.Idx → EReal :=
  fun i => ∑ k : Fin 128, A (ix2 (i 0) k) * B (ix2 k (i 1))

/-- The body's payload at an entry (p, q) of the tile: both format changes are the identity on extended reals,
    and the product into a zero accumulator is the contraction sum, re-indexed over the contracted coordinate. -/
theorem pay2_apply (x0 : Vec Ideal S6400x128 .f32) (x1 : Vec Ideal S128x64 .f32) (j : S6400x64.Idx) :
    (k2_pay1 (F := Ideal) x0 x1 : S6400x64.Idx → EReal) j
      = ∑ k : Fin 128, (x0 : S6400x128.Idx → EReal) (ix2 (j 0) k) * (x1 : S128x64.Idx → EReal) (ix2 k (j 1)) := by
  unfold k2_pay1
  simp only [matmul]
  rw [Ideal.matmul_constant_zero_apply, plain2.sum_eq, shapeCast_self]
  rfl

/-- A row tile of the product: if row (j 0) of the tile x0 is row (i 0) of A, the right operand is B, and j, i
    name the same column, the payload at j is the whole product at i. -/
theorem pay2_tile (A : S51200x128.Idx → EReal) (B : S128x64.Idx → EReal)
    (x0 : Vec Ideal S6400x128 .f32) (x1 : Vec Ideal S128x64 .f32) (j : S6400x64.Idx) (i : S51200x64.Idx)
    (hrow : ∀ k : Fin 128, (x0 : S6400x128.Idx → EReal) (ix2 (j 0) k) = A (ix2 (i 0) k))
    (hB : ∀ y : S128x64.Idx, (x1 : S128x64.Idx → EReal) y = B y) (hcol : j 1 = i 1) :
    (k2_pay1 (F := Ideal) x0 x1 : S6400x64.Idx → EReal) j = prod2 A B i := by
  rw [pay2_apply]
  unfold prod2
  exact Finset.sum_congr rfl fun k _ => by rw [hrow k, hB, hcol]

/-- The printed index maps, decided over the 8 grid points: the left operand's and the output's row tiles are at
    block row t, column block 0; the right operand's block is the whole matrix. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row of the output is some point's. -/
theorem onto2 : ∀ q : Fin 8, ∃ t : Fin cfg2.N, t.val = q.val :=
  (by decide +kernel : ∀ q : Fin 8, ∃ t : Fin grid2.N, t.val = q.val)

/-- An index of the output array is in point t's block iff each coordinate is in the block's range on its axis. -/
theorem mem_blk2 (t : Fin cfg2.N) (i : S51200x64.Idx) :
    i ∈ ((cfg2.win 2).blk t).view.set ↔ ∀ a : Fin 2, win2_2.index t a * S6400x64.size a ≤ (i a).val ∧ (i a).val < win2_2.index t a * S6400x64.size a + S6400x64.size a := by
  show i ∈ ((View.whole main_v45).slice (win2_2.rect t)).set ↔ _
  rw [View.set_slice_whole, Rect.mem_set_unit]
  exact Iff.rfl

/-- The output's 8 row tiles cover the array: row n is in the tile of point n / 6400. -/
theorem cover2 (i : S51200x64.Idx) : ∃ t : Fin cfg2.N, (cfg2.win 2).flush t = true ∧ i ∈ ((cfg2.win 2).blk t).view.set := by
  have hi0 : (i 0).val < 51200 := (i 0).isLt
  have hi1 : (i 1).val < 64 := (i 1).isLt
  obtain ⟨t, ht⟩ := onto2 ⟨(i 0).val / 6400, by omega⟩
  obtain ⟨-, -, -, -, e4, e5⟩ := idx2 t
  refine ⟨t, flush2_2 t, ?_⟩
  rw [mem_blk2]
  intro a
  match a with
  | ⟨0, _⟩ => show win2_2.index t (0 : Fin 2) * 6400 ≤ (i 0).val ∧ (i 0).val < win2_2.index t (0 : Fin 2) * 6400 + 6400; simp only at ht; omega
  | ⟨1, _⟩ => show win2_2.index t (1 : Fin 2) * 64 ≤ (i 1).val ∧ (i 1).val < win2_2.index t (1 : Fin 2) * 64 + 64; omega

/-- WHAT POINT t WRITES BACK in region 2 is block t of the product of the two operand arrays as the region finds
    them: the body's one store leaves its payload; the left block's row p is the array's row 6400 * t + p, the
    right block is the whole matrix, and the output block's entry (p, q) is the array's entry (6400 * t + p, q). -/
theorem flushed2_eq (c : Dev nD) (t : Fin cfg2.N) :
    (GenP.dat2 (F := Ideal) V c).flushed 2 t
      = ((cfg2.win 2).blk t).view.read (Elt Ideal) (prod2 (V c (Pipeline.arrRef spec2 0)) (V c (Pipeline.arrRef spec2 1))) := by
  show (cfg2.win 2).cut (grid2.coords t) ((GenP.dat2 (F := Ideal) V c).after 2 t) = _
  rw [GenP.after2_2]
  unfold GenP.out2_2
  rw [View.canon_unit_zero hz]
  simp only [View.ld_unit_zero (S := S6400x128) hz, View.ld_unit_zero (S := S128x64) hz]
  obtain ⟨e0, e1, e2, e3, e4, e5⟩ := idx2 t
  funext j
  show (k2_pay1 (F := Ideal) (GenP.iblk2 V c 0 t) (GenP.iblk2 V c 1 t) : S6400x64.Idx → EReal) j
    = prod2 (V c (Pipeline.arrRef spec2 0)) (V c (Pipeline.arrRef spec2 1)) (((cfg2.win 2).blk t).view.emb j)
  refine pay2_tile _ _ _ _ j _ (fun k => ?_) (fun y => ?_) ?_
  · show V c (Pipeline.arrRef spec2 0) (((cfg2.win 0).blk t).view.emb (ix2 (j 0) k))
      = V c (Pipeline.arrRef spec2 0) (ix2 ((((cfg2.win 2).blk t).view.emb j) 0) k)
    congr 1
    funext a; apply Fin.ext
    match a with
    | ⟨0, _⟩ => show win2_0.index t (0 : Fin 2) * 6400 + 1 * (j 0).val = win2_2.index t (0 : Fin 2) * 6400 + 1 * (j 0).val; omega
    | ⟨1, _⟩ => show win2_0.index t (1 : Fin 2) * 128 + 1 * k.val = k.val; omega
  · show V c (Pipeline.arrRef spec2 1) (((cfg2.win 1).blk t).view.emb y) = V c (Pipeline.arrRef spec2 1) y
    congr 1
    funext a; apply Fin.ext
    match a with
    | ⟨0, _⟩ => show win2_1.index t (0 : Fin 2) * 128 + 1 * (y 0).val = (y 0).val; omega
    | ⟨1, _⟩ => show win2_1.index t (1 : Fin 2) * 64 + 1 * (y 1).val = (y 1).val; omega
  · apply Fin.ext
    show (j 1).val = win2_2.index t (1 : Fin 2) * 64 + 1 * (j 1).val; omega

/-- The output array of region 2 after its 8 points: the product of the operand arrays. -/
theorem arr2 (c : Dev nD) :
    (GenP.dat2 (F := Ideal) V c).arrAt 2 cfg2.N = prod2 (V c (Pipeline.arrRef spec2 0)) (V c (Pipeline.arrRef spec2 1)) :=
  (GenP.dat2 (F := Ideal) V c).arrAt_eq_of_cover 2 _ (fun t _ => flushed2_eq V c t) cover2

/-- Region 2's operand arrays as the region finds them, and its output array after the region, as functions on the
    literal index types (the buffers' types are those functions' types, by unfolding). -/
abbrev lhs2 (c : Dev nD) : S51200x128.Idx → EReal := V c (Pipeline.arrRef spec2 0)
abbrev rhs2 (c : Dev nD) : S128x64.Idx → EReal := V c (Pipeline.arrRef spec2 1)
abbrev res2 (c : Dev nD) : S51200x64.Idx → EReal := (GenP.dat2 (F := Ideal) V c).arrAt 2 cfg2.N

/-- Region 2 at an entry: row n of the left operand against column o of the right operand. -/
theorem mat2_apply (c : Dev nD) (n : Fin 51200) (o : Fin 64) :
    res2 V c (ix2 n o) = ∑ k : Fin 128, lhs2 V c (ix2 n k) * rhs2 V c (ix2 k o) := by
  show ((GenP.dat2 (F := Ideal) V c).arrAt 2 cfg2.N : S51200x64.Idx → EReal) (ix2 n o) = _
  rw [arr2]
  rfl

end Cert.KernelIdeal.KMat

end
-- ==== Proof.KAgg1a.lean ====
/-
  The aggregation kernel's arithmetic at one entry, and its two inner loops.

  An edge block holds 256 lanes; lane j carries a source word, a destination word and a weight.  The node table has
  51200 rows, swept in 64 chunks of 800.  For chunk k the kernel builds the selector sel[r, j] = weight[j] where the
  word of row 800 k + r EQUALS lane j's source word (else 0) and adds selᵀ · table[800 k … 800 k + 799, :] into a
  [256,128] scratch; after the 64 chunks the scratch at (j, o) is the sum over all rows of the selected, weighted
  table entries.  Then for chunk k it builds onehot[r, j] = 1 where the word of row 800 k + r equals lane j's
  destination word and adds onehot · scratch into rows 800 k … 800 k + 799 of the output.

  Here: each payload read at an entry over the extended reals (a product read as the sum over its contracted
  coordinate; a select on a word equality as an if; no wrap in the word 800 k + r); each loop trip's single store;
  the first loop by induction on the trips (entry (j, o) gains one chunk's term per trip); the second loop by
  induction on the trips (row n gains its term at trip n / 800 and is otherwise left alone).
-/
import proofs.«415787_j87273735454854_1_alg».proof.Proof.Gen.KernelIdeal.Loops
import Idealize.ShloMosaic.Lib.Pipeline.Value
import Idealize.ShloMosaic.Lib.ValueIdx
import Idealize.ShloMosaic.Lib.WritesUnit
import Idealize.ShloMosaic.PureOps.Ideal.Laws

set_option maxRecDepth 8192

noncomputable section

namespace Cert.KernelIdeal.KAgg1

open Cert.KernelIdeal.Gen
open Idealize.ShloMosaic Idealize.ShloMosaic.TcCoe Idealize.ShloMosaic.ValueIdx
open Idealize.SL.Sem
open scoped BigOperators

theorem trips1 : k1_t1_loop.trips = 64 := by decide
theorem trips2 : k1_t2_loop.trips = 64 := by decide

/-- The word of row 800 k + r. -/
theorem word_row (k r : Nat) (hk : k < 64) (hr : r < 800) :
    IntOp.addi (Scalar.muli (Scalar.addi 0#32 (Scalar.muli (Scf.iv 0#32 1#32 k) 1#32)) 800#32) (BitVec.ofNat 32 r)
      = BitVec.ofNat 32 (800 * k + r) := by
  apply BitVec.eq_of_toNat_eq
  simp only [IntOp.addi, Scalar.muli, Scalar.addi, IntOp.muli, Scf.iv, BitVec.toNat_add, BitVec.toNat_mul, BitVec.toNat_ofNat]
  omega

theorem lhs3_0 (i : S256x128.Idx) (q : dot_S800x256_S800x128_S256x128_0_0_1_1_n_n.contr.Idx) :
    (dot_S800x256_S800x128_S256x128_0_0_1_1_n_n.lhsIdx i q 0).val = (q ⟨0, by decide⟩).val :=
  dot_S800x256_S800x128_S256x128_0_0_1_1_n_n.lhsIdx_val_of_single rfl i q
theorem lhs3_1 (i : S256x128.Idx) (q : dot_S800x256_S800x128_S256x128_0_0_1_1_n_n.contr.Idx) :
    (dot_S800x256_S800x128_S256x128_0_0_1_1_n_n.lhsIdx i q 1).val = (i 0).val := by
  unfold DotDims.lhsIdx
  rw [dif_neg (show ¬(1 : Fin S800x256.rank) ∈ dot_S800x256_S800x128_S256x128_0_0_1_1_n_n.lhsBatch by decide), dif_pos (show (1 : Fin S800x256.rank) ∈ dot_S800x256_S800x128_S256x128_0_0_1_1_n_n.lhsNonContracting by decide)]
  rfl
theorem rhs3_0 (i : S256x128.Idx) (q : dot_S800x256_S800x128_S256x128_0_0_1_1_n_n.contr.Idx) :
    (dot_S800x256_S800x128_S256x128_0_0_1_1_n_n.rhsIdx i q 0).val = (q ⟨0, by decide⟩).val :=
  dot_S800x256_S800x128_S256x128_0_0_1_1_n_n.rhsIdx_val_of_single rfl i q
theorem rhs3_1 (i : S256x128.Idx) (q : dot_S800x256_S800x128_S256x128_0_0_1_1_n_n.contr.Idx) :
    (dot_S800x256_S800x128_S256x128_0_0_1_1_n_n.rhsIdx i q 1).val = (i 1).val := by
  unfold DotDims.rhsIdx
  rw [dif_neg (show ¬(1 : Fin S800x128.rank) ∈ dot_S800x256_S800x128_S256x128_0_0_1_1_n_n.rhsBatch by decide), dif_pos (show (1 : Fin S800x128.rank) ∈ dot_S800x256_S800x128_S256x128_0_0_1_1_n_n.rhsNonContracting by decide)]
  rfl

/-- The product contracting the first axis of both operands, as a sum over the contracted coordinate. -/
theorem dot3_sum (l : S800x256.Idx → EReal) (r : S800x128.Idx → EReal) (j : Fin 256) (o : Fin 128) :
    ∑ q : dot_S800x256_S800x128_S256x128_0_0_1_1_n_n.contr.Idx,
        l (dot_S800x256_S800x128_S256x128_0_0_1_1_n_n.lhsIdx (ix2 j o) q) * r (dot_S800x256_S800x128_S256x128_0_0_1_1_n_n.rhsIdx (ix2 j o) q)
      = ∑ x : Fin 800, l (ix2 x j) * r (ix2 x o) := by
  rw [← Equiv.sum_comp (contrEquiv1 dot_S800x256_S800x128_S256x128_0_0_1_1_n_n 800 rfl rfl).symm]
  refine Finset.sum_congr rfl fun x _ => ?_
  have hx := contrEquiv1_symm_val dot_S800x256_S800x128_S256x128_0_0_1_1_n_n 800 rfl rfl x
  have el : dot_S800x256_S800x128_S256x128_0_0_1_1_n_n.lhsIdx (ix2 j o) ((contrEquiv1 dot_S800x256_S800x128_S256x128_0_0_1_1_n_n 800 rfl rfl).symm x) = ix2 x j := funext fun a => Fin.ext (by
    match a with
    | ⟨0, _⟩ => exact (lhs3_0 _ _).trans hx
    | ⟨1, _⟩ => exact lhs3_1 _ _)
  have er : dot_S800x256_S800x128_S256x128_0_0_1_1_n_n.rhsIdx (ix2 j o) ((contrEquiv1 dot_S800x256_S800x128_S256x128_0_0_1_1_n_n 800 rfl rfl).symm x) = ix2 x o := funext fun a => Fin.ext (by
    match a with
    | ⟨0, _⟩ => exact (rhs3_0 _ _).trans hx
    | ⟨1, _⟩ => exact rhs3_1 _ _)
  rw [el, er]

/-- A select on a word equality is the choice on that equality. -/
theorem select_cmpi_eq {α : Type} (a b : BitVec 32) (x y : α) :
    Scalar.select (IntOp.cmpi .eq a b) x y = if a = b then x else y := by
  unfold Scalar.select IntOp.cmpi
  by_cases h : a = b
  · have hb' : (a == b) = true := by simpa using h
    rw [hb', if_pos h]; exact if_pos rfl
  · have hb : (a == b) = false := by simpa using h
    rw [hb, if_neg h]; exact if_neg (by show ¬BitVec.ofBool false = 1#1; decide)

/-- The product read at an entry: the sum over the 800 contracted rows. -/
theorem mm3_apply (L : FVec Ideal S800x256 .bf16) (R : FVec Ideal S800x128 .bf16) (j : Fin 256) (o : Fin 128) :
    (matmul dot_S800x256_S800x128_S256x128_0_0_1_1_n_n none L R (constant S256x128 .f32 0x00000000#32) : FVec Ideal S256x128 .f32) (ix2 j o)
      = ∑ x : Fin 800, (L (ix2 x j) : EReal) * (R (ix2 x o) : EReal) :=
  (Ideal.matmul_constant_zero_apply dot_S800x256_S800x128_S256x128_0_0_1_1_n_n none L R (ix2 j o)).trans (dot3_sum L R j o)

/-- The selector of chunk k at (r, j): the weight of lane j where the word of row 800 k + r is the lane's source word. -/
theorem sel_apply (v3 : Vec Ideal S1x256 .i32) (v7 : Vec Ideal S1x256 .f32) (k : Nat) (hk : k < 64) (r : Fin 800) (j : Fin 256) :
    (truncf FTy.bf16
          (select
            (cmpi CmpIPredicate.eq
              (broadcastTo S800x256
                (addi
                  (broadcast S800x1 (Scalar.muli (Scalar.addi (0#32) (Scalar.muli (Scf.iv 0#32 1#32 k) 1#32)) 800#32))
                  (iota Kind.tc S800x1 32 [0] iota_S800x1_d0_w32))
                broadcasts_S800x1_S800x256)
              (broadcastTo S800x256 v3 broadcasts_S1x256_S800x256))
            (broadcastTo S800x256 v7 broadcasts_S1x256_S800x256) (broadcast S800x256 (FloatOps.ofBits FTy.f32 0#32)))
          bitsLt_bf16_f32 : FVec Ideal S800x256 .bf16) (ix2 r j)
      = if BitVec.ofNat 32 (800 * k + r.val) = v3 (ix2 0 j) then (v7 (ix2 0 j) : EReal) else 0 := by
  have e3 : broadcastTo S800x256 v3 broadcasts_S1x256_S800x256 (ix2 r j) = v3 (ix2 0 j) :=
    broadcastTo_apply v3 _ (ix2 r j) (ix2 0 j) (fun a => by
      match a with
      | ⟨0, _⟩ => rfl
      | ⟨1, _⟩ => rfl)
  have e7 : broadcastTo S800x256 v7 broadcasts_S1x256_S800x256 (ix2 r j) = v7 (ix2 0 j) :=
    broadcastTo_apply v7 _ (ix2 r j) (ix2 0 j) (fun a => by
      match a with
      | ⟨0, _⟩ => rfl
      | ⟨1, _⟩ => rfl)
  have ew : broadcastTo S800x256
                (addi
                  (broadcast S800x1 (Scalar.muli (Scalar.addi (0#32) (Scalar.muli (Scf.iv 0#32 1#32 k) 1#32)) 800#32))
                  (iota Kind.tc S800x1 32 [0] iota_S800x1_d0_w32))
                broadcasts_S800x1_S800x256 (ix2 r j) = BitVec.ofNat 32 (800 * k + r.val) := by
    refine (broadcastTo_apply _ _ (ix2 r j) (ix2 r 0) (fun a => by
      match a with
      | ⟨0, _⟩ => rfl
      | ⟨1, _⟩ => rfl)).trans ?_
    show IntOp.addi _ (iota Kind.tc S800x1 32 [0] iota_S800x1_d0_w32 (ix2 r 0)) = _
    rw [iota_single_apply]
    exact word_row k r.val hk r.isLt
  simp only [truncf_apply, select_apply]
  rw [e7]
  show Scalar.select (IntOp.cmpi .eq _ _) _ _ = _
  rw [ew, e3, select_cmpi_eq]
  show (if _ then _ else Ideal.ofBits .f32 0x00000000#32) = _
  rw [Ideal.ofBits_zero_f32]

theorem pay3_apply (v3 : Vec Ideal S1x256 .i32) (v7 : Vec Ideal S1x256 .f32) (k : Fin k1_t1_loop.trips) (v25 : Vec Ideal S800x128 .bf16) (v39 : Vec Ideal S256x128 .f32) (j : Fin 256) (o : Fin 128) :
    k1_pay3 (F := Ideal) v3 v7 k v25 v39 (ix2 j o)
      = v39 (ix2 j o) + ∑ r : Fin 800, (if BitVec.ofNat 32 (800 * k.val + r.val) = v3 (ix2 0 j) then v7 (ix2 0 j) else 0) * v25 (ix2 r o) := by
  have hk : k.val < 64 := lt_of_lt_of_eq k.isLt trips1
  unfold k1_pay3
  simp only [shapeCast_self]
  refine (addf_apply (φ := .f32) v39 _ (ix2 j o)).trans ?_
  rw [mm3_apply]
  simp only [sel_apply v3 v7 k.val hk]

theorem lhs4_0 (i : S800x128.Idx) (q : dot_S800x256_S256x128_S800x128_1_0_0_1_n_n.contr.Idx) :
    (dot_S800x256_S256x128_S800x128_1_0_0_1_n_n.lhsIdx i q 0).val = (i 0).val := by
  unfold DotDims.lhsIdx
  rw [dif_neg (show ¬(0 : Fin S800x256.rank) ∈ dot_S800x256_S256x128_S800x128_1_0_0_1_n_n.lhsBatch by decide), dif_pos (show (0 : Fin S800x256.rank) ∈ dot_S800x256_S256x128_S800x128_1_0_0_1_n_n.lhsNonContracting by decide)]
  rfl
theorem lhs4_1 (i : S800x128.Idx) (q : dot_S800x256_S256x128_S800x128_1_0_0_1_n_n.contr.Idx) :
    (dot_S800x256_S256x128_S800x128_1_0_0_1_n_n.lhsIdx i q 1).val = (q ⟨0, by decide⟩).val :=
  dot_S800x256_S256x128_S800x128_1_0_0_1_n_n.lhsIdx_val_of_single rfl i q
theorem rhs4_0 (i : S800x128.Idx) (q : dot_S800x256_S256x128_S800x128_1_0_0_1_n_n.contr.Idx) :
    (dot_S800x256_S256x128_S800x128_1_0_0_1_n_n.rhsIdx i q 0).val = (q ⟨0, by decide⟩).val :=
  dot_S800x256_S256x128_S800x128_1_0_0_1_n_n.rhsIdx_val_of_single rfl i q
theorem rhs4_1 (i : S800x128.Idx) (q : dot_S800x256_S256x128_S800x128_1_0_0_1_n_n.contr.Idx) :
    (dot_S800x256_S256x128_S800x128_1_0_0_1_n_n.rhsIdx i q 1).val = (i 1).val := by
  unfold DotDims.rhsIdx
  rw [dif_neg (show ¬(1 : Fin S256x128.rank) ∈ dot_S800x256_S256x128_S800x128_1_0_0_1_n_n.rhsBatch by decide), dif_pos (show (1 : Fin S256x128.rank) ∈ dot_S800x256_S256x128_S800x128_1_0_0_1_n_n.rhsNonContracting by decide)]
  rfl

/-- The plain product [800,256]·[256,128], as a sum over the 256 contracted lanes. -/
theorem dot4_sum (l : S800x256.Idx → EReal) (r : S256x128.Idx → EReal) (x : Fin 800) (o : Fin 128) :
    ∑ q : dot_S800x256_S256x128_S800x128_1_0_0_1_n_n.contr.Idx, l (dot_S800x256_S256x128_S800x128_1_0_0_1_n_n.lhsIdx (ix2 x o) q) * r (dot_S800x256_S256x128_S800x128_1_0_0_1_n_n.rhsIdx (ix2 x o) q)
      = ∑ j : Fin 256, l (ix2 x j) * r (ix2 j o) := by
  rw [← Equiv.sum_comp (contrEquiv1 dot_S800x256_S256x128_S800x128_1_0_0_1_n_n 256 rfl rfl).symm]
  refine Finset.sum_congr rfl fun j _ => ?_
  have hj := contrEquiv1_symm_val dot_S800x256_S256x128_S800x128_1_0_0_1_n_n 256 rfl rfl j
  have el : dot_S800x256_S256x128_S800x128_1_0_0_1_n_n.lhsIdx (ix2 x o) ((contrEquiv1 dot_S800x256_S256x128_S800x128_1_0_0_1_n_n 256 rfl rfl).symm j) = ix2 x j := funext fun a => Fin.ext (by
    match a with
    | ⟨0, _⟩ => exact lhs4_0 _ _
    | ⟨1, _⟩ => exact (lhs4_1 _ _).trans hj)
  have er : dot_S800x256_S256x128_S800x128_1_0_0_1_n_n.rhsIdx (ix2 x o) ((contrEquiv1 dot_S800x256_S256x128_S800x128_1_0_0_1_n_n 256 rfl rfl).symm j) = ix2 j o := funext fun a => Fin.ext (by
    match a with
    | ⟨0, _⟩ => exact (rhs4_0 _ _).trans hj
    | ⟨1, _⟩ => exact rhs4_1 _ _)
  rw [el, er]

theorem mm4_apply (L : FVec Ideal S800x256 .bf16) (R : FVec Ideal S256x128 .bf16) (x : Fin 800) (o : Fin 128) :
    (matmul dot_S800x256_S256x128_S800x128_1_0_0_1_n_n none L R (constant S800x128 .f32 0x00000000#32) : FVec Ideal S800x128 .f32) (ix2 x o)
      = ∑ j : Fin 256, (L (ix2 x j) : EReal) * (R (ix2 j o) : EReal) :=
  (Ideal.matmul_constant_zero_apply dot_S800x256_S256x128_S800x128_1_0_0_1_n_n none L R (ix2 x o)).trans (dot4_sum L R x o)

/-- A word equality widened and converted is the extended real 1 or 0. -/
theorem onehot_elt (a b : BitVec 32) :
    (FloatOps.sitofp (F := Ideal) FTy.f32 ((IntOp.cmpi .eq a b).setWidth 32) : EReal) = if a = b then 1 else 0 := by
  show ((((IntOp.cmpi .eq a b).setWidth 32).toInt : ℝ) : EReal) = _
  unfold IntOp.cmpi
  by_cases h : a = b
  · have hb : (a == b) = true := by simpa using h
    rw [if_pos h]
    show ((((BitVec.ofBool (a == b)).setWidth 32).toInt : ℝ) : EReal) = 1
    rw [hb, show ((BitVec.ofBool true).setWidth 32).toInt = 1 from by decide]
    simp
  · have hb : (a == b) = false := by simpa using h
    rw [if_neg h]
    show ((((BitVec.ofBool (a == b)).setWidth 32).toInt : ℝ) : EReal) = 0
    rw [hb, show ((BitVec.ofBool false).setWidth 32).toInt = 0 from by decide]
    simp

/-- The one-hot of chunk k at (r, j): 1 where the word of row 800 k + r is lane j's destination word. -/
theorem hot_apply (v5 : Vec Ideal S1x256 .i32) (k : Nat) (hk : k < 64) (r : Fin 800) (j : Fin 256) :
    (truncf FTy.bf16
          (sitofp FTy.f32
            (extui 32
              (cmpi CmpIPredicate.eq
                (broadcastTo S800x256
                  (addi
                    (broadcast S800x1 (Scalar.muli (Scalar.addi (0#32) (Scalar.muli (Scf.iv 0#32 1#32 k) 1#32)) 800#32))
                    (iota Kind.tc S800x1 32 [0] iota_S800x1_d0_w32))
                  broadcasts_S800x1_S800x256)
                (broadcastTo S800x256 v5 broadcasts_S1x256_S800x256))
              natLt_1_32))
          bitsLt_bf16_f32 : FVec Ideal S800x256 .bf16) (ix2 r j)
      = if BitVec.ofNat 32 (800 * k + r.val) = v5 (ix2 0 j) then (1 : EReal) else 0 := by
  have e5 : broadcastTo S800x256 v5 broadcasts_S1x256_S800x256 (ix2 r j) = v5 (ix2 0 j) :=
    broadcastTo_apply v5 _ (ix2 r j) (ix2 0 j) (fun a => by
      match a with
      | ⟨0, _⟩ => rfl
      | ⟨1, _⟩ => rfl)
  have ew : broadcastTo S800x256
                (addi
                  (broadcast S800x1 (Scalar.muli (Scalar.addi (0#32) (Scalar.muli (Scf.iv 0#32 1#32 k) 1#32)) 800#32))
                  (iota Kind.tc S800x1 32 [0] iota_S800x1_d0_w32))
                broadcasts_S800x1_S800x256 (ix2 r j) = BitVec.ofNat 32 (800 * k + r.val) := by
    refine (broadcastTo_apply _ _ (ix2 r j) (ix2 r 0) (fun a => by
      match a with
      | ⟨0, _⟩ => rfl
      | ⟨1, _⟩ => rfl)).trans ?_
    show IntOp.addi _ (iota Kind.tc S800x1 32 [0] iota_S800x1_d0_w32 (ix2 r 0)) = _
    rw [iota_single_apply]
    exact word_row k r.val hk r.isLt
  simp only [truncf_apply, sitofp_apply, extui_apply]
  show FloatOps.sitofp (F := Ideal) FTy.f32 ((IntOp.cmpi .eq _ _).setWidth 32) = _
  rw [ew, e5, onehot_elt]

theorem pay4_apply (v5 : Vec Ideal S1x256 .i32) (v14 : Vec Ideal S256x128 .f32) (k : Fin k1_t2_loop.trips) (v35 : Vec Ideal S800x128 .f32) (r : Fin 800) (o : Fin 128) :
    k1_pay4 (F := Ideal) v5 v14 k v35 (ix2 r o)
      = v35 (ix2 r o) + ∑ j : Fin 256, (if BitVec.ofNat 32 (800 * k.val + r.val) = v5 (ix2 0 j) then (1 : EReal) else 0) * v14 (ix2 j o) := by
  have hk : k.val < 64 := lt_of_lt_of_eq k.isLt trips2
  unfold k1_pay4
  simp only [shapeCast_self]
  refine (addf_apply (φ := .f32) v35 _ (ix2 r o)).trans ?_
  rw [mm4_apply]
  simp only [hot_apply v5 k.val hk, truncf_apply]

/-! ## The remaining payloads at an entry -/

theorem pay1_apply (n : Fin 51200) (o : Fin 128) : (k1_pay1 (F := Ideal)) (ix2 n o) = (0 : EReal) := by
  unfold k1_pay1
  show Ideal.ofBits .f32 0x00000000#32 = 0
  exact Ideal.ofBits_zero_f32

theorem pay2_apply (j : Fin 256) (o : Fin 128) : (k1_pay2 (F := Ideal)) (ix2 j o) = (0 : EReal) := by
  unfold k1_pay2
  simp only [shapeCast_self]
  show Ideal.ofBits .f32 0x00000000#32 = 0
  exact Ideal.ofBits_zero_f32

theorem pay5_apply (v20 : Vec Ideal S51200x128 .f32) (v22 : Vec Ideal S1x128 .f32) (n : Fin 51200) (o : Fin 128) :
    k1_pay5 (F := Ideal) v20 v22 (ix2 n o) = max ((v20 (ix2 n o) : EReal) + v22 (ix2 0 o)) 0 := by
  unfold k1_pay5
  simp only [shapeCast_self]
  have eb : broadcastTo S51200x128 v22 broadcasts_S1x128_S51200x128 (ix2 n o) = v22 (ix2 0 o) :=
    broadcastTo_apply v22 _ (ix2 n o) (ix2 0 o) (fun a => by
      match a with
      | ⟨0, _⟩ => rfl
      | ⟨1, _⟩ => rfl)
  refine (maximumf_apply (φ := .f32) _ _ (ix2 n o)).trans ?_
  rw [addf_apply, eb]
  show max _ (Ideal.ofBits .f32 0x00000000#32) = _
  rw [Ideal.ofBits_zero_f32]

/-! ## The two counted loops -/

/-- Row 800 k + r of the table. -/
def row (k : Fin 64) (r : Fin 800) : Fin 51200 := ⟨800 * k.val + r.val, by have := k.isLt; have := r.isLt; omega⟩

theorem hz2 : (![0, 0] : Fin 2 → Nat) = fun _ => 0 := funext fun a => by fin_cases a <;> rfl

section Loops

variable (𝒱 : Variants) (c : Dev nD) (bd : Option 𝒱.V) (i : grid1.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S51200x128 .bf16) (harg4 : arg4.IsWhole) (arg5 : Memref sig .tc .vmem S1x128 .f32) (harg5 : arg5.IsWhole) (arg6 : Memref sig .tc .vmem S51200x128 .f32) (harg6 : arg6.IsWhole) (arg7 : Memref sig .tc .vmem S256x128 .f32) (harg7 : arg7.IsWhole)

/-- Trip k of the first loop leaves ONE piece: the whole scratch, at the payload of the chunk's rows of the table and
    of the scratch's own contents. -/
theorem tripL1_eq (v3 : Vec Ideal S1x256 .i32) (v7 : Vec Ideal S1x256 .f32) (X : BufTy.Contents (Elt Ideal) arg4.view.ty)
    (k : Fin k1_t1_loop.trips) (f : BufTy.Contents (Elt Ideal) arg7.view.ty) :
    tripL_k1_t1 (F := Ideal) 𝒱 c bd i arg1 harg1 arg2 harg2 arg3 harg3 arg4 harg4 arg5 harg5 arg6 harg6 arg7 harg7 v3 v7 X k f
      = [⟨Rect.unit (s := S256x128) ![0, 0] S256x128.size inb_S256x128_S256x128_0_0,
          k1_pay3 v3 v7 k (View.readAt (Elt Ideal) arg4.view (Rect.unit (s := S51200x128) (k1_off1 k) S800x128.size (k1_off1_inb k)).toLoadRect X)
            (View.readAt (Elt Ideal) arg7.view (Rect.unit (s := S256x128) ![0, 0] S256x128.size inb_S256x128_S256x128_0_0).toLoadRect f)⟩] := by
  unfold tripL_k1_t1
  unfold trip_k1_t1
  rfl

/-- Trip k of the second loop leaves ONE piece: rows 800 k … 800 k + 799 of the output, at the payload of what those
    rows held. -/
theorem tripL2_eq (v5 : Vec Ideal S1x256 .i32) (v14 : Vec Ideal S256x128 .f32)
    (k : Fin k1_t2_loop.trips) (f : BufTy.Contents (Elt Ideal) arg6.view.ty) :
    tripL_k1_t2 (F := Ideal) 𝒱 c bd i arg1 harg1 arg2 harg2 arg3 harg3 arg4 harg4 arg5 harg5 arg6 harg6 arg7 harg7 v5 v14 k f
      = [⟨Rect.unit (s := S51200x128) (k1_off2 k) S800x128.size (k1_off2_inb k),
          k1_pay4 v5 v14 k (View.readAt (Elt Ideal) arg6.view (Rect.unit (s := S51200x128) (k1_off2 k) S800x128.size (k1_off2_inb k)).toLoadRect f)⟩] := by
  unfold tripL_k1_t2
  unfold trip_k1_t2
  rfl

/-- What the load of chunk k of the table reads at (r, o): the table at row 800 k + r. -/
theorem ld_tab (X : BufTy.Contents (Elt Ideal) arg4.view.ty) (k : Fin k1_t1_loop.trips) (r : Fin 800) (o : Fin 128) :
    View.readAt (Elt Ideal) arg4.view (Rect.unit (s := S51200x128) (k1_off1 k) S800x128.size (k1_off1_inb k)).toLoadRect X (ix2 r o)
      = arg4.view.read (Elt Ideal) X (ix2 (row (Fin.cast trips1 k) r) o) := by
  show arg4.view.read (Elt Ideal) X _ = _
  refine congrArg (arg4.view.read (Elt Ideal) X) (funext fun a => Fin.ext ?_)
  match a with
  | ⟨0, _⟩ =>
    show (k1_off1 k) 0 + 1 * r.val = 800 * k.val + r.val
    rw [k1_off1_eq]; simp
  | ⟨1, _⟩ =>
    show (k1_off1 k) 1 + 1 * o.val = o.val
    rw [k1_off1_eq]; simp

/-- What the load of rows 800 k … of the output reads at (r, o). -/
theorem ld_out (f : BufTy.Contents (Elt Ideal) arg6.view.ty) (k : Fin k1_t2_loop.trips) (r : Fin 800) (o : Fin 128) :
    View.readAt (Elt Ideal) arg6.view (Rect.unit (s := S51200x128) (k1_off2 k) S800x128.size (k1_off2_inb k)).toLoadRect f (ix2 r o)
      = arg6.view.read (Elt Ideal) f (ix2 (row (Fin.cast trips2 k) r) o) := by
  show arg6.view.read (Elt Ideal) f _ = _
  refine congrArg (arg6.view.read (Elt Ideal) f) (funext fun a => Fin.ext ?_)
  match a with
  | ⟨0, _⟩ =>
    show (k1_off2 k) 0 + 1 * r.val = 800 * k.val + r.val
    rw [k1_off2_eq]; simp
  | ⟨1, _⟩ =>
    show (k1_off2 k) 1 + 1 * o.val = o.val
    rw [k1_off2_eq]; simp

/-- The term chunk k adds to the scratch at (j, o). -/
def chunk1 (v3 : Vec Ideal S1x256 .i32) (v7 : Vec Ideal S1x256 .f32) (T : S51200x128.Idx → EReal) (j : Fin 256) (o : Fin 128) (k : Fin 64) : EReal :=
  ∑ r : Fin 800, (if BitVec.ofNat 32 (800 * k.val + r.val) = v3 (ix2 0 j) then (v7 (ix2 0 j) : EReal) else 0) * T (ix2 (row k r) o)

/-- One trip of the first loop, read at an entry: the scratch's entry plus the chunk's term. -/
theorem trip1_read (v3 : Vec Ideal S1x256 .i32) (v7 : Vec Ideal S1x256 .f32) (X : BufTy.Contents (Elt Ideal) arg4.view.ty)
    (k : Fin k1_t1_loop.trips) (f : BufTy.Contents (Elt Ideal) arg7.view.ty) (j : Fin 256) (o : Fin 128) :
    (arg7.view.read (Elt Ideal) (arg7.view.writes (Elt Ideal) f (tripL_k1_t1 (F := Ideal) 𝒱 c bd i arg1 harg1 arg2 harg2 arg3 harg3 arg4 harg4 arg5 harg5 arg6 harg6 arg7 harg7 v3 v7 X k f)) (ix2 j o) : EReal)
      = arg7.view.read (Elt Ideal) f (ix2 j o) + chunk1 v3 v7 (arg4.view.read (Elt Ideal) X) j o (Fin.cast trips1 k) := by
  rw [tripL1_eq]
  refine (View.read_writes_cons_unit_of_mem arg7.view f inb_S256x128_S256x128_0_0 _ [] (ix2 j o) (ix2 j o) rfl
    (Fin.forall_fin_two.mpr ⟨(Nat.zero_add _).symm, (Nat.zero_add _).symm⟩)).trans ?_
  rw [pay3_apply]
  refine congrArg₂ (fun a b : EReal => a + b) ?_ (Finset.sum_congr rfl fun r _ => ?_)
  · show arg7.view.read (Elt Ideal) f _ = _
    refine congrArg (arg7.view.read (Elt Ideal) f) (funext fun a => Fin.ext ?_)
    match a with
    | ⟨0, _⟩ => show 0 + 1 * j.val = j.val; omega
    | ⟨1, _⟩ => show 0 + 1 * o.val = o.val; omega
  · rw [ld_tab]; rfl

/-- The first loop after K trips, read at an entry: what it found plus the terms of the chunks before K. -/
theorem loop1_read (v3 : Vec Ideal S1x256 .i32) (v7 : Vec Ideal S1x256 .f32) (X : BufTy.Contents (Elt Ideal) arg4.view.ty)
    (G : BufTy.Contents (Elt Ideal) arg7.view.ty) (j : Fin 256) (o : Fin 128) :
    ∀ (K : ℕ) (hK : K ≤ 64),
      (arg7.view.read (Elt Ideal) (arg7.view.writes (Elt Ideal) G (pb_k1_t1 (F := Ideal) 𝒱 c bd i arg1 harg1 arg2 harg2 arg3 harg3 arg4 harg4 arg5 harg5 arg6 harg6 arg7 harg7 v3 v7 X G K)) (ix2 j o) : EReal)
        = arg7.view.read (Elt Ideal) G (ix2 j o)
          + ∑ k ∈ Finset.range K, (if h : k < 64 then chunk1 v3 v7 (arg4.view.read (Elt Ideal) X) j o ⟨k, h⟩ else 0)
  | 0, _ => by
    rw [Finset.sum_range_zero, add_zero]; rfl
  | K + 1, hK => by
    have hK' : K < k1_t1_loop.trips := by rw [trips1]; omega
    have e := pb_k1_t1_succ (F := Ideal) 𝒱 c bd i arg1 harg1 arg2 harg2 arg3 harg3 arg4 harg4 arg5 harg5 arg6 harg6 arg7 harg7 v3 v7 X G ⟨K, hK'⟩
    rw [show (⟨K, hK'⟩ : Fin k1_t1_loop.trips).val + 1 = K + 1 from rfl] at e
    rw [e, View.writes_append, trip1_read, loop1_read v3 v7 X G j o K (by omega), Finset.sum_range_succ, dif_pos (by omega : K < 64), add_assoc]
    rfl

/-- The term the second loop adds to row n of the output at column o. -/
def hot2 (v5 : Vec Ideal S1x256 .i32) (v14 : Vec Ideal S256x128 .f32) (n : Fin 51200) (o : Fin 128) : EReal :=
  ∑ j : Fin 256, (if BitVec.ofNat 32 n.val = v5 (ix2 0 j) then (1 : EReal) else 0) * v14 (ix2 j o)

/-- One trip of the second loop, read at an entry: a row of chunk k gains its term, every other row keeps its
    contents. -/
theorem trip2_read (v5 : Vec Ideal S1x256 .i32) (v14 : Vec Ideal S256x128 .f32)
    (k : Fin k1_t2_loop.trips) (f : BufTy.Contents (Elt Ideal) arg6.view.ty) (n : Fin 51200) (o : Fin 128) :
    (arg6.view.read (Elt Ideal) (arg6.view.writes (Elt Ideal) f (tripL_k1_t2 (F := Ideal) 𝒱 c bd i arg1 harg1 arg2 harg2 arg3 harg3 arg4 harg4 arg5 harg5 arg6 harg6 arg7 harg7 v5 v14 k f)) (ix2 n o) : EReal)
      = if n.val / 800 = k.val then arg6.view.read (Elt Ideal) f (ix2 n o) + hot2 v5 v14 n o
        else arg6.view.read (Elt Ideal) f (ix2 n o) := by
  have hk : k.val < 64 := lt_of_lt_of_eq k.isLt trips2
  rw [tripL2_eq]
  by_cases h : n.val / 800 = k.val
  · rw [if_pos h]
    have hr : n.val % 800 < 800 := Nat.mod_lt _ (by decide)
    refine (View.read_writes_cons_rows_of_mem (o := 800 * k.val) arg6.view f (k1_off2_inb k) _ [] (ix2 n o) (ix2 ⟨n.val % 800, hr⟩ o) (k1_off2_eq k)
      (by show n.val = 800 * k.val + n.val % 800; omega) rfl).trans ?_
    rw [pay4_apply, ld_out]
    have hrow : row (Fin.cast trips2 k) ⟨n.val % 800, hr⟩ = n := Fin.ext (by show 800 * k.val + n.val % 800 = n.val; omega)
    rw [hrow]
    refine congrArg (fun b : EReal => (arg6.view.read (Elt Ideal) f (ix2 n o) : EReal) + b) ?_
    unfold hot2
    rw [show 800 * k.val + (⟨n.val % 800, hr⟩ : Fin 800).val = n.val from by show 800 * k.val + n.val % 800 = n.val; omega]
  · rw [if_neg h]
    exact View.read_writes_cons_rows_of_not_mem (o := 800 * k.val) (W := 800) arg6.view f (k1_off2_inb k) _ [] (ix2 n o) (k1_off2_eq k) rfl
      (by show n.val < 800 * k.val ∨ 800 * k.val + 800 ≤ n.val; omega)

/-- The second loop after K trips, read at an entry: the rows of the chunks before K have gained their terms. -/
theorem loop2_read (v5 : Vec Ideal S1x256 .i32) (v14 : Vec Ideal S256x128 .f32)
    (G : BufTy.Contents (Elt Ideal) arg6.view.ty) (n : Fin 51200) (o : Fin 128) :
    ∀ (K : ℕ) (hK : K ≤ 64),
      (arg6.view.read (Elt Ideal) (arg6.view.writes (Elt Ideal) G (pb_k1_t2 (F := Ideal) 𝒱 c bd i arg1 harg1 arg2 harg2 arg3 harg3 arg4 harg4 arg5 harg5 arg6 harg6 arg7 harg7 v5 v14 G K)) (ix2 n o) : EReal)
        = arg6.view.read (Elt Ideal) G (ix2 n o) + (if n.val / 800 < K then hot2 v5 v14 n o else 0)
  | 0, _ => by
    rw [if_neg (Nat.not_lt_zero _), add_zero]; rfl
  | K + 1, hK => by
    have hK' : K < k1_t2_loop.trips := by rw [trips2]; omega
    have e := pb_k1_t2_succ (F := Ideal) 𝒱 c bd i arg1 harg1 arg2 harg2 arg3 harg3 arg4 harg4 arg5 harg5 arg6 harg6 arg7 harg7 v5 v14 G ⟨K, hK'⟩
    rw [show (⟨K, hK'⟩ : Fin k1_t2_loop.trips).val + 1 = K + 1 from rfl] at e
    rw [e, View.writes_append, trip2_read, loop2_read v5 v14 G n o K (by omega)]
    show (if n.val / 800 = K then _ else _) = _
    by_cases h : n.val / 800 = K
    · rw [if_pos h, if_neg (by omega), if_pos (by omega), add_zero]
    · rw [if_neg h]
      by_cases h2 : n.val / 800 < K
      · rw [if_pos h2, if_pos (by omega)]
      · rw [if_neg h2, if_neg (by omega)]

end Loops

end Cert.KernelIdeal.KAgg1
-- ==== Proof.KAgg1.lean ====
/-
  The aggregation kernel over its whole grid: the output array at one entry.

  The kernel sweeps the padded edge list in 3321 blocks of 256 lanes.  At every grid point it computes, into a scratch,
  the lanes' messages (over all table rows, the row's entry where the row's word is the lane's source word, times the
  lane's weight) and adds into row n of the output the messages of the lanes whose destination word is the word of n.
  The output buffer is one whole-array block that every point revisits: zero-filled at the first point, and at the last
  point, after its own contribution, the bias is added and the result clamped at zero from below; it is written back
  once, after the last point.

  Here: the scratch after the first loop (zero plus the 64 chunks' terms); what each of the three control cases leaves
  in the output's buffer at an entry (the zero fill, or the running contents, plus the block's contribution; in the last
  case plus the bias, clamped); the windows' blocks read off the arrays' entries (the edge windows sit at column block t,
  the table, the bias and the output never move); the induction over the grid points (after point t the buffer holds the
  sum of the contributions of the points up to t); the single write-back of the whole block; and the result.
-/
import proofs.«415787_j87273735454854_1_alg».proof.Proof.KAgg1a
import proofs.«415787_j87273735454854_1_alg».proof.Proof.FrameKernelIdeal
import Idealize.ShloMosaic.Lib.Pipeline.Value
import Idealize.ShloMosaic.Lib.Tactic

set_option maxRecDepth 16384

noncomputable section

namespace Cert.KernelIdeal.KAgg1

open Cert.KernelIdeal.Gen Cert.KernelIdeal.GenP
open Idealize.ShloMosaic Idealize.ShloMosaic.TcCoe Idealize.ShloMosaic.ValueIdx
open Idealize.SL.Sem
open scoped BigOperators

/-- The message of lane j at column o: over all 51200 rows (64 chunks of 800), the table's entry where the row's word is
    the lane's source word, times the lane's weight. -/
def msgOf (x0 : Vec Ideal S1x256 .i32) (x2 : Vec Ideal S1x256 .f32) (x3 : Vec Ideal S51200x128 .bf16) (j : Fin 256) (o : Fin 128) : EReal :=
  ∑ k : Fin 64, chunk1 x0 x2 x3 j o k

/-- What one edge block adds to row n of the output at column o: the messages of the lanes whose destination word is
    the row's word. -/
def contrib (x0 x1 : Vec Ideal S1x256 .i32) (x2 : Vec Ideal S1x256 .f32) (x3 : Vec Ideal S51200x128 .bf16) (n : Fin 51200) (o : Fin 128) : EReal :=
  ∑ j : Fin 256, (if BitVec.ofNat 32 n.val = x1 (ix2 0 j) then (1 : EReal) else 0) * msgOf x0 x2 x3 j o

/-- A load of a whole buffer that holds x reads x. -/
theorem readAt_whole_unread {S : Shape} {e : EltTy} (m : Memref sig .tc .vmem S e) (h : m.IsWhole) (x : S.Idx → Elt Ideal e)
    {off : Fin S.rank → Nat} (hoff : off = fun _ => 0) (inb : ∀ a, off a + S.size a ≤ S.size a) :
    View.readAt (Elt Ideal) m.view (Rect.unit off S.size inb).toLoadRect (h.unread x) = x := by
  rw [View.readAt_eq_ld, h.read_unread, View.ld_unit_zero hoff]

theorem trips1' : Scf.trips k1_t1_loop.lb k1_t1_loop.ub k1_t1_loop.st = 64 := by decide
theorem trips2' : Scf.trips (0#32) (Scalar.addi 0#32 64#32) 1#32 = 64 := by decide

section Run

variable (c : Dev nD) (i : grid1.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S51200x128 .bf16) (harg4 : arg4.IsWhole) (arg5 : Memref sig .tc .vmem S1x128 .f32) (harg5 : arg5.IsWhole) (arg6 : Memref sig .tc .vmem S51200x128 .f32) (harg6 : arg6.IsWhole) (arg7 : Memref sig .tc .vmem S256x128 .f32) (harg7 : arg7.IsWhole)

/-- The scratch after the first loop, read at (j, o): the zero fill plus the 64 chunks' terms. -/
theorem msg_apply (x0 : Vec Ideal S1x256 .i32) (x2 : Vec Ideal S1x256 .f32) (x3 : Vec Ideal S51200x128 .bf16) (j : Fin 256) (o : Fin 128) :
    (View.readAt (Elt Ideal) arg7.view (Rect.unit (s := S256x128) ![0, 0] S256x128.size inb_S256x128_S256x128_0_0).toLoadRect
      (arg7.view.writes (Elt Ideal) arg7.view.junk
        (pb_k1_t1 (F := Ideal) Variants.none c none i arg1 harg1 arg2 harg2 arg3 harg3 arg4 harg4 arg5 harg5 arg6 harg6 arg7 harg7
            (View.readAt (Elt Ideal) arg1.view (Rect.unit (s := S1x256) ![0, 0] S1x256.size inb_S1x256_S1x256_0_0).toLoadRect (harg1.unread x0))
            (View.readAt (Elt Ideal) arg3.view (Rect.unit (s := S1x256) ![0, 0] S1x256.size inb_S1x256_S1x256_0_0).toLoadRect (harg3.unread x2))
            (harg4.unread x3)
            (arg7.view.writes (Elt Ideal) arg7.view.junk [⟨Rect.unit (s := S256x128) ![0, 0] S256x128.size inb_S256x128_S256x128_0_0, (k1_pay2 (F := Ideal))⟩])
            64
          ++ [⟨Rect.unit (s := S256x128) ![0, 0] S256x128.size inb_S256x128_S256x128_0_0, (k1_pay2 (F := Ideal))⟩])) (ix2 j o) : EReal)
      = msgOf x0 x2 x3 j o := by
  rw [readAt_whole_unread arg1 harg1 x0 hz2, readAt_whole_unread arg3 harg3 x2 hz2, View.writes_append, View.readAt_eq_ld,
    View.ld_unit_zero (S := S256x128) hz2]
  refine (loop1_read Variants.none c none i arg1 harg1 arg2 harg2 arg3 harg3 arg4 harg4 arg5 harg5 arg6 harg6 arg7 harg7 x0 x2 (harg4.unread x3) _ j o 64 (le_refl _)).trans ?_
  rw [harg4.read_unread]
  have h0 : (arg7.view.read (Elt Ideal) (arg7.view.writes (Elt Ideal) arg7.view.junk [⟨Rect.unit (s := S256x128) ![0, 0] S256x128.size inb_S256x128_S256x128_0_0, (k1_pay2 (F := Ideal))⟩]) (ix2 j o) : EReal) = 0 :=
    (View.read_writes_cons_unit_of_mem (Val := Elt Ideal) (off' := ![0, 0]) arg7.view arg7.view.junk inb_S256x128_S256x128_0_0 (k1_pay2 (F := Ideal)) [] (ix2 j o) (ix2 j o) rfl
      (Fin.forall_fin_two.mpr ⟨(Nat.zero_add _).symm, (Nat.zero_add _).symm⟩)).trans (pay2_apply j o)
  rw [h0, zero_add, Finset.sum_range]
  exact Finset.sum_congr rfl fun k _ => dif_pos k.isLt

/-- CASE B at an entry: what the output held plus the block's contribution. -/
theorem out_B (hc0 : ¬cond1_0 i) (hc1 : ¬cond1_1 i)
    (x0 x1 : Vec Ideal S1x256 .i32) (x2 : Vec Ideal S1x256 .f32) (x3 : Vec Ideal S51200x128 .bf16) (x4 : Vec Ideal S1x128 .f32) (xo5 : Vec Ideal S51200x128 .f32)
    (n : Fin 51200) (o : Fin 128) :
    (out1_B_5 (F := Ideal) c i arg1 harg1 arg2 harg2 arg3 harg3 arg4 harg4 arg5 harg5 arg6 harg6 arg7 harg7 hc0 hc1 x0 x1 x2 x3 x4 xo5 (ix2 n o) : EReal)
      = xo5 (ix2 n o) + contrib x0 x1 x2 x3 n o := by
  unfold out1_B_5
  rw [View.read_writes_of_cover VO1_5 VO1_5.junk arg6.view (harg6.unread xo5) _ (cover1_B_5 c i arg1 harg1 arg2 harg2 arg3 harg3 arg4 harg4 arg5 harg5 arg6 harg6 arg7 harg7 hc0 hc1 x0 x1 x2 x3 x4 xo5)]
  unfold kernelRun1_B
  dsimp only
  sl_unfold_words
  refine (loop2_read Variants.none c none i arg1 harg1 arg2 harg2 arg3 harg3 arg4 harg4 arg5 harg5 arg6 harg6 arg7 harg7 _ _ (harg6.unread xo5) n o _ (le_of_eq trips2')).trans ?_
  rw [harg6.read_unread, trips2', if_pos (by have := n.isLt; omega)]
  refine congrArg (fun b : EReal => (xo5 (ix2 n o) : EReal) + b) ?_
  unfold hot2 contrib
  refine Finset.sum_congr rfl fun j _ => ?_
  rw [msg_apply, readAt_whole_unread arg2 harg2 x1 hz2]

/-- CASE A at an entry: the zero fill plus the block's contribution. -/
theorem out_A (hc0 : cond1_0 i) (hc1 : ¬cond1_1 i)
    (x0 x1 : Vec Ideal S1x256 .i32) (x2 : Vec Ideal S1x256 .f32) (x3 : Vec Ideal S51200x128 .bf16) (x4 : Vec Ideal S1x128 .f32)
    (n : Fin 51200) (o : Fin 128) :
    (out1_A_5 (F := Ideal) c i arg1 harg1 arg2 harg2 arg3 harg3 arg4 harg4 arg5 harg5 arg6 harg6 arg7 harg7 hc0 hc1 x0 x1 x2 x3 x4 (ix2 n o) : EReal)
      = contrib x0 x1 x2 x3 n o := by
  unfold out1_A_5
  rw [View.read_writes_of_cover VO1_5 VO1_5.junk arg6.view arg6.view.junk _ (cover1_A_5 c i arg1 harg1 arg2 harg2 arg3 harg3 arg4 harg4 arg5 harg5 arg6 harg6 arg7 harg7 hc0 hc1 x0 x1 x2 x3 x4)]
  unfold kernelRun1_A
  dsimp only
  sl_unfold_words
  rw [View.writes_append]
  refine (loop2_read Variants.none c none i arg1 harg1 arg2 harg2 arg3 harg3 arg4 harg4 arg5 harg5 arg6 harg6 arg7 harg7 _ _ _ n o _ (le_of_eq trips2')).trans ?_
  have h0 : (arg6.view.read (Elt Ideal) (arg6.view.writes (Elt Ideal) arg6.view.junk [⟨Rect.unit (s := S51200x128) ![0, 0] S51200x128.size inb_S51200x128_S51200x128_0_0, (k1_pay1 (F := Ideal))⟩]) (ix2 n o) : EReal) = 0 :=
    (View.read_writes_cons_unit_of_mem (Val := Elt Ideal) (off' := ![0, 0]) arg6.view arg6.view.junk inb_S51200x128_S51200x128_0_0 (k1_pay1 (F := Ideal)) [] (ix2 n o) (ix2 n o) rfl
      (Fin.forall_fin_two.mpr ⟨(Nat.zero_add _).symm, (Nat.zero_add _).symm⟩)).trans (pay1_apply n o)
  rw [h0, zero_add, trips2', if_pos (by have := n.isLt; omega)]
  unfold hot2 contrib
  refine Finset.sum_congr rfl fun j _ => ?_
  rw [msg_apply, readAt_whole_unread arg2 harg2 x1 hz2]

/-- CASE C at an entry: what the output held plus the block's contribution plus the bias, clamped at zero from below. -/
theorem out_C (hc0 : ¬cond1_0 i) (hc1 : cond1_1 i)
    (x0 x1 : Vec Ideal S1x256 .i32) (x2 : Vec Ideal S1x256 .f32) (x3 : Vec Ideal S51200x128 .bf16) (x4 : Vec Ideal S1x128 .f32) (xo5 : Vec Ideal S51200x128 .f32)
    (n : Fin 51200) (o : Fin 128) :
    (out1_C_5 (F := Ideal) c i arg1 harg1 arg2 harg2 arg3 harg3 arg4 harg4 arg5 harg5 arg6 harg6 arg7 harg7 hc0 hc1 x0 x1 x2 x3 x4 xo5 (ix2 n o) : EReal)
      = max ((xo5 (ix2 n o) + contrib x0 x1 x2 x3 n o) + x4 (ix2 0 o)) 0 := by
  unfold out1_C_5
  rw [View.read_writes_of_cover VO1_5 VO1_5.junk arg6.view (harg6.unread xo5) _ (cover1_C_5 c i arg1 harg1 arg2 harg2 arg3 harg3 arg4 harg4 arg5 harg5 arg6 harg6 arg7 harg7 hc0 hc1 x0 x1 x2 x3 x4 xo5)]
  unfold kernelRun1_C
  dsimp only
  sl_unfold_words
  refine (View.read_writes_cons_unit_of_mem (Val := Elt Ideal) (off' := ![0, 0]) arg6.view (harg6.unread xo5) inb_S51200x128_S51200x128_0_0 _ _ (ix2 n o) (ix2 n o) rfl
    (Fin.forall_fin_two.mpr ⟨(Nat.zero_add _).symm, (Nat.zero_add _).symm⟩)).trans ?_
  rw [pay5_apply, readAt_whole_unread arg5 harg5 x4 hz2, View.readAt_eq_ld, View.ld_unit_zero (S := S51200x128) hz2]
  refine congrArg (fun b : EReal => max (b + (x4 (ix2 0 o) : EReal)) 0) ?_
  refine (loop2_read Variants.none c none i arg1 harg1 arg2 harg2 arg3 harg3 arg4 harg4 arg5 harg5 arg6 harg6 arg7 harg7 _ _ (harg6.unread xo5) n o _ (le_of_eq trips2')).trans ?_
  rw [harg6.read_unread, trips2', if_pos (by have := n.isLt; omega)]
  refine congrArg (fun b : EReal => (xo5 (ix2 n o) : EReal) + b) ?_
  unfold hot2 contrib
  refine Finset.sum_congr rfl fun j _ => ?_
  rw [msg_apply, readAt_whole_unread arg2 harg2 x1 hz2]

end Run

open Idealize.ShloMosaic.Pipeline (Dat)

section Points

variable (V : (c : Dev nD) → (b : Ref sig .tc) → Buf (Elt Ideal) ((c : Thread nD τ).loc b))

theorem N1' : cfg1.N = 3321 := N_1

/-- Lane j of edge block t: its source word, -/
def srcB (c : Dev nD) (t : Fin 3321) (j : Fin 256) : BitVec 32 :=
  (V c (Pipeline.arrRef spec1 0) : S1x850176.Idx → BitVec 32) (ix2 0 ⟨256 * t.val + j.val, by have := t.isLt; have := j.isLt; omega⟩)
/-- its destination word, -/
def dstB (c : Dev nD) (t : Fin 3321) (j : Fin 256) : BitVec 32 :=
  (V c (Pipeline.arrRef spec1 1) : S1x850176.Idx → BitVec 32) (ix2 0 ⟨256 * t.val + j.val, by have := t.isLt; have := j.isLt; omega⟩)
/-- and its weight. -/
def nrmB (c : Dev nD) (t : Fin 3321) (j : Fin 256) : EReal :=
  (V c (Pipeline.arrRef spec1 2) : S1x850176.Idx → EReal) (ix2 0 ⟨256 * t.val + j.val, by have := t.isLt; have := j.isLt; omega⟩)
/-- Row 800 k + r of the feature table, at column o. -/
def tabB (c : Dev nD) (k : Fin 64) (r : Fin 800) (o : Fin 128) : EReal :=
  (V c (Pipeline.arrRef spec1 3) : S51200x128.Idx → EReal) (ix2 ⟨800 * k.val + r.val, by have := k.isLt; have := r.isLt; omega⟩ o)
/-- The bias of column o. -/
def biasB (c : Dev nD) (o : Fin 128) : EReal :=
  (V c (Pipeline.arrRef spec1 4) : S1x128.Idx → EReal) (ix2 0 o)

/-- The windows' blocks at a point, by their literal types. -/
abbrev blk0 (c : Dev nD) (t : Fin cfg1.N) : Vec Ideal S1x256 .i32 := iblk1 V c 0 t
abbrev blk1 (c : Dev nD) (t : Fin cfg1.N) : Vec Ideal S1x256 .i32 := iblk1 V c 1 t
abbrev blk2 (c : Dev nD) (t : Fin cfg1.N) : Vec Ideal S1x256 .f32 := iblk1 V c 2 t
abbrev blk3 (c : Dev nD) (t : Fin cfg1.N) : Vec Ideal S51200x128 .bf16 := iblk1 V c 3 t
abbrev blk4 (c : Dev nD) (t : Fin cfg1.N) : Vec Ideal S1x128 .f32 := iblk1 V c 4 t

/-- The edge windows sit at column block t; the table's, the bias's and the output's never move. -/
theorem idx1_0 : ∀ t : Fin grid1.N, win1_0.index t 0 = 0 ∧ win1_0.index t 1 = t.val := by decide +kernel
theorem idx1_1 : ∀ t : Fin grid1.N, win1_1.index t 0 = 0 ∧ win1_1.index t 1 = t.val := by decide +kernel
theorem idx1_2 : ∀ t : Fin grid1.N, win1_2.index t 0 = 0 ∧ win1_2.index t 1 = t.val := by decide +kernel
theorem idx1_3 : ∀ t : Fin grid1.N, win1_3.index t 0 = 0 ∧ win1_3.index t 1 = 0 := by decide +kernel
theorem idx1_4 : ∀ t : Fin grid1.N, win1_4.index t 0 = 0 ∧ win1_4.index t 1 = 0 := by decide +kernel
theorem idx1_5 : ∀ t : Fin grid1.N, win1_5.index t 0 = 0 ∧ win1_5.index t 1 = 0 := by decide +kernel

theorem blk0_apply (c : Dev nD) (t : Fin cfg1.N) (j : Fin 256) : blk0 V c t (ix2 0 j) = srcB V c (Fin.cast N1' t) j := by
  have hi := idx1_0 t
  show iblk1 V c 0 t (ix2 0 j) = _
  unfold iblk1 srcB
  rw [View.read_apply]
  show V c (Pipeline.arrRef spec1 0) _ = V c (Pipeline.arrRef spec1 0) _
  congr 1
  funext a
  apply Fin.ext
  match a with
  | ⟨0, _⟩ => show win1_0.index t 0 * 1 + 1 * 0 = 0; rw [hi.1]
  | ⟨1, _⟩ => show win1_0.index t 1 * 256 + 1 * j.val = 256 * t.val + j.val; rw [hi.2]; omega

theorem blk1_apply (c : Dev nD) (t : Fin cfg1.N) (j : Fin 256) : blk1 V c t (ix2 0 j) = dstB V c (Fin.cast N1' t) j := by
  have hi := idx1_1 t
  show iblk1 V c 1 t (ix2 0 j) = _
  unfold iblk1 dstB
  rw [View.read_apply]
  show V c (Pipeline.arrRef spec1 1) _ = V c (Pipeline.arrRef spec1 1) _
  congr 1
  funext a
  apply Fin.ext
  match a with
  | ⟨0, _⟩ => show win1_1.index t 0 * 1 + 1 * 0 = 0; rw [hi.1]
  | ⟨1, _⟩ => show win1_1.index t 1 * 256 + 1 * j.val = 256 * t.val + j.val; rw [hi.2]; omega

theorem blk2_apply (c : Dev nD) (t : Fin cfg1.N) (j : Fin 256) : (blk2 V c t (ix2 0 j) : EReal) = nrmB V c (Fin.cast N1' t) j := by
  have hi := idx1_2 t
  show iblk1 V c 2 t (ix2 0 j) = _
  unfold iblk1 nrmB
  rw [View.read_apply]
  show V c (Pipeline.arrRef spec1 2) _ = V c (Pipeline.arrRef spec1 2) _
  congr 1
  funext a
  apply Fin.ext
  match a with
  | ⟨0, _⟩ => show win1_2.index t 0 * 1 + 1 * 0 = 0; rw [hi.1]
  | ⟨1, _⟩ => show win1_2.index t 1 * 256 + 1 * j.val = 256 * t.val + j.val; rw [hi.2]; omega

theorem blk3_apply (c : Dev nD) (t : Fin cfg1.N) (k : Fin 64) (r : Fin 800) (o : Fin 128) :
    (blk3 V c t (ix2 (row k r) o) : EReal) = tabB V c k r o := by
  have hi := idx1_3 t
  show iblk1 V c 3 t (ix2 (row k r) o) = _
  unfold iblk1 tabB
  rw [View.read_apply]
  show V c (Pipeline.arrRef spec1 3) _ = V c (Pipeline.arrRef spec1 3) _
  congr 1
  funext a
  apply Fin.ext
  match a with
  | ⟨0, _⟩ => show win1_3.index t 0 * 51200 + 1 * (800 * k.val + r.val) = 800 * k.val + r.val; rw [hi.1]; omega
  | ⟨1, _⟩ => show win1_3.index t 1 * 128 + 1 * o.val = o.val; rw [hi.2]; omega

theorem blk4_apply (c : Dev nD) (t : Fin cfg1.N) (o : Fin 128) : (blk4 V c t (ix2 0 o) : EReal) = biasB V c o := by
  have hi := idx1_4 t
  show iblk1 V c 4 t (ix2 0 o) = _
  unfold iblk1 biasB
  rw [View.read_apply]
  show V c (Pipeline.arrRef spec1 4) _ = V c (Pipeline.arrRef spec1 4) _
  congr 1
  funext a
  apply Fin.ext
  match a with
  | ⟨0, _⟩ => show win1_4.index t 0 * 1 + 1 * 0 = 0; rw [hi.1]
  | ⟨1, _⟩ => show win1_4.index t 1 * 128 + 1 * o.val = o.val; rw [hi.2]; omega

/-- What edge block t adds to row n of the output at column o, in the arrays' own entries. -/
def contribB (c : Dev nD) (t : Fin 3321) (n : Fin 51200) (o : Fin 128) : EReal :=
  ∑ j : Fin 256, (if BitVec.ofNat 32 n.val = dstB V c t j then (1 : EReal) else 0)
    * ∑ k : Fin 64, ∑ r : Fin 800,
        (if BitVec.ofNat 32 (800 * k.val + r.val) = srcB V c t j then nrmB V c t j else 0) * tabB V c k r o

/-- The contribution of the blocks at point t is that sum. -/
theorem contrib_blk (c : Dev nD) (t : Fin cfg1.N) (n : Fin 51200) (o : Fin 128) :
    contrib (blk0 V c t) (blk1 V c t) (blk2 V c t) (blk3 V c t) n o = contribB V c (Fin.cast N1' t) n o := by
  unfold contrib contribB msgOf chunk1
  refine Finset.sum_congr rfl fun j _ => ?_
  rw [blk1_apply]
  refine congrArg (fun b : EReal => (if BitVec.ofNat 32 n.val = dstB V c (Fin.cast N1' t) j then (1 : EReal) else 0) * b) ?_
  refine Finset.sum_congr rfl fun k _ => Finset.sum_congr rfl fun r _ => ?_
  rw [blk0_apply, blk2_apply, blk3_apply]

/-- The contribution of point t', for any natural t' (zero past the grid). -/
def contribAt (c : Dev nD) (n : Fin 51200) (o : Fin 128) (t' : ℕ) : EReal :=
  if h : t' < 3321 then contribB V c ⟨t', h⟩ n o else 0

/-- THE ACCUMULATION before the last point: after point t the output's buffer at (n, o) is the sum of the contributions
    of the points up to t. -/
theorem outsAt_partial (c : Dev nD) (n : Fin 51200) (o : Fin 128) :
    ∀ (t : ℕ) (ht : t < cfg1.N), t < 3320 →
      (outsAt1 V c t ht (ix2 n o) : EReal) = ∑ t' ∈ Finset.range (t + 1), contribAt V c n o t'
  | 0, ht, _ => by
    have hA := outsAt1_A V c ⟨0, ht⟩ rfl (by show ¬0 % 3321 = 3320; decide)
    dsimp only at hA
    rw [hA]
    refine (out_A c (grid1.coords ⟨0, ht⟩) (ms1_0 ⟨0, ht⟩) (hs1_0 ⟨0, ht⟩) (ms1_1 ⟨0, ht⟩) (hs1_1 ⟨0, ht⟩) (ms1_2 ⟨0, ht⟩) (hs1_2 ⟨0, ht⟩) (ms1_3 ⟨0, ht⟩) (hs1_3 ⟨0, ht⟩) (ms1_4 ⟨0, ht⟩) (hs1_4 ⟨0, ht⟩) (ms1_5 ⟨0, ht⟩) (hs1_5 ⟨0, ht⟩) scM1_0 (Memref.isWhole_whole _) _ _
      (blk0 V c ⟨0, ht⟩) (blk1 V c ⟨0, ht⟩) (blk2 V c ⟨0, ht⟩) (blk3 V c ⟨0, ht⟩) (blk4 V c ⟨0, ht⟩) n o).trans ?_
    rw [contrib_blk, Finset.sum_range_one]
    unfold contribAt
    rw [dif_pos (by decide : 0 < 3321)]
    rfl
  | t + 1, ht, h => by
    have hN : t + 1 < 3321 := lt_of_lt_of_eq ht N1'
    have hB0 : ¬(⟨t + 1, ht⟩ : Fin cfg1.N).val % 3321 = 0 := by dsimp only; omega
    have hB1 : ¬(⟨t + 1, ht⟩ : Fin cfg1.N).val % 3321 = 3320 := by dsimp only; omega
    rw [outsAt1_B V c ⟨t + 1, ht⟩ hB0 hB1]
    refine (out_B c (grid1.coords ⟨t + 1, ht⟩) (ms1_0 ⟨t + 1, ht⟩) (hs1_0 ⟨t + 1, ht⟩) (ms1_1 ⟨t + 1, ht⟩) (hs1_1 ⟨t + 1, ht⟩) (ms1_2 ⟨t + 1, ht⟩) (hs1_2 ⟨t + 1, ht⟩) (ms1_3 ⟨t + 1, ht⟩) (hs1_3 ⟨t + 1, ht⟩) (ms1_4 ⟨t + 1, ht⟩) (hs1_4 ⟨t + 1, ht⟩) (ms1_5 ⟨t + 1, ht⟩) (hs1_5 ⟨t + 1, ht⟩) scM1_0 (Memref.isWhole_whole _) _ _
      (blk0 V c ⟨t + 1, ht⟩) (blk1 V c ⟨t + 1, ht⟩) (blk2 V c ⟨t + 1, ht⟩) (blk3 V c ⟨t + 1, ht⟩) (blk4 V c ⟨t + 1, ht⟩) (outsAt1 V c t (Nat.lt_of_succ_lt ht)) n o).trans ?_
    rw [outsAt_partial c n o t (Nat.lt_of_succ_lt ht) (by omega), contrib_blk, Finset.sum_range_succ _ (t + 1)]
    refine congrArg (fun b : EReal => (∑ t' ∈ Finset.range (t + 1), contribAt V c n o t') + b) ?_
    unfold contribAt
    rw [dif_pos hN]
    rfl

end Points

section Final

variable (V : (c : Dev nD) → (b : Ref sig .tc) → Buf (Elt Ideal) ((c : Thread nD τ).loc b))

theorem h3320 : 3320 < cfg1.N := by rw [N1']; decide

/-- After the last point: the sum of all 3321 contributions plus the bias, clamped at zero from below. -/
theorem outsAt_last (c : Dev nD) (n : Fin 51200) (o : Fin 128) :
    (outsAt1 V c 3320 h3320 (ix2 n o) : EReal)
      = max ((∑ t' ∈ Finset.range 3321, contribAt V c n o t') + biasB V c o) 0 := by
  have hC0 : ¬(⟨3320, h3320⟩ : Fin cfg1.N).val % 3321 = 0 := by show ¬3320 % 3321 = 0; decide
  have hC1 : (⟨3320, h3320⟩ : Fin cfg1.N).val % 3321 = 3320 := by show 3320 % 3321 = 3320; decide
  have h3319 : 3319 < cfg1.N := by rw [N1']; decide
  have hp := outsAt_partial V c n o 3319 h3319 (by decide)
  rw [show (3319 + 1 : ℕ) = 3320 from rfl] at hp
  have hC := outsAt1_C V c ⟨3320, h3320⟩ hC0 hC1
  dsimp only at hC
  rw [hC]
  refine (out_C c (grid1.coords ⟨3320, h3320⟩) (ms1_0 ⟨3320, h3320⟩) (hs1_0 ⟨3320, h3320⟩) (ms1_1 ⟨3320, h3320⟩) (hs1_1 ⟨3320, h3320⟩) (ms1_2 ⟨3320, h3320⟩) (hs1_2 ⟨3320, h3320⟩) (ms1_3 ⟨3320, h3320⟩) (hs1_3 ⟨3320, h3320⟩) (ms1_4 ⟨3320, h3320⟩) (hs1_4 ⟨3320, h3320⟩) (ms1_5 ⟨3320, h3320⟩) (hs1_5 ⟨3320, h3320⟩) scM1_0 (Memref.isWhole_whole _) _ _
      (blk0 V c ⟨3320, h3320⟩) (blk1 V c ⟨3320, h3320⟩) (blk2 V c ⟨3320, h3320⟩) (blk3 V c ⟨3320, h3320⟩) (blk4 V c ⟨3320, h3320⟩) (outsAt1 V c 3319 h3319) n o).trans ?_
  rw [hp, contrib_blk, blk4_apply, Finset.sum_range_succ _ 3320]
  refine congrArg (fun b : EReal => max (((∑ t' ∈ Finset.range 3320, contribAt V c n o t') + b) + biasB V c o) 0) ?_
  unfold contribAt
  rw [dif_pos (by decide : 3320 < 3321)]
  rfl

/-- The output array as the buffer the last point leaves. -/
abbrev result (c : Dev nD) : Buf (Elt Ideal) ((c : Thread nD τ).loc main_v44) := outsAt1 V c 3320 h3320

/-- Block (0, 0) of the [51200,128] array, read off any contents of the array's buffer, is those contents: the block is
    the whole array and the window is not cut. -/
theorem flushed_gen (c : Dev nD) (X : Buf (Elt Ideal) ((c : Thread nD τ).loc main_v44)) :
    (cfg1.win 5).cut (grid1.coords ⟨3320, h3320⟩) X = ((cfg1.win 5).blk ⟨3320, h3320⟩).view.read (Elt Ideal) X := by
  have hz' : (fun a => win1_5.index ⟨3320, h3320⟩ a * main_v44.ty.shape.size a) = fun _ => 0 :=
    funext fun a => by
      have hi := idx1_5 ⟨3320, h3320⟩
      match a with
      | ⟨0, _⟩ => show win1_5.index ⟨3320, h3320⟩ 0 * 51200 = 0; rw [hi.1]
      | ⟨1, _⟩ => show win1_5.index ⟨3320, h3320⟩ 1 * 128 = 0; rw [hi.2]
  exact (Memref.read_access_unit_zero (Elt Ideal) main_v44 hz' (fun a => by rw [congrFun hz' a]; simp) X).symm

/-- The one write-back, at the last point, writes the whole buffer. -/
theorem flushed_eq (c : Dev nD) (t : Fin cfg1.N) (hf : (cfg1.win 5).flush t = true) :
    (dat1 V c).flushed 5 t = ((cfg1.win 5).blk t).view.read (Elt Ideal) (result V c) := by
  have hN : cfg1.N = 3321 := N_1
  have h3 : t.val = 3320 := by have := (flush1_5 t).mp hf; have := t.isLt; omega
  obtain rfl : t = ⟨3320, h3320⟩ := Fin.ext h3
  show (cfg1.win 5).cut (grid1.coords ⟨3320, h3320⟩) ((dat1 V c).after 5 ⟨3320, h3320⟩) = _
  rw [after1_5]
  exact flushed_gen c (result V c)

/-- So the output array ends holding what the last point left. -/
theorem final5 (c : Dev nD) : (dat1 V c).arrAt 5 cfg1.N = result V c :=
  (dat1 V c).arrAt_eq_of_cover 5 (result V c) (flushed_eq V c) fun y =>
    ⟨⟨3320, h3320⟩, (flush1_5 ⟨3320, h3320⟩).mpr rfl, by
      have hi := idx1_5 ⟨3320, h3320⟩
      show y ∈ ((View.whole main_v44).slice (win1_5.rect ⟨3320, h3320⟩)).set
      rw [View.set_slice_whole, Rect.mem_set_unit]
      intro a
      have h0 : (y 0 : Nat) < 51200 := (y 0).isLt
      have h1 : (y 1 : Nat) < 128 := (y 1).isLt
      match a with
      | ⟨0, _⟩ =>
        show win1_5.index ⟨3320, h3320⟩ 0 * win1_5.size 0 ≤ (y 0 : Nat) ∧ (y 0 : Nat) < win1_5.index ⟨3320, h3320⟩ 0 * win1_5.size 0 + win1_5.xsize (grid1.coords ⟨3320, h3320⟩) 0
        rw [hi.1, show win1_5.xsize (grid1.coords ⟨3320, h3320⟩) 0 = 51200 from by decide +kernel]; omega
      | ⟨1, _⟩ =>
        show win1_5.index ⟨3320, h3320⟩ 1 * win1_5.size 1 ≤ (y 1 : Nat) ∧ (y 1 : Nat) < win1_5.index ⟨3320, h3320⟩ 1 * win1_5.size 1 + win1_5.xsize (grid1.coords ⟨3320, h3320⟩) 1
        rw [hi.2, show win1_5.xsize (grid1.coords ⟨3320, h3320⟩) 1 = 128 from by decide +kernel]; omega⟩

/-- THE AGGREGATION: the region's output array at (n, o) is, over all edge blocks t and lanes j whose destination word
    is the word of n, the sum over all table rows whose word is the lane's source word of the lane's weight times the
    row's entry; plus the bias; clamped at zero from below. -/
theorem agg1_apply (c : Dev nD) (n : Fin 51200) (o : Fin 128) :
    (((dat1 (F := Ideal) V c).arrAt 5 cfg1.N : S51200x128.Idx → EReal)) (ix2 n o)
      = max ((∑ t : Fin 3321, ∑ j : Fin 256,
            (if BitVec.ofNat 32 n.val = dstB V c t j then (1 : EReal) else 0)
              * ∑ k : Fin 64, ∑ r : Fin 800,
                  (if BitVec.ofNat 32 (800 * k.val + r.val) = srcB V c t j then nrmB V c t j else 0) * tabB V c k r o)
          + biasB V c o) 0 := by
  rw [final5 V c]
  refine (outsAt_last V c n o).trans ?_
  rw [Finset.sum_range]
  refine congrArg (fun b : EReal => max (b + biasB V c o) 0) (Finset.sum_congr rfl fun t _ => ?_)
  unfold contribAt
  rw [dif_pos t.isLt]
  rfl

end Final

end Cert.KernelIdeal.KAgg1

end
-- ==== Proof.KAgg3a.lean ====
/-
  The payloads and the two loops of the third aggregation's body, as functions on the extended reals.

  One trip k of the first loop adds to a scratch [256, 64], at (j, o), the sum over the 800 rows r of chunk k of the
  weight of lane j where the word of row 800·k + r EQUALS lane j's source word (else 0) times the table's entry
  (800·k + r, o): a matrix product that contracts the 800 rows of both operands.  One trip k of the second loop adds
  to rows 800·k … 800·k + 799 of the output, at (n, o), the sum over the 256 lanes j of 1 where n's word EQUALS lane
  j's destination word (else 0) times the message's entry (j, o): a plain product with a one-hot matrix.

  Each payload is read at an index; a trip's store is read back newest first, so after K trips of the first loop the
  scratch holds its entry contents plus the parts of the chunks before K, and after K trips of the second loop the
  rows of the chunks before K hold their entry contents plus their parts while the later rows are as found.
-/
import proofs.«415787_j87273735454854_1_alg».proof.Proof.Gen.KernelIdeal.Loops
import proofs.«415787_j87273735454854_1_alg».proof.Proof.LibRowTile
import Idealize.ShloMosaic.Lib.ValueIdx
import Idealize.ShloMosaic.Lib.Pipeline.Value
import Idealize.ShloMosaic.Lib.Affine
import Idealize.ShloMosaic.Lib.WritesUnit
import Idealize.ShloMosaic.PureOps.Ideal.Laws

set_option maxRecDepth 8192

open scoped BigOperators

noncomputable section

namespace Cert.KernelIdeal.KAgg3

open Cert.KernelIdeal Cert.KernelIdeal.Gen Cert.Lib
open Idealize.ShloMosaic Idealize.ShloMosaic.ValueIdx Idealize.ShloMosaic.TcCoe
open Idealize.SL.Sem
open scoped BigOperators

/-! ## Words -/

/-- The word of row 800·k + r as a trip computes it: the trip counter's word times 800, plus the row's word. -/
theorem rowWord (k r : ℕ) :
    IntOp.addi (Scalar.muli (Scalar.addi 0#32 (Scalar.muli (Scf.iv 0#32 1#32 k) 1#32)) 800#32) (BitVec.ofNat 32 r)
      = BitVec.ofNat 32 (800 * k + r) := by
  simp only [Scalar.muli, Scalar.addi, IntOp.muli, IntOp.addi, Scf.iv]
  rw [BitVec.ofNat_add, BitVec.ofNat_mul]
  simp only [BitVec.zero_add, BitVec.mul_one]
  rw [BitVec.mul_comm]

/-- A comparison bit widened to a word and converted to a float is 1 where the words are equal and 0 elsewhere. -/
theorem onehot_val (a b : BitVec 32) :
    (FloatOps.sitofp (F := Ideal) .f32 ((IntOp.cmpi .eq a b).setWidth 32) : EReal) = if a = b then 1 else 0 := by
  by_cases h : a = b
  · rw [IntOp.cmpi_eq.mpr h, if_pos h]
    show (((((1#1 : BitVec 1).setWidth 32).toInt : ℝ)) : EReal) = 1
    rw [show ((1#1 : BitVec 1).setWidth 32).toInt = 1 from by decide]
    simp
  · have hc : IntOp.cmpi .eq a b = 0#1 := eq_zero_of_ne_one (fun hh => h (IntOp.cmpi_eq.mp hh))
    rw [hc, if_neg h]
    show (((((0#1 : BitVec 1).setWidth 32).toInt : ℝ)) : EReal) = 0
    rw [show ((0#1 : BitVec 1).setWidth 32).toInt = 0 from by decide]
    simp

/-! ## The two contractions -/

/-- The product that contracts the FIRST axis of both operands ([800,256] and [800,64] into [256,64]), into the zero
    accumulator: entry (j, o) is the sum over the 800 rows r of lhs (r, j) * rhs (r, o). -/
theorem dotRows_apply (A : FVec Ideal S800x256 .bf16) (B : FVec Ideal S800x64 .bf16) (j : Fin 256) (o : Fin 64) :
    matmul dot_S800x256_S800x64_S256x64_0_0_1_1_n_n none A B (constant S256x64 .f32 0x00000000#32) (ix2 j o)
      = ∑ r : Fin 800, A (ix2 r j) * B (ix2 r o) := by
  refine (Ideal.matmul_constant_zero_apply dot_S800x256_S800x64_S256x64_0_0_1_1_n_n none A B (ix2 j o)).trans ?_
  rw [← Equiv.sum_comp (contrEquiv1 dot_S800x256_S800x64_S256x64_0_0_1_1_n_n 800 rfl rfl).symm]
  refine Finset.sum_congr rfl fun r _ => ?_
  have hk := contrEquiv1_symm_val dot_S800x256_S800x64_S256x64_0_0_1_1_n_n 800 rfl rfl r
  have el : dot_S800x256_S800x64_S256x64_0_0_1_1_n_n.lhsIdx (ix2 j o) ((contrEquiv1 dot_S800x256_S800x64_S256x64_0_0_1_1_n_n 800 rfl rfl).symm r) = ix2 r j := by
    funext ax; apply Fin.ext
    match ax with
    | ⟨0, _⟩ => exact ((dot_S800x256_S800x64_S256x64_0_0_1_1_n_n).lhsIdx_val_of_single (cl := (0 : Fin 2)) rfl _ _).trans hk
    | ⟨1, _⟩ => exact lhsIdx_val_of_free dot_S800x256_S800x64_S256x64_0_0_1_1_n_n (a := (1 : Fin 2)) rfl rfl _ _ Nat.zero_lt_two
  have er : dot_S800x256_S800x64_S256x64_0_0_1_1_n_n.rhsIdx (ix2 j o) ((contrEquiv1 dot_S800x256_S800x64_S256x64_0_0_1_1_n_n 800 rfl rfl).symm r) = ix2 r o := by
    funext ax; apply Fin.ext
    match ax with
    | ⟨0, _⟩ => exact ((dot_S800x256_S800x64_S256x64_0_0_1_1_n_n).rhsIdx_val_of_single (cr := (0 : Fin 2)) rfl _ _).trans hk
    | ⟨1, _⟩ => exact rhsIdx_val_of_free dot_S800x256_S800x64_S256x64_0_0_1_1_n_n (a := (1 : Fin 2)) (al := (1 : Fin 2)) rfl rfl rfl rfl _ _ Nat.one_lt_two
  rw [el, er]

/-- The plain product [800,256]·[256,64] into the zero accumulator: entry (r, o) is the sum over the 256 lanes. -/
theorem dotLanes_apply (A : FVec Ideal S800x256 .bf16) (B : FVec Ideal S256x64 .bf16) (r : Fin 800) (o : Fin 64) :
    matmul dot_S800x256_S256x64_S800x64_1_0_0_1_n_n none A B (constant S800x64 .f32 0x00000000#32) (ix2 r o)
      = ∑ j : Fin 256, A (ix2 r j) * B (ix2 j o) := by
  refine (Ideal.matmul_constant_zero_apply dot_S800x256_S256x64_S800x64_1_0_0_1_n_n none A B (ix2 r o)).trans ?_
  have hP : IsPlain dot_S800x256_S256x64_S800x64_1_0_0_1_n_n := ⟨rfl, rfl, rfl, rfl, rfl, rfl, rfl, rfl⟩
  exact hP.sum_eq A B (ix2 r o)

/-! ## The payloads at an index -/

/-- The row words of a chunk, broadcast along the lanes: at (r, j) the word of row 800·k + r. -/
theorem rowsB_apply (k : ℕ) (r : Fin 800) (j : Fin 256) :
    broadcastTo S800x256 (addi (broadcast S800x1 (Scalar.muli (Scalar.addi 0#32 (Scalar.muli (Scf.iv 0#32 1#32 k) 1#32)) 800#32))
        (iota .tc S800x1 32 [0] iota_S800x1_d0_w32)) broadcasts_S800x1_S800x256 (ix2 r j)
      = BitVec.ofNat 32 (800 * k + r.val) := by
  refine (broadcastTo_apply _ broadcasts_S800x1_S800x256 (ix2 r j) (ix2 r (0 : Fin 1)) (fun a => ?_)).trans ?_
  · match a with
    | ⟨0, _⟩ => rfl
    | ⟨1, _⟩ => rfl
  · show IntOp.addi _ (iota .tc S800x1 32 [0] iota_S800x1_d0_w32 (ix2 r (0 : Fin 1))) = _
    rw [iota_single_apply]
    exact rowWord k r.val

/-- A [1,256] row broadcast down 800 rows: at (r, j) the row's entry j. -/
theorem laneB_apply {α : Type} (v : S1x256.Idx → α) (r : Fin 800) (j : Fin 256) :
    broadcastTo S800x256 (shapeCast S1x256 v shapeCasts_S1x256_S1x256) broadcasts_S1x256_S800x256 (ix2 r j) = v (ix2 (0 : Fin 1) j) := by
  refine (broadcastTo_apply _ broadcasts_S1x256_S800x256 (ix2 r j) (ix2 (0 : Fin 1) j) (fun a => ?_)).trans ?_
  · match a with
    | ⟨0, _⟩ => rfl
    | ⟨1, _⟩ => rfl
  · exact congrFun (shapeCast_self v shapeCasts_S1x256_S1x256) _

/-- One trip of the first loop at entry (j, o): what the scratch held, plus the sum over the chunk's 800 rows r of the
    selected weight (the weight of lane j where the row's word is lane j's source word, else 0) times the table's
    entry (r, o) of the chunk. -/
theorem pay3_apply (v3 : Vec Ideal S1x256 .i32) (v7 : Vec Ideal S1x256 .f32) (k : Fin k3_t1_loop.trips)
    (v25 : Vec Ideal S800x64 .bf16) (v39 : Vec Ideal S256x64 .f32) (j : Fin 256) (o : Fin 64) :
    k3_pay3 (F := Ideal) v3 v7 k v25 v39 (ix2 j o)
      = v39 (ix2 j o) + ∑ r : Fin 800,
          (if BitVec.ofNat 32 (800 * k.val + r.val) = v3 (ix2 (0 : Fin 1) j) then v7 (ix2 (0 : Fin 1) j) else 0) * v25 (ix2 r o) := by
  unfold k3_pay3
  refine (congrFun (shapeCast_self _ shapeCasts_S256x64_S256x64) (ix2 j o)).trans ?_
  refine (congrArg (v39 (ix2 j o) + ·) (dotRows_apply _ _ j o)).trans ?_
  refine congrArg (v39 (ix2 j o) + ·) (Finset.sum_congr rfl fun r _ => ?_)
  refine congrArg₂ (· * ·) ?_ (congrFun (shapeCast_self v25 shapeCasts_S800x64_S800x64) (ix2 r o))
  show Scalar.select (IntOp.cmpi .eq _ _) _ _ = _
  rw [rowsB_apply k.val r j, laneB_apply v3 r j, laneB_apply (shapeCast S1x256 v7 shapeCasts_S1x256_S1x256) r j,
    congrFun (shapeCast_self v7 shapeCasts_S1x256_S1x256) _]
  show (if IntOp.cmpi .eq _ _ = 1#1 then _ else Ideal.ofBits .f32 0x00000000#32) = _
  rw [Ideal.ofBits_zero_f32]
  exact if_congr IntOp.cmpi_eq rfl rfl

/-- One trip of the second loop at entry (r, o) of its chunk: what the output held there, plus the sum over the 256
    lanes j of (1 where the row's word is lane j's destination word, else 0) times the message's entry (j, o). -/
theorem pay4_apply (v5 : Vec Ideal S1x256 .i32) (v14 : Vec Ideal S256x64 .f32) (k : Fin k3_t2_loop.trips)
    (v35 : Vec Ideal S800x64 .f32) (r : Fin 800) (o : Fin 64) :
    k3_pay4 (F := Ideal) v5 v14 k v35 (ix2 r o)
      = v35 (ix2 r o) + ∑ j : Fin 256,
          (if BitVec.ofNat 32 (800 * k.val + r.val) = v5 (ix2 (0 : Fin 1) j) then (1 : EReal) else 0) * v14 (ix2 j o) := by
  unfold k3_pay4
  refine (congrArg₂ (· + ·) (congrFun (shapeCast_self v35 shapeCasts_S800x64_S800x64) (ix2 r o)) (dotLanes_apply _ _ r o)).trans ?_
  refine congrArg (v35 (ix2 r o) + ·) (Finset.sum_congr rfl fun j _ => ?_)
  refine congrArg (· * v14 (ix2 j o)) ?_
  show FloatOps.sitofp (F := Ideal) .f32 ((IntOp.cmpi .eq _ _).setWidth 32) = _
  rw [rowsB_apply k.val r j, laneB_apply v5 r j]
  exact onehot_val _ _

/-- The bias step at entry (n, o): what the output held plus the bias of the column. -/
theorem pay5_apply (v20 : Vec Ideal S51200x64 .f32) (v22 : Vec Ideal S1x64 .f32) (n : Fin 51200) (o : Fin 64) :
    k3_pay5 (F := Ideal) v20 v22 (ix2 n o) = v20 (ix2 n o) + v22 (ix2 (0 : Fin 1) o) := by
  unfold k3_pay5
  refine congrArg₂ (· + ·) (congrFun (shapeCast_self v20 shapeCasts_S51200x64_S51200x64) (ix2 n o)) ?_
  refine (broadcastTo_apply _ broadcasts_S1x64_S51200x64 (ix2 n o) (ix2 (0 : Fin 1) o) (fun a => ?_)).trans ?_
  · match a with
    | ⟨0, _⟩ => rfl
    | ⟨1, _⟩ => rfl
  · exact congrFun (shapeCast_self v22 shapeCasts_S1x64_S1x64) _

/-- The reset of the output is zero everywhere. -/
theorem pay1_apply (y : S51200x64.Idx) : k3_pay1 (F := Ideal) y = 0 := Ideal.ofBits_zero_f32

/-- The reset of the scratch is zero everywhere. -/
theorem pay2_apply (y : S256x64.Idx) : k3_pay2 (F := Ideal) y = 0 := by
  unfold k3_pay2
  exact (congrFun (shapeCast_self _ shapeCasts_S256x64_S256x64) y).trans Ideal.ofBits_zero_f32

/-! ## The chunk offsets in closed form -/

/-- The trip counter's word times 800 is the word of 800·k. -/
theorem offWord (k : ℕ) :
    Scalar.indexCast (Scalar.muli (Scalar.addi 0#32 (Scalar.muli (Scf.iv 0#32 1#32 k) 1#32)) 800#32) = BitVec.ofNat 32 (800 * k) := by
  simp only [Scalar.indexCast, Scalar.muli, Scalar.addi, IntOp.muli, IntOp.addi, Scf.iv]
  rw [BitVec.ofNat_mul]
  simp only [BitVec.zero_add, BitVec.mul_one]
  rw [BitVec.mul_comm]

/-- Chunk k of the first loop starts at row 800·k, column 0. -/
theorem off1_eq (k : Fin k3_t1_loop.trips) : k3_off1 k = ![800 * k.val, 0] := by
  have hk : k.val < 64 := k.isLt
  unfold k3_off1
  dsimp only
  rw [offWord k.val, BitVec.toNat_ofNat, Nat.mod_eq_of_lt (by omega)]

/-- Chunk k of the second loop starts at row 800·k, column 0. -/
theorem off2_eq (k : Fin k3_t2_loop.trips) : k3_off2 k = ![800 * k.val, 0] := by
  have hk : k.val < 64 := k.isLt
  unfold k3_off2
  dsimp only
  rw [offWord k.val, BitVec.toNat_ofNat, Nat.mod_eq_of_lt (by omega)]

/-- A [51200,64] table read at a natural row number (0 past the end: never met). -/
def tabN (T : S51200x64.Idx → EReal) (n : ℕ) (o : Fin 64) : EReal := if h : n < 51200 then T (ix2 ⟨n, h⟩ o) else 0

/-- Below the table's end it is the table's entry. -/
theorem tabN_of_lt (T : S51200x64.Idx → EReal) (n : ℕ) (o : Fin 64) (h : n < 51200) : tabN T n o = T (ix2 ⟨n, h⟩ o) := dif_pos h

/-- The load of chunk k of the first loop, at (r, o), is the table at row 800·k + r. -/
theorem ld_chunk1 (T : S51200x64.Idx → EReal) (k : Fin k3_t1_loop.trips) (r : Fin 800) (o : Fin 64) :
    View.ld (Val := Elt Ideal) (e' := .bf16) T (Rect.unit (s := S51200x64) (k3_off1 k) S800x64.size (k3_off1_inb k)) (ix2 r o) = tabN T (800 * k.val + r.val) o := by
  have hk : k.val < 64 := k.isLt
  have hr := r.isLt
  have hlt : 800 * k.val + r.val < 51200 := by omega
  rw [tabN_of_lt T _ o hlt]
  show T ((Rect.unit (s := S51200x64) (k3_off1 k) S800x64.size (k3_off1_inb k)).emb (ix2 r o)) = _
  refine congrArg T (funext fun a => Fin.ext ?_)
  match a with
  | ⟨0, _⟩ =>
    show k3_off1 k 0 + 1 * r.val = 800 * k.val + r.val
    rw [off1_eq k]; simp
  | ⟨1, _⟩ =>
    show k3_off1 k 1 + 1 * o.val = o.val
    rw [off1_eq k]; simp

/-! ## The two loops -/

section Loops

variable (𝒱 : Variants) (c : Dev nD) (bd : Option 𝒱.V) (i : grid3.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S51200x64 .bf16) (harg4 : arg4.IsWhole) (arg5 : Memref sig .tc .vmem S1x64 .f32) (harg5 : arg5.IsWhole) (arg6 : Memref sig .tc .vmem S51200x64 .f32) (harg6 : arg6.IsWhole) (arg7 : Memref sig .tc .vmem S256x64 .f32) (harg7 : arg7.IsWhole)

/-- A trip of the first loop leaves one piece: the whole scratch, stored with the trip's payload of the chunk's load
    and of what the scratch held. -/
theorem tripL_t1 (v3 : Vec Ideal S1x256 .i32) (v7 : Vec Ideal S1x256 .f32) (X : BufTy.Contents (Elt Ideal) arg4.view.ty)
    (k : Fin k3_t1_loop.trips) (f : BufTy.Contents (Elt Ideal) arg7.view.ty) :
    tripL_k3_t1 (F := Ideal) 𝒱 c bd i arg1 harg1 arg2 harg2 arg3 harg3 arg4 harg4 arg5 harg5 arg6 harg6 arg7 harg7 v3 v7 X k f
      = [⟨Rect.unit (s := S256x64) ![0, 0] S256x64.size inb_S256x64_S256x64_0_0,
          k3_pay3 v3 v7 k
            (View.readAt (Elt Ideal) arg4.view (Rect.unit (s := S51200x64) (k3_off1 k) S800x64.size (k3_off1_inb k)).toLoadRect X)
            (View.readAt (Elt Ideal) arg7.view (Rect.unit (s := S256x64) ![0, 0] S256x64.size inb_S256x64_S256x64_0_0).toLoadRect f)⟩] := by
  unfold tripL_k3_t1
  unfold trip_k3_t1
  rfl

/-- A trip of the second loop leaves one piece: its chunk of 800 rows, stored with the trip's payload of what those
    rows held. -/
theorem tripL_t2 (v5 : Vec Ideal S1x256 .i32) (v14 : Vec Ideal S256x64 .f32)
    (k : Fin k3_t2_loop.trips) (f : BufTy.Contents (Elt Ideal) arg6.view.ty) :
    tripL_k3_t2 (F := Ideal) 𝒱 c bd i arg1 harg1 arg2 harg2 arg3 harg3 arg4 harg4 arg5 harg5 arg6 harg6 arg7 harg7 v5 v14 k f
      = [⟨Rect.unit (s := S51200x64) (k3_off2 k) S800x64.size (k3_off2_inb k),
          k3_pay4 v5 v14 k
            (View.readAt (Elt Ideal) arg6.view (Rect.unit (s := S51200x64) (k3_off2 k) S800x64.size (k3_off2_inb k)).toLoadRect f)⟩] := by
  unfold tripL_k3_t2
  unfold trip_k3_t2
  rfl

/-- The zero offsets of a rank-2 rectangle, as a constant function. -/
theorem hz2 : (![0, 0] : Fin 2 → Nat) = fun _ => 0 := funext fun a => by fin_cases a <;> rfl

/-- Chunk k's part of the message at (j, o): over the chunk's rows, the weight of lane j where the row is lane j's source,
    times the table's entry. -/
def msgTerm (v3 : Vec Ideal S1x256 .i32) (v7 : Vec Ideal S1x256 .f32) (T : S51200x64.Idx → EReal) (k : ℕ) (j : Fin 256) (o : Fin 64) : EReal :=
  ∑ r : Fin 800, (if BitVec.ofNat 32 (800 * k + r.val) = v3 (ix2 (0 : Fin 1) j) then v7 (ix2 (0 : Fin 1) j) else 0) * tabN T (800 * k + r.val) o

/-- One trip of the first loop adds its chunk's part to every entry of the scratch. -/
theorem t1_step (v3 : Vec Ideal S1x256 .i32) (v7 : Vec Ideal S1x256 .f32) (X : BufTy.Contents (Elt Ideal) arg4.view.ty)
    (G : BufTy.Contents (Elt Ideal) arg7.view.ty) (k : Fin k3_t1_loop.trips) (j : Fin 256) (o : Fin 64) :
    arg7.view.read (Elt Ideal) (arg7.view.writes (Elt Ideal) G (pb_k3_t1 (F := Ideal) 𝒱 c bd i arg1 harg1 arg2 harg2 arg3 harg3 arg4 harg4 arg5 harg5 arg6 harg6 arg7 harg7 v3 v7 X G (k.val + 1))) (ix2 j o)
      = arg7.view.read (Elt Ideal) (arg7.view.writes (Elt Ideal) G (pb_k3_t1 (F := Ideal) 𝒱 c bd i arg1 harg1 arg2 harg2 arg3 harg3 arg4 harg4 arg5 harg5 arg6 harg6 arg7 harg7 v3 v7 X G k.val)) (ix2 j o)
        + msgTerm v3 v7 (arg4.view.read (Elt Ideal) X) k.val j o := by
  rw [pb_k3_t1_succ, tripL_t1, List.singleton_append]
  refine (View.read_writes_cons_unit_of_mem arg7.view G inb_S256x64_S256x64_0_0 _ _ (ix2 j o) (ix2 j o) rfl (fun a => ?_)).trans ?_
  · match a with
    | ⟨0, _⟩ => exact (Nat.zero_add _).symm
    | ⟨1, _⟩ => exact (Nat.zero_add _).symm
  · refine (pay3_apply v3 v7 k _ _ j o).trans ?_
    refine congrArg₂ (· + ·) ?_ (Finset.sum_congr rfl fun r _ => congrArg₂ (· * ·) rfl ?_)
    · rw [View.readAt_eq_ld, View.ld_unit_zero (S := S256x64) hz2]
    · rw [View.readAt_eq_ld]
      exact ld_chunk1 _ k r o

end Loops

section Loops

variable (𝒱 : Variants) (c : Dev nD) (bd : Option 𝒱.V) (i : grid3.Coords) (arg1 : Memref sig .tc .vmem S1x256 .i32) (harg1 : arg1.IsWhole) (arg2 : Memref sig .tc .vmem S1x256 .i32) (harg2 : arg2.IsWhole) (arg3 : Memref sig .tc .vmem S1x256 .f32) (harg3 : arg3.IsWhole) (arg4 : Memref sig .tc .vmem S51200x64 .bf16) (harg4 : arg4.IsWhole) (arg5 : Memref sig .tc .vmem S1x64 .f32) (harg5 : arg5.IsWhole) (arg6 : Memref sig .tc .vmem S51200x64 .f32) (harg6 : arg6.IsWhole) (arg7 : Memref sig .tc .vmem S256x64 .f32) (harg7 : arg7.IsWhole)

/-- After K trips of the first loop the scratch holds, at (j, o), what it held at entry plus the parts of the chunks
    before K. -/
theorem t1_inv (v3 : Vec Ideal S1x256 .i32) (v7 : Vec Ideal S1x256 .f32) (X : BufTy.Contents (Elt Ideal) arg4.view.ty)
    (G : BufTy.Contents (Elt Ideal) arg7.view.ty) (j : Fin 256) (o : Fin 64) : ∀ K : ℕ, K ≤ 64 →
    arg7.view.read (Elt Ideal) (arg7.view.writes (Elt Ideal) G (pb_k3_t1 (F := Ideal) 𝒱 c bd i arg1 harg1 arg2 harg2 arg3 harg3 arg4 harg4 arg5 harg5 arg6 harg6 arg7 harg7 v3 v7 X G K)) (ix2 j o)
      = arg7.view.read (Elt Ideal) G (ix2 j o)
        + ∑ k ∈ Finset.range K, msgTerm v3 v7 (arg4.view.read (Elt Ideal) X) k j o
  | 0, _ => by
    rw [Finset.sum_range_zero, add_zero]
    rfl
  | K + 1, hK => by
    have hK' : K < k3_t1_loop.trips := by show K < 64; omega
    refine (t1_step 𝒱 c bd i arg1 harg1 arg2 harg2 arg3 harg3 arg4 harg4 arg5 harg5 arg6 harg6 arg7 harg7 v3 v7 X G ⟨K, hK'⟩ j o).trans ?_
    show arg7.view.read (Elt Ideal) (arg7.view.writes (Elt Ideal) G (pb_k3_t1 (F := Ideal) 𝒱 c bd i arg1 harg1 arg2 harg2 arg3 harg3 arg4 harg4 arg5 harg5 arg6 harg6 arg7 harg7 v3 v7 X G K)) (ix2 j o)
        + msgTerm v3 v7 (arg4.view.read (Elt Ideal) X) K j o = _
    rw [t1_inv v3 v7 X G j o K (by omega), Finset.sum_range_succ, add_assoc]

/-- Row n's part from the lanes at (n, o): the message's entries of the lanes whose destination word is n's. -/
def aggTerm (v5 : Vec Ideal S1x256 .i32) (M : S256x64.Idx → EReal) (n : ℕ) (o : Fin 64) : EReal :=
  ∑ j : Fin 256, (if BitVec.ofNat 32 n = v5 (ix2 (0 : Fin 1) j) then (1 : EReal) else 0) * M (ix2 j o)

/-- One trip of the second loop adds, on the rows of its chunk, the rows' parts; the other rows keep what they held. -/
theorem t2_step (v5 : Vec Ideal S1x256 .i32) (v14 : Vec Ideal S256x64 .f32)
    (G : BufTy.Contents (Elt Ideal) arg6.view.ty) (k : Fin k3_t2_loop.trips) (n : Fin 51200) (o : Fin 64) :
    arg6.view.read (Elt Ideal) (arg6.view.writes (Elt Ideal) G (pb_k3_t2 (F := Ideal) 𝒱 c bd i arg1 harg1 arg2 harg2 arg3 harg3 arg4 harg4 arg5 harg5 arg6 harg6 arg7 harg7 v5 v14 G (k.val + 1))) (ix2 n o)
      = if 800 * k.val ≤ n.val ∧ n.val < 800 * k.val + 800 then
          arg6.view.read (Elt Ideal) (arg6.view.writes (Elt Ideal) G (pb_k3_t2 (F := Ideal) 𝒱 c bd i arg1 harg1 arg2 harg2 arg3 harg3 arg4 harg4 arg5 harg5 arg6 harg6 arg7 harg7 v5 v14 G k.val)) (ix2 n o)
            + aggTerm v5 v14 n.val o
        else arg6.view.read (Elt Ideal) (arg6.view.writes (Elt Ideal) G (pb_k3_t2 (F := Ideal) 𝒱 c bd i arg1 harg1 arg2 harg2 arg3 harg3 arg4 harg4 arg5 harg5 arg6 harg6 arg7 harg7 v5 v14 G k.val)) (ix2 n o) := by
  rw [pb_k3_t2_succ, tripL_t2, List.singleton_append]
  by_cases h : 800 * k.val ≤ n.val ∧ n.val < 800 * k.val + 800
  · rw [if_pos h]
    have hr : n.val - 800 * k.val < 800 := by omega
    refine (View.read_writes_cons_unit_of_mem arg6.view G (k3_off2_inb k) _ _ (ix2 n o) (ix2 (⟨n.val - 800 * k.val, hr⟩ : Fin 800) o)
      (off2_eq k) (fun a => ?_)).trans ?_
    · match a with
      | ⟨0, _⟩ => show n.val = 800 * k.val + (n.val - 800 * k.val); omega
      | ⟨1, _⟩ => show o.val = 0 + o.val; omega
    · refine (pay4_apply v5 v14 k _ ⟨n.val - 800 * k.val, hr⟩ o).trans ?_
      have hn : 800 * k.val + (n.val - 800 * k.val) = n.val := by omega
      refine congrArg₂ (· + ·) ?_ ?_
      · rw [View.readAt_eq_ld]
        show arg6.view.read (Elt Ideal) _ ((Rect.unit (s := S51200x64) (k3_off2 k) S800x64.size (k3_off2_inb k)).emb (ix2 (⟨n.val - 800 * k.val, hr⟩ : Fin 800) o)) = _
        refine congrArg _ (funext fun a => Fin.ext ?_)
        match a with
        | ⟨0, _⟩ =>
          show k3_off2 k 0 + 1 * (n.val - 800 * k.val) = n.val
          rw [off2_eq k]; show 800 * k.val + 1 * (n.val - 800 * k.val) = n.val; omega
        | ⟨1, _⟩ =>
          show k3_off2 k 1 + 1 * o.val = o.val
          rw [off2_eq k]; show 0 + 1 * o.val = o.val; omega
      · unfold aggTerm
        show (∑ j : Fin 256, (if BitVec.ofNat 32 (800 * k.val + (n.val - 800 * k.val)) = v5 (ix2 (0 : Fin 1) j) then (1 : EReal) else 0) * v14 (ix2 j o)) = _
        rw [hn]
  · rw [if_neg h]
    exact View.read_writes_cons_unit_of_not_mem arg6.view G (k3_off2_inb k) _ _ (ix2 n o) (off2_eq k) (0 : Fin 2)
      (by show n.val < 800 * k.val ∨ 800 * k.val + 800 ≤ n.val; omega)

/-- After K trips of the second loop the rows of the chunks before K hold what they held plus their parts; the rows from
    800·K on are as the loop found them. -/
theorem t2_inv (v5 : Vec Ideal S1x256 .i32) (v14 : Vec Ideal S256x64 .f32)
    (G : BufTy.Contents (Elt Ideal) arg6.view.ty) (n : Fin 51200) (o : Fin 64) : ∀ K : ℕ, K ≤ 64 →
    arg6.view.read (Elt Ideal) (arg6.view.writes (Elt Ideal) G (pb_k3_t2 (F := Ideal) 𝒱 c bd i arg1 harg1 arg2 harg2 arg3 harg3 arg4 harg4 arg5 harg5 arg6 harg6 arg7 harg7 v5 v14 G K)) (ix2 n o)
      = if n.val < 800 * K then arg6.view.read (Elt Ideal) G (ix2 n o) + aggTerm v5 v14 n.val o
        else arg6.view.read (Elt Ideal) G (ix2 n o)
  | 0, _ => by
    rw [if_neg (by omega)]
    rfl
  | K + 1, hK => by
    have hK' : K < k3_t2_loop.trips := by show K < 64; omega
    refine (t2_step 𝒱 c bd i arg1 harg1 arg2 harg2 arg3 harg3 arg4 harg4 arg5 harg5 arg6 harg6 arg7 harg7 v5 v14 G ⟨K, hK'⟩ n o).trans ?_
    show (if 800 * K ≤ n.val ∧ n.val < 800 * K + 800 then
          arg6.view.read (Elt Ideal) (arg6.view.writes (Elt Ideal) G (pb_k3_t2 (F := Ideal) 𝒱 c bd i arg1 harg1 arg2 harg2 arg3 harg3 arg4 harg4 arg5 harg5 arg6 harg6 arg7 harg7 v5 v14 G K)) (ix2 n o)
            + aggTerm v5 v14 n.val o
        else arg6.view.read (Elt Ideal) (arg6.view.writes (Elt Ideal) G (pb_k3_t2 (F := Ideal) 𝒱 c bd i arg1 harg1 arg2 harg2 arg3 harg3 arg4 harg4 arg5 harg5 arg6 harg6 arg7 harg7 v5 v14 G K)) (ix2 n o)) = _
    rw [t2_inv v5 v14 G n o K (by omega)]
    by_cases h1 : n.val < 800 * K
    · rw [if_neg (by omega), if_pos h1, if_pos (by omega)]
    · rw [if_neg h1]
      by_cases h2 : n.val < 800 * (K + 1)
      · rw [if_pos (by omega), if_pos h2]
      · rw [if_neg (by omega), if_neg h2]

/-- After all 64 trips every row holds what it held plus its part. -/
theorem t2_all (v5 : Vec Ideal S1x256 .i32) (v14 : Vec Ideal S256x64 .f32)
    (G : BufTy.Contents (Elt Ideal) arg6.view.ty) (n : Fin 51200) (o : Fin 64) :
    arg6.view.read (Elt Ideal) (arg6.view.writes (Elt Ideal) G (pb_k3_t2 (F := Ideal) 𝒱 c bd i arg1 harg1 arg2 harg2 arg3 harg3 arg4 harg4 arg5 harg5 arg6 harg6 arg7 harg7 v5 v14 G 64)) (ix2 n o)
      = arg6.view.read (Elt Ideal) G (ix2 n o) + aggTerm v5 v14 n.val o := by
  rw [t2_inv 𝒱 c bd i arg1 harg1 arg2 harg2 arg3 harg3 arg4 harg4 arg5 harg5 arg6 harg6 arg7 harg7 v5 v14 G n o 64 (le_refl _), if_pos (by have := n.isLt; omega)]

end Loops

end Cert.KernelIdeal.KAgg3

end
-- ==== Proof.KAgg3.lean ====
/-
  The third aggregation of the graph convolution, read off the kernel's grid run.

  The grid has 3321 points; point t sees the 256 edge positions 256·t … 256·t + 255 of the padded edge list (their
  source words, destination words and weights), the whole feature table [51200, 64] and the bias [1, 64], and one
  output block — the whole output [51200, 64] — that every point revisits and that is written back after the last.

  One point first builds a message [256, 64]: for lane j and column o the sum, over the 64 chunks k of 800 table rows
  and the rows r of a chunk, of the lane's weight where the word of row 800·k + r EQUALS the lane's source word (else
  0) times the table's entry (800·k + r, o); the scratch it accumulates in starts at 0.  Then it adds to the output,
  chunk by chunk of 800 rows, a one-hot matrix times the message: row n gains the messages of the lanes whose
  destination word EQUALS n's word.  The first point starts the output from 0, the last adds the bias.

  So after the run the output at (n, o) is the sum over all points and lanes of those contributions plus the bias
  (agg3_apply).  The two loops are read in the module before this one; here: the three kinds of point (first,
  middle, last) from the pieces each leaves in the output's buffer, the windows' blocks as entries of the region's
  arrays, the points by induction, and the one write-back of the whole block.
-/
import proofs.«415787_j87273735454854_1_alg».proof.Proof.FrameKernelIdeal
import proofs.«415787_j87273735454854_1_alg».proof.Proof.KAgg3a
import Idealize.ShloMosaic.Lib.ValueIdx
import Idealize.ShloMosaic.Lib.Pipeline.Value
import Idealize.ShloMosaic.Lib.WritesUnit

set_option maxRecDepth 16384

open scoped BigOperators

noncomputable section

namespace Cert.KernelIdeal.KAgg3

open Cert.KernelIdeal Cert.KernelIdeal.Gen Cert.Lib
open Idealize.ShloMosaic Idealize.ShloMosaic.ValueIdx Idealize.ShloMosaic.TcCoe
open Idealize.SL.Sem
open Idealize.ShloMosaic.Pipeline (Dat Cfg Window)
open scoped BigOperators

/-! ## One grid point -/

/-- The message of a point at (j, o): over all 51200 table rows (64 chunks of 800), the weight of lane j where the
    row's word is lane j's source word, times the table's entry. -/
def msg (x0 : Vec Ideal S1x256 .i32) (x2 : Vec Ideal S1x256 .f32) (T : S51200x64.Idx → EReal) : S256x64.Idx → EReal :=
  fun y => ∑ k ∈ Finset.range 64, msgTerm x0 x2 T k (y 0) (y 1)

/-- What a point adds to the output at (n, o): the messages of the lanes whose destination word is n's. -/
def contrib (x0 x1 : Vec Ideal S1x256 .i32) (x2 : Vec Ideal S1x256 .f32) (T : S51200x64.Idx → EReal) (n : ℕ) (o : Fin 64) : EReal :=
  aggTerm x1 (msg x0 x2 T) n o

/-- Row n's part at column o depends on the message only through its column o. -/
theorem aggTerm_congr (v5 : Vec Ideal S1x256 .i32) (M M' : S256x64.Idx → EReal) (n : ℕ) (o : Fin 64)
    (h : ∀ j : Fin 256, M (ix2 j o) = M' (ix2 j o)) : aggTerm v5 M n o = aggTerm v5 M' n o :=
  Finset.sum_congr rfl fun j _ => by rw [h j]

/-- The scratch a point's first loop leaves (its 64 trips over the zero fill), loaded whole, is the point's message. -/
theorem msg_of_run (c : Dev nD) (i : grid3.Coords) (a1 : Memref sig .tc .vmem S1x256 .i32) (h1 : a1.IsWhole) (a2 : Memref sig .tc .vmem S1x256 .i32) (h2 : a2.IsWhole) (a3 : Memref sig .tc .vmem S1x256 .f32) (h3 : a3.IsWhole) (a4 : Memref sig .tc .vmem S51200x64 .bf16) (h4 : a4.IsWhole) (a5 : Memref sig .tc .vmem S1x64 .f32) (h5 : a5.IsWhole) (a6 : Memref sig .tc .vmem S51200x64 .f32) (h6 : a6.IsWhole) (a7 : Memref sig .tc .vmem S256x64 .f32) (h7 : a7.IsWhole)
    (x0 : Vec Ideal S1x256 .i32) (x2 : Vec Ideal S1x256 .f32) (x3 : Vec Ideal S51200x64 .bf16) (j : Fin 256) (o : Fin 64) :
    View.readAt (Elt Ideal) a7.view (Rect.unit (s := S256x64) ![0, 0] S256x64.size inb_S256x64_S256x64_0_0).toLoadRect
        (a7.view.writes (Elt Ideal) a7.view.junk
          (pb_k3_t1 (F := Ideal) Variants.none c none i a1 h1 a2 h2 a3 h3 a4 h4 a5 h5 a6 h6 a7 h7
              (View.readAt (Elt Ideal) a1.view (Rect.unit (s := S1x256) ![0, 0] S1x256.size inb_S1x256_S1x256_0_0).toLoadRect (h1.unread x0))
              (View.readAt (Elt Ideal) a3.view (Rect.unit (s := S1x256) ![0, 0] S1x256.size inb_S1x256_S1x256_0_0).toLoadRect (h3.unread x2))
              (h4.unread x3)
              (a7.view.writes (Elt Ideal) a7.view.junk [⟨Rect.unit (s := S256x64) ![0, 0] S256x64.size inb_S256x64_S256x64_0_0, k3_pay2 (F := Ideal)⟩])
              64 ++
            [⟨Rect.unit (s := S256x64) ![0, 0] S256x64.size inb_S256x64_S256x64_0_0, k3_pay2 (F := Ideal)⟩])) (ix2 j o)
      = msg x0 x2 x3 (ix2 j o) := by
  rw [View.readAt_eq_ld, View.ld_unit_zero (S := S256x64) hz2, View.writes_append]
  refine (t1_inv Variants.none c none i a1 h1 a2 h2 a3 h3 a4 h4 a5 h5 a6 h6 a7 h7 _ _ (h4.unread x3) _ j o 64 (le_refl _)).trans ?_
  have e0 : a7.view.read (Elt Ideal) (a7.view.writes (Elt Ideal) a7.view.junk
      [⟨Rect.unit (s := S256x64) ![0, 0] S256x64.size inb_S256x64_S256x64_0_0, k3_pay2 (F := Ideal)⟩]) (ix2 j o) = 0 := by
    refine (View.read_writes_cons_unit_of_mem a7.view a7.view.junk inb_S256x64_S256x64_0_0 _ [] (ix2 j o) (ix2 j o) rfl (fun a => ?_)).trans (pay2_apply _)
    match a with
    | ⟨0, _⟩ => exact (Nat.zero_add _).symm
    | ⟨1, _⟩ => exact (Nat.zero_add _).symm
  rw [e0, zero_add, View.readAt_eq_ld, View.readAt_eq_ld, h1.read_unread, h3.read_unread, h4.read_unread,
    View.ld_unit_zero (S := S1x256) hz2, View.ld_unit_zero (S := S1x256) hz2]
  rfl

/-- What a point's second loop adds at (n, o), from the lanes as the run loads them, is the point's contribution. -/
theorem agg_of_run (v5 : Vec Ideal S1x256 .i32) (v14 : Vec Ideal S256x64 .f32)
    (x0 x1 : Vec Ideal S1x256 .i32) (x2 : Vec Ideal S1x256 .f32) (x3 : Vec Ideal S51200x64 .bf16) (n : ℕ) (o : Fin 64)
    (hv5 : v5 = x1) (hv14 : ∀ j : Fin 256, v14 (ix2 j o) = msg x0 x2 x3 (ix2 j o)) :
    aggTerm v5 v14 n o = contrib x0 x1 x2 x3 n o := by
  subst hv5
  exact aggTerm_congr _ _ _ n o hv14

/-- THE FIRST POINT: the output starts from 0 and gains the point's contribution. -/
theorem out_A (c : Dev nD) (i : grid3.Coords) (a1 : Memref sig .tc .vmem S1x256 .i32) (h1 : a1.IsWhole) (a2 : Memref sig .tc .vmem S1x256 .i32) (h2 : a2.IsWhole) (a3 : Memref sig .tc .vmem S1x256 .f32) (h3 : a3.IsWhole) (a4 : Memref sig .tc .vmem S51200x64 .bf16) (h4 : a4.IsWhole) (a5 : Memref sig .tc .vmem S1x64 .f32) (h5 : a5.IsWhole) (a6 : Memref sig .tc .vmem S51200x64 .f32) (h6 : a6.IsWhole) (a7 : Memref sig .tc .vmem S256x64 .f32) (h7 : a7.IsWhole) (hc0 : GenP.cond3_0 i) (hc1 : ¬GenP.cond3_1 i)
    (x0 x1 : Vec Ideal S1x256 .i32) (x2 : Vec Ideal S1x256 .f32) (x3 : Vec Ideal S51200x64 .bf16) (x4 : Vec Ideal S1x64 .f32)
    (n : Fin 51200) (o : Fin 64) :
    GenP.out3_A_5 (F := Ideal) c i a1 h1 a2 h2 a3 h3 a4 h4 a5 h5 a6 h6 a7 h7 hc0 hc1 x0 x1 x2 x3 x4 (ix2 n o) = 0 + contrib x0 x1 x2 x3 n.val o := by
  have hK1 : Scf.trips k3_t1_loop.lb k3_t1_loop.ub k3_t1_loop.st = 64 := rfl
  have hK2 : Scf.trips (0#32) (Scalar.addi 0#32 64#32) 1#32 = 64 := rfl
  unfold GenP.out3_A_5
  rw [View.read_writes_junk_eq_canon]
  rw [← View.read_writes_apply_eq_canon a6.view a6.view.junk (ix2 n o) _ (GenP.cover3_A_5 c i a1 h1 a2 h2 a3 h3 a4 h4 a5 h5 a6 h6 a7 h7 hc0 hc1 x0 x1 x2 x3 x4 (ix2 n o))]
  unfold GenP.kernelRun3_A
  dsimp only
  sl_unfold_words
  rw [hK1]
  try rw [hK2]
  rw [View.writes_append]
  refine (t2_all Variants.none c none i a1 h1 a2 h2 a3 h3 a4 h4 a5 h5 a6 h6 a7 h7 _ _ _ n o).trans ?_
  refine congrArg₂ (· + ·) ?_ ?_
  · refine (View.read_writes_cons_unit_of_mem a6.view a6.view.junk inb_S51200x64_S51200x64_0_0 _ [] (ix2 n o) (ix2 n o) rfl (fun a => ?_)).trans (pay1_apply _)
    match a with
    | ⟨0, _⟩ => exact (Nat.zero_add _).symm
    | ⟨1, _⟩ => exact (Nat.zero_add _).symm
  · refine agg_of_run _ _ x0 x1 x2 x3 n.val o ?_ (fun j => msg_of_run c i a1 h1 a2 h2 a3 h3 a4 h4 a5 h5 a6 h6 a7 h7 x0 x2 x3 j o)
    rw [View.readAt_eq_ld, h2.read_unread]
    exact View.ld_unit_zero (S := S1x256) hz2 _ _

/-- A MIDDLE POINT: the output holds what it held plus the point's contribution. -/
theorem out_B (c : Dev nD) (i : grid3.Coords) (a1 : Memref sig .tc .vmem S1x256 .i32) (h1 : a1.IsWhole) (a2 : Memref sig .tc .vmem S1x256 .i32) (h2 : a2.IsWhole) (a3 : Memref sig .tc .vmem S1x256 .f32) (h3 : a3.IsWhole) (a4 : Memref sig .tc .vmem S51200x64 .bf16) (h4 : a4.IsWhole) (a5 : Memref sig .tc .vmem S1x64 .f32) (h5 : a5.IsWhole) (a6 : Memref sig .tc .vmem S51200x64 .f32) (h6 : a6.IsWhole) (a7 : Memref sig .tc .vmem S256x64 .f32) (h7 : a7.IsWhole) (hc0 : ¬GenP.cond3_0 i) (hc1 : ¬GenP.cond3_1 i)
    (x0 x1 : Vec Ideal S1x256 .i32) (x2 : Vec Ideal S1x256 .f32) (x3 : Vec Ideal S51200x64 .bf16) (x4 : Vec Ideal S1x64 .f32)
    (xo5 : Vec Ideal S51200x64 .f32) (n : Fin 51200) (o : Fin 64) :
    GenP.out3_B_5 (F := Ideal) c i a1 h1 a2 h2 a3 h3 a4 h4 a5 h5 a6 h6 a7 h7 hc0 hc1 x0 x1 x2 x3 x4 xo5 (ix2 n o) = xo5 (ix2 n o) + contrib x0 x1 x2 x3 n.val o := by
  have hK1 : Scf.trips k3_t1_loop.lb k3_t1_loop.ub k3_t1_loop.st = 64 := rfl
  have hK2 : Scf.trips (0#32) (Scalar.addi 0#32 64#32) 1#32 = 64 := rfl
  unfold GenP.out3_B_5
  rw [View.read_writes_junk_eq_canon]
  rw [← View.read_writes_apply_eq_canon a6.view (h6.unread xo5) (ix2 n o) _ (GenP.cover3_B_5 c i a1 h1 a2 h2 a3 h3 a4 h4 a5 h5 a6 h6 a7 h7 hc0 hc1 x0 x1 x2 x3 x4 xo5 (ix2 n o))]
  unfold GenP.kernelRun3_B
  dsimp only
  sl_unfold_words
  rw [hK1]
  try rw [hK2]
  refine (t2_all Variants.none c none i a1 h1 a2 h2 a3 h3 a4 h4 a5 h5 a6 h6 a7 h7 _ _ (h6.unread xo5) n o).trans ?_
  refine congrArg₂ (· + ·) (congrFun (h6.read_unread xo5) _) ?_
  refine agg_of_run _ _ x0 x1 x2 x3 n.val o ?_ (fun j => msg_of_run c i a1 h1 a2 h2 a3 h3 a4 h4 a5 h5 a6 h6 a7 h7 x0 x2 x3 j o)
  rw [View.readAt_eq_ld, h2.read_unread]
  exact View.ld_unit_zero (S := S1x256) hz2 _ _

/-- THE LAST POINT: what the output held plus the point's contribution, and then the bias of the column. -/
theorem out_C (c : Dev nD) (i : grid3.Coords) (a1 : Memref sig .tc .vmem S1x256 .i32) (h1 : a1.IsWhole) (a2 : Memref sig .tc .vmem S1x256 .i32) (h2 : a2.IsWhole) (a3 : Memref sig .tc .vmem S1x256 .f32) (h3 : a3.IsWhole) (a4 : Memref sig .tc .vmem S51200x64 .bf16) (h4 : a4.IsWhole) (a5 : Memref sig .tc .vmem S1x64 .f32) (h5 : a5.IsWhole) (a6 : Memref sig .tc .vmem S51200x64 .f32) (h6 : a6.IsWhole) (a7 : Memref sig .tc .vmem S256x64 .f32) (h7 : a7.IsWhole) (hc0 : ¬GenP.cond3_0 i) (hc1 : GenP.cond3_1 i)
    (x0 x1 : Vec Ideal S1x256 .i32) (x2 : Vec Ideal S1x256 .f32) (x3 : Vec Ideal S51200x64 .bf16) (x4 : Vec Ideal S1x64 .f32)
    (xo5 : Vec Ideal S51200x64 .f32) (n : Fin 51200) (o : Fin 64) :
    GenP.out3_C_5 (F := Ideal) c i a1 h1 a2 h2 a3 h3 a4 h4 a5 h5 a6 h6 a7 h7 hc0 hc1 x0 x1 x2 x3 x4 xo5 (ix2 n o)
      = (xo5 (ix2 n o) + contrib x0 x1 x2 x3 n.val o) + x4 (ix2 (0 : Fin 1) o) := by
  have hK1 : Scf.trips k3_t1_loop.lb k3_t1_loop.ub k3_t1_loop.st = 64 := rfl
  have hK2 : Scf.trips (0#32) (Scalar.addi 0#32 64#32) 1#32 = 64 := rfl
  unfold GenP.out3_C_5
  rw [View.read_writes_junk_eq_canon]
  rw [← View.read_writes_apply_eq_canon a6.view (h6.unread xo5) (ix2 n o) _ (GenP.cover3_C_5 c i a1 h1 a2 h2 a3 h3 a4 h4 a5 h5 a6 h6 a7 h7 hc0 hc1 x0 x1 x2 x3 x4 xo5 (ix2 n o))]
  unfold GenP.kernelRun3_C
  dsimp only
  sl_unfold_words
  rw [hK1]
  try rw [hK2]
  refine (View.read_writes_cons_unit_of_mem a6.view (h6.unread xo5) inb_S51200x64_S51200x64_0_0 _ _ (ix2 n o) (ix2 n o) rfl (fun a => ?_)).trans ?_
  · match a with
    | ⟨0, _⟩ => exact (Nat.zero_add _).symm
    | ⟨1, _⟩ => exact (Nat.zero_add _).symm
  refine (pay5_apply _ _ n o).trans ?_
  refine congrArg₂ (· + ·) ?_ ?_
  · rw [View.readAt_eq_ld, View.ld_unit_zero (S := S51200x64) hz2]
    refine (t2_all Variants.none c none i a1 h1 a2 h2 a3 h3 a4 h4 a5 h5 a6 h6 a7 h7 _ _ (h6.unread xo5) n o).trans ?_
    refine congrArg₂ (· + ·) (congrFun (h6.read_unread xo5) _) ?_
    refine agg_of_run _ _ x0 x1 x2 x3 n.val o ?_ (fun j => msg_of_run c i a1 h1 a2 h2 a3 h3 a4 h4 a5 h5 a6 h6 a7 h7 x0 x2 x3 j o)
    rw [View.readAt_eq_ld, h2.read_unread]
    exact View.ld_unit_zero (S := S1x256) hz2 _ _
  · rw [View.readAt_eq_ld, h5.read_unread]
    exact congrFun (View.ld_unit_zero (S := S1x64) hz2 _ _) _

/-! ## The region's arrays and blocks -/

section Region

variable (V : (c : Dev nD) → (b : Ref sig .tc) → Buf (Elt Ideal) ((c : Thread nD τ).loc b))

/-- The source word of edge position 256·t + j of the padded edge list. -/
def srcB (c : Dev nD) (t : Fin 3321) (j : Fin 256) : BitVec 32 :=
  (V c (Pipeline.arrRef spec3 0) : S1x850176.Idx → BitVec 32) (ix2 (0 : Fin 1) ⟨256 * t.val + j.val, by have := t.isLt; have := j.isLt; omega⟩)
/-- The destination word of edge position 256·t + j. -/
def dstB (c : Dev nD) (t : Fin 3321) (j : Fin 256) : BitVec 32 :=
  (V c (Pipeline.arrRef spec3 1) : S1x850176.Idx → BitVec 32) (ix2 (0 : Fin 1) ⟨256 * t.val + j.val, by have := t.isLt; have := j.isLt; omega⟩)
/-- The weight of edge position 256·t + j. -/
def nrmB (c : Dev nD) (t : Fin 3321) (j : Fin 256) : EReal :=
  (V c (Pipeline.arrRef spec3 2) : S1x850176.Idx → EReal) (ix2 (0 : Fin 1) ⟨256 * t.val + j.val, by have := t.isLt; have := j.isLt; omega⟩)
/-- The feature table at row 800·k + r, column o. -/
def tabB (c : Dev nD) (k : Fin 64) (r : Fin 800) (o : Fin 64) : EReal :=
  (V c (Pipeline.arrRef spec3 3) : S51200x64.Idx → EReal) (ix2 ⟨800 * k.val + r.val, by have := k.isLt; have := r.isLt; omega⟩ o)
/-- The bias of column o. -/
def biasB (c : Dev nD) (o : Fin 64) : EReal :=
  (V c (Pipeline.arrRef spec3 4) : S1x64.Idx → EReal) (ix2 (0 : Fin 1) o)

/-- The five input blocks of point t, at their literal types. -/
abbrev srcBlk (c : Dev nD) (t : Fin cfg3.N) : Vec Ideal S1x256 .i32 := GenP.iblk3 V c 0 t
abbrev dstBlk (c : Dev nD) (t : Fin cfg3.N) : Vec Ideal S1x256 .i32 := GenP.iblk3 V c 1 t
abbrev nrmBlk (c : Dev nD) (t : Fin cfg3.N) : Vec Ideal S1x256 .f32 := GenP.iblk3 V c 2 t
abbrev tabBlk (c : Dev nD) (t : Fin cfg3.N) : Vec Ideal S51200x64 .bf16 := GenP.iblk3 V c 3 t
abbrev biasBlk (c : Dev nD) (t : Fin cfg3.N) : Vec Ideal S1x64 .f32 := GenP.iblk3 V c 4 t

/-- Where the windows' blocks lie: the three edge windows at column block t, the table and the bias at block (0, 0). -/
theorem idx3_0 : ∀ t : Fin cfg3.N, win3_0.index t 0 = 0 ∧ win3_0.index t 1 = t.val :=
  (by decide +kernel : ∀ t : Fin grid3.N, win3_0.index t 0 = 0 ∧ win3_0.index t 1 = t.val)
theorem idx3_1 : ∀ t : Fin cfg3.N, win3_1.index t 0 = 0 ∧ win3_1.index t 1 = t.val :=
  (by decide +kernel : ∀ t : Fin grid3.N, win3_1.index t 0 = 0 ∧ win3_1.index t 1 = t.val)
theorem idx3_2 : ∀ t : Fin cfg3.N, win3_2.index t 0 = 0 ∧ win3_2.index t 1 = t.val :=
  (by decide +kernel : ∀ t : Fin grid3.N, win3_2.index t 0 = 0 ∧ win3_2.index t 1 = t.val)
theorem idx3_3 : ∀ t : Fin cfg3.N, win3_3.index t 0 = 0 ∧ win3_3.index t 1 = 0 :=
  (by decide +kernel : ∀ t : Fin grid3.N, win3_3.index t 0 = 0 ∧ win3_3.index t 1 = 0)
theorem idx3_4 : ∀ t : Fin cfg3.N, win3_4.index t 0 = 0 ∧ win3_4.index t 1 = 0 :=
  (by decide +kernel : ∀ t : Fin grid3.N, win3_4.index t 0 = 0 ∧ win3_4.index t 1 = 0)

/-- Lane j of point t's source block is the source word of edge position 256·t + j. -/
theorem srcBlk_apply (c : Dev nD) (t : Fin 3321) (j : Fin 256) : srcBlk V c t (ix2 (0 : Fin 1) j) = srcB V c t j := by
  unfold srcBlk GenP.iblk3 srcB
  rw [View.read_apply]
  show (V c (Pipeline.arrRef spec3 0) : S1x850176.Idx → BitVec 32) _ = _
  refine congrArg (V c (Pipeline.arrRef spec3 0) : S1x850176.Idx → BitVec 32) (funext fun a => Fin.ext ?_)
  match a with
  | ⟨0, _⟩ =>
    show win3_0.index t 0 * 1 + 1 * 0 = 0
    rw [(idx3_0 t).1]
  | ⟨1, _⟩ =>
    show win3_0.index t 1 * 256 + 1 * j.val = 256 * t.val + j.val
    rw [(idx3_0 t).2]; omega

/-- Lane j of point t's destination block is the destination word of edge position 256·t + j. -/
theorem dstBlk_apply (c : Dev nD) (t : Fin 3321) (j : Fin 256) : dstBlk V c t (ix2 (0 : Fin 1) j) = dstB V c t j := by
  unfold dstBlk GenP.iblk3 dstB
  rw [View.read_apply]
  show (V c (Pipeline.arrRef spec3 1) : S1x850176.Idx → BitVec 32) _ = _
  refine congrArg (V c (Pipeline.arrRef spec3 1) : S1x850176.Idx → BitVec 32) (funext fun a => Fin.ext ?_)
  match a with
  | ⟨0, _⟩ =>
    show win3_1.index t 0 * 1 + 1 * 0 = 0
    rw [(idx3_1 t).1]
  | ⟨1, _⟩ =>
    show win3_1.index t 1 * 256 + 1 * j.val = 256 * t.val + j.val
    rw [(idx3_1 t).2]; omega

/-- Lane j of point t's weight block is the weight of edge position 256·t + j. -/
theorem nrmBlk_apply (c : Dev nD) (t : Fin 3321) (j : Fin 256) : nrmBlk V c t (ix2 (0 : Fin 1) j) = nrmB V c t j := by
  unfold nrmBlk GenP.iblk3 nrmB
  rw [View.read_apply]
  show (V c (Pipeline.arrRef spec3 2) : S1x850176.Idx → EReal) _ = _
  refine congrArg (V c (Pipeline.arrRef spec3 2) : S1x850176.Idx → EReal) (funext fun a => Fin.ext ?_)
  match a with
  | ⟨0, _⟩ =>
    show win3_2.index t 0 * 1 + 1 * 0 = 0
    rw [(idx3_2 t).1]
  | ⟨1, _⟩ =>
    show win3_2.index t 1 * 256 + 1 * j.val = 256 * t.val + j.val
    rw [(idx3_2 t).2]; omega

/-- Every point's table block is the whole table. -/
theorem tabBlk_apply (c : Dev nD) (t : Fin 3321) (y : S51200x64.Idx) :
    tabBlk V c t y = (V c (Pipeline.arrRef spec3 3) : S51200x64.Idx → EReal) y := by
  unfold tabBlk GenP.iblk3
  rw [View.read_apply]
  show (V c (Pipeline.arrRef spec3 3) : S51200x64.Idx → EReal) _ = _
  refine congrArg (V c (Pipeline.arrRef spec3 3) : S51200x64.Idx → EReal) (funext fun a => Fin.ext ?_)
  match a with
  | ⟨0, _⟩ =>
    show win3_3.index t 0 * 51200 + 1 * (y 0).val = (y 0).val
    rw [(idx3_3 t).1]; omega
  | ⟨1, _⟩ =>
    show win3_3.index t 1 * 64 + 1 * (y 1).val = (y 1).val
    rw [(idx3_3 t).2]; omega

/-- Every point's bias block is the whole bias row. -/
theorem biasBlk_apply (c : Dev nD) (t : Fin 3321) (o : Fin 64) : biasBlk V c t (ix2 (0 : Fin 1) o) = biasB V c o := by
  unfold biasBlk GenP.iblk3 biasB
  rw [View.read_apply]
  show (V c (Pipeline.arrRef spec3 4) : S1x64.Idx → EReal) _ = _
  refine congrArg (V c (Pipeline.arrRef spec3 4) : S1x64.Idx → EReal) (funext fun a => Fin.ext ?_)
  match a with
  | ⟨0, _⟩ =>
    show win3_4.index t 0 * 1 + 1 * 0 = 0
    rw [(idx3_4 t).1]
  | ⟨1, _⟩ =>
    show win3_4.index t 1 * 64 + 1 * o.val = o.val
    rw [(idx3_4 t).2]; omega

/-! ## The points, one after another -/

/-- What point t adds at (n, o), for a natural point number (0 past the grid: never met). -/
def contribAt (c : Dev nD) (n : ℕ) (o : Fin 64) (t : ℕ) : EReal :=
  if h : t < cfg3.N then contrib (srcBlk V c ⟨t, h⟩) (dstBlk V c ⟨t, h⟩) (nrmBlk V c ⟨t, h⟩) (tabBlk V c ⟨t, h⟩) n o else 0

/-- At a point of the grid it is that point's contribution from its own blocks. -/
theorem contribAt_of_lt (c : Dev nD) (n : ℕ) (o : Fin 64) (t : ℕ) (h : t < cfg3.N) :
    contribAt V c n o t = contrib (srcBlk V c ⟨t, h⟩) (dstBlk V c ⟨t, h⟩) (nrmBlk V c ⟨t, h⟩) (tabBlk V c ⟨t, h⟩) n o := dif_pos h

/-- Before the last point the output's buffer holds, at (n, o), the sum of what the points so far added. -/
theorem outsAt_eq (c : Dev nD) (n : Fin 51200) (o : Fin 64) : ∀ (t : ℕ) (ht : t < cfg3.N), t < 3320 →
    (GenP.outsAt3 V c t ht : Vec Ideal S51200x64 .f32) (ix2 n o) = ∑ t' ∈ Finset.range (t + 1), contribAt V c n.val o t'
  | 0, ht, _ => by
    refine (congrFun (GenP.outsAt3_A V c ⟨0, ht⟩ (Nat.zero_mod _) (by show ¬(0 % 3321 = 3320); decide)) (ix2 n o)).trans ?_
    refine (out_A c _ _ _ _ _ _ _ _ _ _ _ _ _ _ _ _ _ (srcBlk V c ⟨0, ht⟩) (dstBlk V c ⟨0, ht⟩) (nrmBlk V c ⟨0, ht⟩) (tabBlk V c ⟨0, ht⟩) (biasBlk V c ⟨0, ht⟩) n o).trans ?_
    rw [Finset.sum_range_one, zero_add]
    exact (contribAt_of_lt V c n.val o 0 ht).symm
  | t + 1, ht, h => by
    have h0 : ¬(⟨t + 1, ht⟩ : Fin cfg3.N).val % 3321 = 0 := by show ¬(t + 1) % 3321 = 0; omega
    have h1 : ¬(⟨t + 1, ht⟩ : Fin cfg3.N).val % 3321 = 3320 := by show ¬(t + 1) % 3321 = 3320; omega
    refine (congrFun (GenP.outsAt3_B V c ⟨t + 1, ht⟩ h0 h1) (ix2 n o)).trans ?_
    refine (out_B c _ _ _ _ _ _ _ _ _ _ _ _ _ _ _ _ _ (srcBlk V c ⟨t + 1, ht⟩) (dstBlk V c ⟨t + 1, ht⟩) (nrmBlk V c ⟨t + 1, ht⟩) (tabBlk V c ⟨t + 1, ht⟩) (biasBlk V c ⟨t + 1, ht⟩) _ n o).trans ?_
    rw [Finset.sum_range_succ _ (t + 1)]
    refine congrArg₂ (· + ·) ?_ (contribAt_of_lt V c n.val o (t + 1) ht).symm
    exact outsAt_eq c n o t (Nat.lt_of_succ_lt ht) (by omega)

/-- After the last point the buffer holds the sum over all 3321 points plus the bias. -/
theorem outsAt_last (c : Dev nD) (n : Fin 51200) (o : Fin 64) (ht : 3320 < cfg3.N) :
    (GenP.outsAt3 V c 3320 ht : Vec Ideal S51200x64 .f32) (ix2 n o)
      = (∑ t' ∈ Finset.range 3321, contribAt V c n.val o t') + biasB V c o := by
  have h0 : ¬(⟨3320, ht⟩ : Fin cfg3.N).val % 3321 = 0 := by show ¬(3320 % 3321 = 0); decide
  have h1 : (⟨3320, ht⟩ : Fin cfg3.N).val % 3321 = 3320 := by show 3320 % 3321 = 3320; decide
  refine (congrFun (GenP.outsAt3_C V c ⟨3320, ht⟩ h0 h1) (ix2 n o)).trans ?_
  refine (out_C c _ _ _ _ _ _ _ _ _ _ _ _ _ _ _ _ _ (srcBlk V c ⟨3320, ht⟩) (dstBlk V c ⟨3320, ht⟩) (nrmBlk V c ⟨3320, ht⟩) (tabBlk V c ⟨3320, ht⟩) (biasBlk V c ⟨3320, ht⟩) _ n o).trans ?_
  rw [Finset.sum_range_succ _ 3320]
  refine congrArg₂ (· + ·) (congrArg₂ (· + ·) ?_ (contribAt_of_lt V c n.val o 3320 ht).symm) (biasBlk_apply V c ⟨3320, ht⟩ o)
  exact outsAt_eq V c n o 3319 (by show 3319 < 3321; omega) (by omega)

end Region

/-! ## The array after the run -/

section Final

variable (V : (c : Dev nD) → (b : Ref sig .tc) → Buf (Elt Ideal) ((c : Thread nD τ).loc b))

/-- The output window's one block is the whole array, at every point. -/
theorem idx3_5 : ∀ t : Fin cfg3.N, win3_5.index t 0 = 0 ∧ win3_5.index t 1 = 0 :=
  (by decide +kernel : ∀ t : Fin grid3.N, win3_5.index t 0 = 0 ∧ win3_5.index t 1 = 0)

/-- 3320 is the grid's last point. -/
theorem lastLt : 3320 < cfg3.N := by show 3320 < 3321; omega

/-- The window is written back once, after the last point, and its block is the whole array: whatever the last point
    leaves in the buffer (X) is what the array ends holding. -/
theorem arr_of_last (c : Dev nD) (X : Vec Ideal S51200x64 .f32) (hX : (GenP.dat3 V c).after 5 ⟨3320, lastLt⟩ = X) :
    (GenP.dat3 V c).arrAt 5 cfg3.N = (X : Buf (Elt Ideal) ((cfg3.win 5).arr.view.loc (c.tc : Thread nD τ))) := by
  refine (GenP.dat3 V c).arrAt_eq_of_cover 5 (X : Buf (Elt Ideal) ((cfg3.win 5).arr.view.loc (c.tc : Thread nD τ))) (fun t hf => ?_) (fun y => ?_)
  · have h3 : t.val = 3320 := by
      have h := (flush3_5 t).mp hf
      have hlt : t.val < 3321 := t.isLt
      omega
    obtain rfl : t = ⟨3320, lastLt⟩ := Fin.ext h3
    funext y
    rw [View.read_apply]
    show (GenP.dat3 V c).after 5 ⟨3320, lastLt⟩ y = X _
    rw [hX]
    refine congrArg X (funext fun a => Fin.ext ?_)
    match a with
    | ⟨0, _⟩ =>
      show (y 0).val = win3_5.index ⟨3320, lastLt⟩ 0 * 51200 + 1 * (y 0).val
      rw [(idx3_5 ⟨3320, lastLt⟩).1]; omega
    | ⟨1, _⟩ =>
      show (y 1).val = win3_5.index ⟨3320, lastLt⟩ 1 * 64 + 1 * (y 1).val
      rw [(idx3_5 ⟨3320, lastLt⟩).2]; omega
  · refine ⟨⟨3320, lastLt⟩, (flush3_5 _).mpr (by show 3320 % 3321 = 3320; decide), ?_⟩
    show y ∈ ((View.whole main_v47).slice (win3_5.rect ⟨3320, lastLt⟩)).set
    rw [View.set_slice_whole, Rect.mem_set_unit]
    intro a
    have h0 : (y 0 : Nat) < 51200 := (y 0).isLt
    have h1 : (y 1 : Nat) < 64 := (y 1).isLt
    match a with
    | ⟨0, _⟩ =>
      show win3_5.index ⟨3320, lastLt⟩ 0 * 51200 ≤ (y 0 : Nat) ∧ (y 0 : Nat) < win3_5.index ⟨3320, lastLt⟩ 0 * 51200 + 51200
      rw [(idx3_5 ⟨3320, lastLt⟩).1]; omega
    | ⟨1, _⟩ =>
      show win3_5.index ⟨3320, lastLt⟩ 1 * 64 ≤ (y 1 : Nat) ∧ (y 1 : Nat) < win3_5.index ⟨3320, lastLt⟩ 1 * 64 + 64
      rw [(idx3_5 ⟨3320, lastLt⟩).2]; omega

/-- So the array ends holding what the last point left. -/
theorem arr_eq (c : Dev nD) (y : S51200x64.Idx) :
    ((GenP.dat3 V c).arrAt 5 cfg3.N : S51200x64.Idx → EReal) y = (GenP.outsAt3 V c 3320 lastLt : Vec Ideal S51200x64 .f32) y :=
  congrFun (arr_of_last V c _ (GenP.after3_5 V c ⟨3320, lastLt⟩)) y

/-- The contribution of point t, for t a point of the grid. -/
theorem contribAt_fin (c : Dev nD) (n : ℕ) (o : Fin 64) (t : Fin 3321) :
    contribAt V c n o t.val = contrib (srcBlk V c t) (dstBlk V c t) (nrmBlk V c t) (tabBlk V c t) n o := dif_pos t.isLt

/-- THE REGION'S RESULT at (n, o): over the 3321 points t and their 256 lanes j, the lanes whose destination word is
    n's; for each, over the 64 chunks k and their 800 rows r, the lane's weight where the row's word is the lane's
    source word, times the table's entry (800·k + r, o); plus the bias of column o. -/
theorem agg3_apply (c : Dev nD) (n : Fin 51200) (o : Fin 64) :
    ((GenP.dat3 (F := Ideal) V c).arrAt 5 cfg3.N : S51200x64.Idx → EReal) (ix2 n o)
      = ((∑ t : Fin 3321, ∑ j : Fin 256,
            (if BitVec.ofNat 32 n.val = dstB V c t j then (1 : EReal) else 0)
              * ∑ k : Fin 64, ∑ r : Fin 800,
                  (if BitVec.ofNat 32 (800 * k.val + r.val) = srcB V c t j then nrmB V c t j else 0) * tabB V c k r o)
          + biasB V c o) := by
  refine (arr_eq V c (ix2 n o)).trans ?_
  refine (outsAt_last V c n o lastLt).trans ?_
  refine congrArg (· + biasB V c o) ?_
  rw [Finset.sum_range (fun t => contribAt V c n.val o t)]
  refine Finset.sum_congr rfl fun t _ => ?_
  rw [contribAt_fin V c n.val o t]
  unfold contrib aggTerm
  refine Finset.sum_congr rfl fun j _ => ?_
  rw [dstBlk_apply V c t j]
  refine congrArg _ ?_
  show ∑ k ∈ Finset.range 64, msgTerm (srcBlk V c t) (nrmBlk V c t) (tabBlk V c t) k j o = _
  rw [Finset.sum_range (fun k => msgTerm (srcBlk V c t) (nrmBlk V c t) (tabBlk V c t) k j o)]
  refine Finset.sum_congr rfl fun k _ => Finset.sum_congr rfl fun r _ => ?_
  rw [srcBlk_apply V c t j, nrmBlk_apply V c t j,
    tabN_of_lt _ _ o (by have := k.isLt; have := r.isLt; omega : 800 * k.val + r.val < 51200), tabBlk_apply V c t]
  rfl

end Final

end Cert.KernelIdeal.KAgg3

end
-- ==== Proof.KBound.lean ====
import proofs.«415787_j87273735454854_1_alg».proof.Proof.Gen.KernelIdeal.Launch
import proofs.«415787_j87273735454854_1_alg».proof.Proof.FrameKernelIdeal
import Idealize.ShloMosaic.Lib.ValueIdx
import Idealize.ShloMosaic.Lib.ValueLayout
import Idealize.ShloMosaic.Lib.Pipeline.Value
import Idealize.ShloMosaic.Lib.KernelVsHost

/-!
# The contents of the kernel program's buffers at the boundaries of its four kernels

The program computes, by host operations, the edge words (the given edges followed by one loop per node), their
weights, the padded forms of the three as one row of 850176 entries, the features padded to 51200 rows and the two
biases as one-row matrices; then it runs four kernels (feature product, aggregation, second product, second
aggregation) with a change of float format between them, and slices the first 50000 rows of the last result.
Here each kernel's operands are read back to the launch memory or to the previous kernel's result, at the exact
instance (a float is an extended real, a change of float format the identity).
-/

noncomputable section

namespace Cert.KernelIdeal.KBound

open Cert.KernelIdeal Cert.KernelIdeal.Gen
open Idealize.ShloMosaic Idealize.ShloMosaic.TcCoe Idealize.ShloMosaic.ValueIdx

section Host

variable (V : Valuation τ sig (Elt Ideal))

/-! ## Reading the padded edge arrays at an index

A length-850000 vector followed by 176 padding entries, viewed as one row of 850176 entries: position `e'` of the row
is entry `e'` of the vector when `e' < 850000` and a padding entry otherwise. -/

theorem padded_row_apply {α : Type} (x : S850000.Idx → α) (z : S176.Idx → α) (e' : Fin 850176) :
    shapeCast S1x850176 (concatenate S850176 0 [⟨S850000, x⟩, ⟨S176, z⟩] concatenates_S850000_S176_S850176_d0)
        shapeCasts_S850176_S1x850176 (ix2 0 e')
      = if h : e'.val < 850000 then x (ix1 ⟨e'.val, h⟩) else z (ix1 ⟨e'.val - 850000, by omega⟩) := by
  rw [shapeCast_apply _ _ (ix2 (0 : Fin 1) e') (ix1 e') (by
    rw [Shape.rowMajor_val_one, Shape.rowMajor_val_two]; show e'.val = 0 * 850176 + e'.val; omega)]
  split
  next h =>
    exact concatenate_pair_apply_left 0 x z _ (ix1 e') rfl (ix1 ⟨e'.val, h⟩)
      (fun b => match b with | ⟨0, _⟩ => rfl)
  next h =>
    exact concatenate_pair_apply_right 0 x z _ (ix1 e') rfl rfl (ix1 ⟨e'.val - 850000, by omega⟩)
      (fun b hb => match b with | ⟨0, _⟩ => absurd rfl hb)
      (by show e'.val - 850000 + 850000 = e'.val; omega)

/-! ## What a stretch of host operations leaves at a buffer it does not write -/

/-- Closes `StableHlo.after ops V (Proc.devRef .tc r) = V (Proc.devRef .tc r)` for a literal stretch `ops` none of
    whose operations writes the literal reference `r`. -/
macro "host_keep" : tactic => `(tactic| (
  refine StableHlo.after_of_forall_not_mem _ _ (List.forall_iff_forall_mem.mp ?_)
  simp only [hostOps0, hostOps0_1, hostOps0_2, hostOps0_3, hostOps0_4, hostOps1, hostOps3, hostOps4,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem keep4 (r : Ref sig .tc) (h : r ≠ main_v48) :
    StableHlo.after (hostOps4 (F := Ideal)) V (Proc.devRef .tc r) = V (Proc.devRef .tc r) :=
  StableHlo.after_of_forall_not_mem _ _ (List.forall_iff_forall_mem.mp (by
    simp only [hostOps4, List.Forall, StableHlo.unary_writes, Finset.mem_singleton]
    exact StableHlo.devRef_ne_of_ne h))

theorem keep3 (r : Ref sig .tc) (h : r ≠ main_v46) :
    StableHlo.after (hostOps3 (F := Ideal)) V (Proc.devRef .tc r) = V (Proc.devRef .tc r) :=
  StableHlo.after_of_forall_not_mem _ _ (List.forall_iff_forall_mem.mp (by
    simp only [hostOps3, List.Forall, StableHlo.unary_writes, Finset.mem_singleton]
    exact StableHlo.devRef_ne_of_ne h))

theorem keep1 (r : Ref sig .tc) (h : r ≠ main_v43) :
    StableHlo.after (hostOps1 (F := Ideal)) V (Proc.devRef .tc r) = V (Proc.devRef .tc r) :=
  StableHlo.after_of_forall_not_mem _ _ (List.forall_iff_forall_mem.mp (by
    simp only [hostOps1, List.Forall, StableHlo.unary_writes, Finset.mem_singleton]
    exact StableHlo.devRef_ne_of_ne h))

theorem keep04 (r : Ref sig .tc) (h₁ : r ≠ main_v40) (h₂ : r ≠ main_v41) :
    StableHlo.after (hostOps0_4 (F := Ideal)) V (Proc.devRef .tc r) = V (Proc.devRef .tc r) :=
  StableHlo.after_of_forall_not_mem _ _ (List.forall_iff_forall_mem.mp (by
    simp only [hostOps0_4, List.Forall, StableHlo.reshape_writes, Finset.mem_singleton]
    exact ⟨StableHlo.devRef_ne_of_ne h₁, StableHlo.devRef_ne_of_ne h₂⟩))

theorem keep03 (r : Ref sig .tc) (h₁ : r ≠ main_call1_v0) (h₂ : r ≠ main_v39) :
    StableHlo.after (hostOps0_3 (F := Ideal)) V (Proc.devRef .tc r) = V (Proc.devRef .tc r) :=
  StableHlo.after_of_forall_not_mem _ _ (List.forall_iff_forall_mem.mp (by
    simp only [hostOps0_3, List.Forall, StableHlo.unary_writes, StableHlo.binary_writes, Finset.mem_singleton]
    exact ⟨StableHlo.devRef_ne_of_ne h₁, StableHlo.devRef_ne_of_ne h₂⟩))

theorem keep01 (r : Ref sig .tc) (h₁ : r ≠ main_call0_v0) (h₂ : r ≠ main_call0_v1) (h₃ : r ≠ main_v14) :
    StableHlo.after (hostOps0_1 (F := Ideal)) V (Proc.devRef .tc r) = V (Proc.devRef .tc r) :=
  StableHlo.after_of_forall_not_mem _ _ (List.forall_iff_forall_mem.mp (by
    simp only [hostOps0_1, List.Forall, StableHlo.unary_writes, StableHlo.ternary_writes, Finset.mem_singleton]
    exact ⟨StableHlo.devRef_ne_of_ne h₁, StableHlo.devRef_ne_of_ne h₂, StableHlo.devRef_ne_of_ne h₃⟩))

theorem keep02_v3 : StableHlo.after (hostOps0_2 (F := Ideal)) V (Proc.devRef .tc main_v3) = V (Proc.devRef .tc main_v3) := by host_keep
theorem keep02_v6 : StableHlo.after (hostOps0_2 (F := Ideal)) V (Proc.devRef .tc main_v6) = V (Proc.devRef .tc main_v6) := by host_keep
theorem keep02_arg0 : StableHlo.after (hostOps0_2 (F := Ideal)) V (Proc.devRef .tc main_arg0) = V (Proc.devRef .tc main_arg0) := by host_keep
theorem keep02_arg2 : StableHlo.after (hostOps0_2 (F := Ideal)) V (Proc.devRef .tc main_arg2) = V (Proc.devRef .tc main_arg2) := by host_keep
theorem keep02_arg3 : StableHlo.after (hostOps0_2 (F := Ideal)) V (Proc.devRef .tc main_arg3) = V (Proc.devRef .tc main_arg3) := by host_keep
theorem keep02_arg4 : StableHlo.after (hostOps0_2 (F := Ideal)) V (Proc.devRef .tc main_arg4) = V (Proc.devRef .tc main_arg4) := by host_keep
theorem keep02_arg5 : StableHlo.after (hostOps0_2 (F := Ideal)) V (Proc.devRef .tc main_arg5) = V (Proc.devRef .tc main_arg5) := by host_keep
theorem keep0_arg0 : StableHlo.after (hostOps0 (F := Ideal)) V (Proc.devRef .tc main_arg0) = V (Proc.devRef .tc main_arg0) := by host_keep
theorem keep0_arg2 : StableHlo.after (hostOps0 (F := Ideal)) V (Proc.devRef .tc main_arg2) = V (Proc.devRef .tc main_arg2) := by host_keep
theorem keep0_arg3 : StableHlo.after (hostOps0 (F := Ideal)) V (Proc.devRef .tc main_arg3) = V (Proc.devRef .tc main_arg3) := by host_keep
theorem keep0_arg4 : StableHlo.after (hostOps0 (F := Ideal)) V (Proc.devRef .tc main_arg4) = V (Proc.devRef .tc main_arg4) := by host_keep
theorem keep0_arg5 : StableHlo.after (hostOps0 (F := Ideal)) V (Proc.devRef .tc main_arg5) = V (Proc.devRef .tc main_arg5) := by host_keep

/-! ## What the host operations before and between the kernels compute -/

theorem host4_v48 :
    (StableHlo.after (hostOps4 (F := Ideal)) V (Proc.devRef .tc main_v48) : S50000x64.Idx → EReal)
      = extractStridedSlice S50000x64 ![0, 0] (V (Proc.devRef .tc main_v47) : S51200x64.Idx → EReal) slices_S51200x64_S50000x64_0_0 := by
  after_results

theorem host3_v46 :
    (StableHlo.after (hostOps3 (F := Ideal)) V (Proc.devRef .tc main_v46) : S51200x64.Idx → EReal)
      = (V (Proc.devRef .tc main_v45) : S51200x64.Idx → EReal) := by
  after_results
  rfl

theorem host1_v43 :
    (StableHlo.after (hostOps1 (F := Ideal)) V (Proc.devRef .tc main_v43) : S51200x128.Idx → EReal)
      = (V (Proc.devRef .tc main_v42) : S51200x128.Idx → EReal) := by
  after_results
  rfl

set_option maxHeartbeats 1000000 in
theorem host02_v36 :
    (StableHlo.after (hostOps0_2 (F := Ideal)) V (Proc.devRef .tc main_v36) : S1x850176.Idx → BitVec 32)
      = shapeCast S1x850176 (concatenate S850176 0 [⟨S850000, (V (Proc.devRef .tc main_v3) : S850000.Idx → BitVec 32)⟩,
          ⟨S176, broadcastInDim S176 ![] bcast_S_S176 (constantI S_ 32 0#32)⟩] concatenates_S850000_S176_S850176_d0)
          shapeCasts_S850176_S1x850176 := by
  after_results_simp
  rfl

set_option maxHeartbeats 1000000 in
theorem host02_v37 :
    (StableHlo.after (hostOps0_2 (F := Ideal)) V (Proc.devRef .tc main_v37) : S1x850176.Idx → BitVec 32)
      = shapeCast S1x850176 (concatenate S850176 0 [⟨S850000, (V (Proc.devRef .tc main_v6) : S850000.Idx → BitVec 32)⟩,
          ⟨S176, broadcastInDim S176 ![] bcast_S_S176 (constantI S_ 32 0#32)⟩] concatenates_S850000_S176_S850176_d0)
          shapeCasts_S850176_S1x850176 := by
  after_results_simp
  rfl

set_option maxHeartbeats 1000000 in
/-- The padded weights are the weights this same stretch computes, followed by float zeros. -/
theorem host02_v38 :
    (StableHlo.after (hostOps0_2 (F := Ideal)) V (Proc.devRef .tc main_v38) : S1x850176.Idx → EReal)
      = shapeCast S1x850176 (concatenate S850176 0 [⟨S850000, (StableHlo.after (hostOps0_2 (F := Ideal)) V (Proc.devRef .tc main_v29) : S850000.Idx → EReal)⟩,
          ⟨S176, broadcastInDim S176 ![] bcast_S_S176 (constant (F := Ideal) S_ .f32 0x00000000#32)⟩] concatenates_S850000_S176_S850176_d0)
          shapeCasts_S850176_S1x850176 := by
  after_results_simp
  rfl

/-- The rows past the 50000th of the padded features are filled with the converted integer zero. -/
theorem host03_v39 :
    (StableHlo.after (hostOps0_3 (F := Ideal)) V (Proc.devRef .tc main_v39) : S51200x128.Idx → EReal)
      = pad S51200x128 ![0, 0] ![1200, 0] ![0, 0] (V (Proc.devRef .tc main_arg0) : S50000x128.Idx → EReal)
          (sitofp (F := Ideal) .f32 (V (Proc.devRef .tc main_c_9) : S_.Idx → BitVec 32))
          pads_S50000x128_S51200x128_012000_000 h_S_ := by
  after_results_simp
  rfl

set_option maxHeartbeats 1000000 in
theorem host02_c9 :
    (StableHlo.after (hostOps0_2 (F := Ideal)) V (Proc.devRef .tc main_c_9) : S_.Idx → BitVec 32) = constantI S_ 32 0#32 := by
  after_results_simp

theorem host04_v40 :
    (StableHlo.after (hostOps0_4 (F := Ideal)) V (Proc.devRef .tc main_v40) : S1x128.Idx → EReal)
      = fun i => shapeCast S1x128 (V (Proc.devRef .tc main_arg3) : S128.Idx → EReal) shapeCasts_S128_S1x128 i := by
  after_results_simp
  rfl

theorem host04_v41 :
    (StableHlo.after (hostOps0_4 (F := Ideal)) V (Proc.devRef .tc main_v41) : S1x64.Idx → EReal)
      = fun i => shapeCast S1x64 (V (Proc.devRef .tc main_arg5) : S64.Idx → EReal) shapeCasts_S64_S1x64 i := by
  after_results_simp
  rfl

/-- A padded array of 51200 rows read at row `n`: the given row when `n < 50000`, the padding value otherwise. -/
theorem pad_rows_apply (x : S50000x128.Idx → EReal) (v : S_.Idx → EReal) (n : Fin 51200) (k : Fin 128) :
    pad S51200x128 ![0, 0] ![1200, 0] ![0, 0] x v pads_S50000x128_S51200x128_012000_000 h_S_ (ix2 n k)
      = if h : n.val < 50000 then x (ix2 ⟨n.val, h⟩ k) else v (Shape.Idx.first h_S_) := by
  split
  next h =>
    exact pad_apply_of_inside _ _ _ x v _ h_S_ (ix2 n k) (ix2 ⟨n.val, h⟩ k) (fun a => match a with
      | ⟨0, _⟩ => by show n.val = 0 + n.val * (0 + 1); omega
      | ⟨1, _⟩ => by show k.val = 0 + k.val * (0 + 1); omega)
  next h =>
    exact pad_apply_of_not_inside _ _ _ x v _ h_S_ (ix2 n k) (0 : Fin 2) (by
      show ¬(0 ≤ n.val ∧ (n.val - 0) % (0 + 1) = 0 ∧ (n.val - 0) / (0 + 1) < 50000); omega)

/-- A vector viewed as a one-row matrix, read at column `o`. -/
theorem row128_apply (x : S128.Idx → EReal) (o : Fin 128) :
    shapeCast S1x128 x shapeCasts_S128_S1x128 (ix2 0 o) = x (ix1 o) :=
  shapeCast_apply _ _ (ix2 (0 : Fin 1) o) (ix1 o) (by
    rw [Shape.rowMajor_val_one, Shape.rowMajor_val_two]; show o.val = 0 * 128 + o.val; omega)

theorem row64_apply (x : S64.Idx → EReal) (o : Fin 64) :
    shapeCast S1x64 x shapeCasts_S64_S1x64 (ix2 0 o) = x (ix1 o) :=
  shapeCast_apply _ _ (ix2 (0 : Fin 1) o) (ix1 o) (by
    rw [Shape.rowMajor_val_one, Shape.rowMajor_val_two]; show o.val = 0 * 64 + o.val; omega)

end Host

/-! ## The run's boundaries

Every buffer a kernel reads is walked back through the run's fold: a stretch of host operations that does not write it
and a kernel whose arrays do not include it leave it as it was; the stretch or kernel that writes it gives its contents. -/

section Run

variable (m : (ℓ : Loc nD τ sig) → Buf (Elt Ideal) ℓ) (ρ : Dev nD → PrngReg) (c : Dev nD)

/-- The converted integer zero the padding rows are filled with is the real zero. -/
theorem pad_value (i : S_.Idx) : (sitofp (F := Ideal) .f32 (constantI S_ 32 0#32)) i = (0 : EReal) :=
  sitofp_zero

/-! ### The arguments, as the host operations before the first kernel find them -/

theorem W3_arg0 : GenP.W3 m ρ c (Proc.devRef .tc main_arg0) = m ((c : Thread nD τ).loc main_arg0) :=
  (keep02_arg0 (GenP.W2 m ρ c)).trans <| (keep01 (GenP.W1 m ρ c) main_arg0 (by decide) (by decide) (by decide)).trans <|
    (keep0_arg0 (GenP.W0 m ρ c)).trans rfl
theorem W4_arg2 : GenP.W4 m ρ c (Proc.devRef .tc main_arg2) = m ((c : Thread nD τ).loc main_arg2) :=
  (keep03 (GenP.W3 m ρ c) main_arg2 (by decide) (by decide)).trans <| (keep02_arg2 (GenP.W2 m ρ c)).trans <|
    (keep01 (GenP.W1 m ρ c) main_arg2 (by decide) (by decide) (by decide)).trans <| (keep0_arg2 (GenP.W0 m ρ c)).trans rfl
theorem W4_arg3 : GenP.W4 m ρ c (Proc.devRef .tc main_arg3) = m ((c : Thread nD τ).loc main_arg3) :=
  (keep03 (GenP.W3 m ρ c) main_arg3 (by decide) (by decide)).trans <| (keep02_arg3 (GenP.W2 m ρ c)).trans <|
    (keep01 (GenP.W1 m ρ c) main_arg3 (by decide) (by decide) (by decide)).trans <| (keep0_arg3 (GenP.W0 m ρ c)).trans rfl
theorem W4_arg4 : GenP.W4 m ρ c (Proc.devRef .tc main_arg4) = m ((c : Thread nD τ).loc main_arg4) :=
  (keep03 (GenP.W3 m ρ c) main_arg4 (by decide) (by decide)).trans <| (keep02_arg4 (GenP.W2 m ρ c)).trans <|
    (keep01 (GenP.W1 m ρ c) main_arg4 (by decide) (by decide) (by decide)).trans <| (keep0_arg4 (GenP.W0 m ρ c)).trans rfl
theorem W4_arg5 : GenP.W4 m ρ c (Proc.devRef .tc main_arg5) = m ((c : Thread nD τ).loc main_arg5) :=
  (keep03 (GenP.W3 m ρ c) main_arg5 (by decide) (by decide)).trans <| (keep02_arg5 (GenP.W2 m ρ c)).trans <|
    (keep01 (GenP.W1 m ρ c) main_arg5 (by decide) (by decide) (by decide)).trans <| (keep0_arg5 (GenP.W0 m ρ c)).trans rfl

/-! ### The kernel's own edge words and weights -/

/-- The source word of edge position `e` (the given edges, then one loop per node). -/
def srcK (e : Fin 850000) : BitVec 32 := (GenP.V5 m ρ c main_v3 : S850000.Idx → BitVec 32) (ix1 e)
/-- The destination word of edge position `e`. -/
def dstK (e : Fin 850000) : BitVec 32 := (GenP.V5 m ρ c main_v6 : S850000.Idx → BitVec 32) (ix1 e)
/-- The weight of edge position `e`. -/
def nrmK (e : Fin 850000) : EReal := (GenP.V5 m ρ c main_v29 : S850000.Idx → EReal) (ix1 e)

/-! ### The first kernel's operands (the feature product) -/

theorem xpad_apply (n : Fin 51200) (k : Fin 128) :
    (GenP.V5 m ρ c (Pipeline.arrRef spec0 0) : S51200x128.Idx → EReal) (ix2 n k)
      = if h : n.val < 50000 then (m ((c : Thread nD τ).loc main_arg0) : S50000x128.Idx → EReal) (ix2 ⟨n.val, h⟩ k) else (0 : EReal) := by
  have e : (GenP.V5 m ρ c (Pipeline.arrRef spec0 0) : S51200x128.Idx → EReal)
      = pad S51200x128 ![0, 0] ![1200, 0] ![0, 0] (GenP.W3 m ρ c (Proc.devRef .tc main_arg0) : S50000x128.Idx → EReal)
          (sitofp (F := Ideal) .f32 (GenP.W3 m ρ c (Proc.devRef .tc main_c_9) : S_.Idx → BitVec 32))
          pads_S50000x128_S51200x128_012000_000 h_S_ :=
    (keep04 (GenP.W4 m ρ c) main_v39 (by decide) (by decide)).trans (host03_v39 (GenP.W3 m ρ c))
  have e₉ : (GenP.W3 m ρ c (Proc.devRef .tc main_c_9) : S_.Idx → BitVec 32) = constantI S_ 32 0#32 :=
    host02_c9 (GenP.W2 m ρ c)
  rw [e, pad_rows_apply, W3_arg0 m ρ c, e₉]
  split
  next h => rfl
  next h => exact pad_value _

theorem w1_eq : GenP.V5 m ρ c (Pipeline.arrRef spec0 1) = m ((c : Thread nD τ).loc main_arg2) :=
  (keep04 (GenP.W4 m ρ c) main_arg2 (by decide) (by decide)).trans (W4_arg2 m ρ c)

/-! ### The second kernel's operands (the first aggregation) -/

theorem src2_apply (e' : Fin 850176) :
    (GenP.V7 m ρ c (Pipeline.arrRef spec1 0) : S1x850176.Idx → BitVec 32) (ix2 0 e')
      = if h : e'.val < 850000 then srcK m ρ c ⟨e'.val, h⟩ else 0#32 := by
  have e₁ : (GenP.V7 m ρ c (Pipeline.arrRef spec1 0) : S1x850176.Idx → BitVec 32) = _ :=
    (keep1 (GenP.W6 m ρ c) main_v36 (by decide)).trans <| (GenP.W6_of_ne m ρ c main_v36 (by decide)).trans <|
      (keep04 (GenP.W4 m ρ c) main_v36 (by decide) (by decide)).trans <|
      (keep03 (GenP.W3 m ρ c) main_v36 (by decide) (by decide)).trans (host02_v36 (GenP.W2 m ρ c))
  have e₂ : (GenP.V5 m ρ c main_v3 : S850000.Idx → BitVec 32) = GenP.W2 m ρ c (Proc.devRef .tc main_v3) :=
    (keep04 (GenP.W4 m ρ c) main_v3 (by decide) (by decide)).trans <|
      (keep03 (GenP.W3 m ρ c) main_v3 (by decide) (by decide)).trans (keep02_v3 (GenP.W2 m ρ c))
  refine (congrFun e₁ _).trans ((padded_row_apply _ _ e').trans ?_)
  unfold srcK; rw [e₂]
  split
  next h => rfl
  next h => rfl

theorem dst2_apply (e' : Fin 850176) :
    (GenP.V7 m ρ c (Pipeline.arrRef spec1 1) : S1x850176.Idx → BitVec 32) (ix2 0 e')
      = if h : e'.val < 850000 then dstK m ρ c ⟨e'.val, h⟩ else 0#32 := by
  have e₁ : (GenP.V7 m ρ c (Pipeline.arrRef spec1 1) : S1x850176.Idx → BitVec 32) = _ :=
    (keep1 (GenP.W6 m ρ c) main_v37 (by decide)).trans <| (GenP.W6_of_ne m ρ c main_v37 (by decide)).trans <|
      (keep04 (GenP.W4 m ρ c) main_v37 (by decide) (by decide)).trans <|
      (keep03 (GenP.W3 m ρ c) main_v37 (by decide) (by decide)).trans (host02_v37 (GenP.W2 m ρ c))
  have e₂ : (GenP.V5 m ρ c main_v6 : S850000.Idx → BitVec 32) = GenP.W2 m ρ c (Proc.devRef .tc main_v6) :=
    (keep04 (GenP.W4 m ρ c) main_v6 (by decide) (by decide)).trans <|
      (keep03 (GenP.W3 m ρ c) main_v6 (by decide) (by decide)).trans (keep02_v6 (GenP.W2 m ρ c))
  refine (congrFun e₁ _).trans ((padded_row_apply _ _ e').trans ?_)
  unfold dstK; rw [e₂]
  split
  next h => rfl
  next h => rfl

theorem nrm2_apply (e' : Fin 850176) :
    (GenP.V7 m ρ c (Pipeline.arrRef spec1 2) : S1x850176.Idx → EReal) (ix2 0 e')
      = if h : e'.val < 850000 then nrmK m ρ c ⟨e'.val, h⟩ else (0 : EReal) := by
  have e₁ : (GenP.V7 m ρ c (Pipeline.arrRef spec1 2) : S1x850176.Idx → EReal) = _ :=
    (keep1 (GenP.W6 m ρ c) main_v38 (by decide)).trans <| (GenP.W6_of_ne m ρ c main_v38 (by decide)).trans <|
      (keep04 (GenP.W4 m ρ c) main_v38 (by decide) (by decide)).trans <|
      (keep03 (GenP.W3 m ρ c) main_v38 (by decide) (by decide)).trans (host02_v38 (GenP.W2 m ρ c))
  have e₂ : (GenP.V5 m ρ c main_v29 : S850000.Idx → EReal) = GenP.W3 m ρ c (Proc.devRef .tc main_v29) :=
    (keep04 (GenP.W4 m ρ c) main_v29 (by decide) (by decide)).trans
      (keep03 (GenP.W3 m ρ c) main_v29 (by decide) (by decide))
  refine (congrFun e₁ _).trans ((padded_row_apply _ _ e').trans ?_)
  unfold nrmK; rw [e₂]
  split
  next h => rfl
  next h => exact Ideal.ofBits_zero_f32

/-- The table of the first aggregation is the feature product as the first kernel leaves it (the change of float
    format between them is the identity on extended reals). -/
theorem tab1_eq :
    (GenP.V7 m ρ c (Pipeline.arrRef spec1 3) : S51200x128.Idx → EReal)
      = ((GenP.dat0 (F := Ideal) (GenP.V5 m ρ) c).arrAt 2 cfg0.N : S51200x128.Idx → EReal) :=
  (host1_v43 (GenP.W6 m ρ c)).trans (GenP.W6_arr m ρ c 2)

theorem tab1_apply (n : Fin 51200) (o : Fin 128) :
    (GenP.V7 m ρ c (Pipeline.arrRef spec1 3) : S51200x128.Idx → EReal) (ix2 n o)
      = ((GenP.dat0 (F := Ideal) (GenP.V5 m ρ) c).arrAt 2 cfg0.N : S51200x128.Idx → EReal) (ix2 n o) :=
  congrFun (tab1_eq m ρ c) _

theorem bias1_apply (o : Fin 128) :
    (GenP.V7 m ρ c (Pipeline.arrRef spec1 4) : S1x128.Idx → EReal) (ix2 0 o)
      = (m ((c : Thread nD τ).loc main_arg3) : S128.Idx → EReal) (ix1 o) := by
  have e : (GenP.V7 m ρ c (Pipeline.arrRef spec1 4) : S1x128.Idx → EReal) = _ :=
    (keep1 (GenP.W6 m ρ c) main_v40 (by decide)).trans <| (GenP.W6_of_ne m ρ c main_v40 (by decide)).trans
      (host04_v40 (GenP.W4 m ρ c))
  refine (congrFun e _).trans ((row128_apply _ o).trans ?_)
  rw [W4_arg3 m ρ c]

/-! ### The third kernel's operands (the second product) -/

theorem in2_eq :
    GenP.V8 m ρ c (Pipeline.arrRef spec2 0) = (GenP.dat1 (F := Ideal) (GenP.V7 m ρ) c).arrAt 5 cfg1.N :=
  GenP.W8_arr m ρ c 5

theorem w2_eq : GenP.V8 m ρ c (Pipeline.arrRef spec2 1) = m ((c : Thread nD τ).loc main_arg4) :=
  (GenP.W8_of_ne m ρ c main_arg4 (by decide)).trans <| (keep1 (GenP.W6 m ρ c) main_arg4 (by decide)).trans <|
    (GenP.W6_of_ne m ρ c main_arg4 (by decide)).trans <|
    (keep04 (GenP.W4 m ρ c) main_arg4 (by decide) (by decide)).trans (W4_arg4 m ρ c)

/-! ### The fourth kernel's operands (the second aggregation) -/

theorem src3_eq : GenP.V10 m ρ c (Pipeline.arrRef spec3 0) = GenP.V7 m ρ c (Pipeline.arrRef spec1 0) :=
  (keep3 (GenP.W9 m ρ c) main_v36 (by decide)).trans <| (GenP.W9_of_ne m ρ c main_v36 (by decide)).trans <|
    (GenP.W8_arr m ρ c 0).trans <| ((GenP.dat1 (GenP.V7 m ρ) c).arrAt_in 0 rfl _).trans (GenP.A_eq1 (GenP.V7 m ρ) c 0)

theorem dst3_eq : GenP.V10 m ρ c (Pipeline.arrRef spec3 1) = GenP.V7 m ρ c (Pipeline.arrRef spec1 1) :=
  (keep3 (GenP.W9 m ρ c) main_v37 (by decide)).trans <| (GenP.W9_of_ne m ρ c main_v37 (by decide)).trans <|
    (GenP.W8_arr m ρ c 1).trans <| ((GenP.dat1 (GenP.V7 m ρ) c).arrAt_in 1 rfl _).trans (GenP.A_eq1 (GenP.V7 m ρ) c 1)

theorem nrm3_eq : GenP.V10 m ρ c (Pipeline.arrRef spec3 2) = GenP.V7 m ρ c (Pipeline.arrRef spec1 2) :=
  (keep3 (GenP.W9 m ρ c) main_v38 (by decide)).trans <| (GenP.W9_of_ne m ρ c main_v38 (by decide)).trans <|
    (GenP.W8_arr m ρ c 2).trans <| ((GenP.dat1 (GenP.V7 m ρ) c).arrAt_in 2 rfl _).trans (GenP.A_eq1 (GenP.V7 m ρ) c 2)

/-- The table of the second aggregation is the second product as the third kernel leaves it. -/
theorem tab3_eq :
    (GenP.V10 m ρ c (Pipeline.arrRef spec3 3) : S51200x64.Idx → EReal)
      = ((GenP.dat2 (F := Ideal) (GenP.V8 m ρ) c).arrAt 2 cfg2.N : S51200x64.Idx → EReal) :=
  (host3_v46 (GenP.W9 m ρ c)).trans (GenP.W9_arr m ρ c 2)

theorem tab3_apply (n : Fin 51200) (o : Fin 64) :
    (GenP.V10 m ρ c (Pipeline.arrRef spec3 3) : S51200x64.Idx → EReal) (ix2 n o)
      = ((GenP.dat2 (F := Ideal) (GenP.V8 m ρ) c).arrAt 2 cfg2.N : S51200x64.Idx → EReal) (ix2 n o) :=
  congrFun (tab3_eq m ρ c) _

theorem bias3_apply (o : Fin 64) :
    (GenP.V10 m ρ c (Pipeline.arrRef spec3 4) : S1x64.Idx → EReal) (ix2 0 o)
      = (m ((c : Thread nD τ).loc main_arg5) : S64.Idx → EReal) (ix1 o) := by
  have e : (GenP.V10 m ρ c (Pipeline.arrRef spec3 4) : S1x64.Idx → EReal) = _ :=
    (keep3 (GenP.W9 m ρ c) main_v41 (by decide)).trans <| (GenP.W9_of_ne m ρ c main_v41 (by decide)).trans <|
      (GenP.W8_of_ne m ρ c main_v41 (by decide)).trans <| (keep1 (GenP.W6 m ρ c) main_v41 (by decide)).trans <|
      (GenP.W6_of_ne m ρ c main_v41 (by decide)).trans (host04_v41 (GenP.W4 m ρ c))
  refine (congrFun e _).trans ((row64_apply _ o).trans ?_)
  rw [W4_arg5 m ρ c]

/-! ### The result -/

theorem result_apply (n : Fin 50000) (o : Fin 64) :
    (GenP.W12 m ρ c (Proc.devRef .tc main_v48) : S50000x64.Idx → EReal) (ix2 n o)
      = ((GenP.dat3 (F := Ideal) (GenP.V10 m ρ) c).arrAt 5 cfg3.N : S51200x64.Idx → EReal) (ix2 ⟨n.val, by omega⟩ o) := by
  have e : (GenP.W12 m ρ c (Proc.devRef .tc main_v48) : S50000x64.Idx → EReal) = _ := host4_v48 (GenP.W11 m ρ c)
  have e₂ : (GenP.W11 m ρ c (Proc.devRef .tc main_v47) : S51200x64.Idx → EReal)
      = ((GenP.dat3 (F := Ideal) (GenP.V10 m ρ) c).arrAt 5 cfg3.N : S51200x64.Idx → EReal) := GenP.W11_arr m ρ c 5
  refine (congrFun e _).trans ?_
  rw [e₂]
  exact slice2_axis0_apply 0 _ _ n o ⟨n.val, by omega⟩ (Nat.zero_add _).symm

end Run

end Cert.KernelIdeal.KBound
end
-- ==== Proof.KValue.lean ====
/-
  The kernel's result, entry by entry, is the two-layer graph convolution of Spec.lean.

  The result is the first 50000 rows of the second aggregation's output.  An aggregation's output at (n, o) is the sum,
  over the 3321 blocks of 256 padded edge positions, of a one-hot on the destination word times the edge's message, the
  message being the sum over the 64 chunks of 800 table rows of a selector on the source word times the table row; plus
  the bias (and, in the first layer, a clamp at zero).  The table of the first aggregation is x · W1 on the padded rows,
  that of the second is (first output) · W2.  With every source word in the node range the one-hot sums collapse to the
  reference's sum over the edges that end at n (SpecAlgebra.lean); rows of a table past the node range are never selected.
-/
import proofs.«415787_j87273735454854_1_alg».proof.Proof.Spec
import proofs.«415787_j87273735454854_1_alg».proof.Proof.SpecAlgebra
import proofs.«415787_j87273735454854_1_alg».proof.Proof.KMat
import proofs.«415787_j87273735454854_1_alg».proof.Proof.KAgg1
import proofs.«415787_j87273735454854_1_alg».proof.Proof.KAgg3
import proofs.«415787_j87273735454854_1_alg».proof.Proof.KBound

noncomputable section

namespace Cert.KernelIdeal.KValue

open Cert.KernelIdeal Cert.KernelIdeal.Gen Cert.KernelIdeal.GenP
open Idealize.ShloMosaic Idealize.ShloMosaic.ValueIdx Idealize.SL.Sem
open scoped BigOperators

variable (m : (ℓ : Loc nD τ sig) → Buf (Elt Ideal) ℓ) (ρ : Dev nD → PrngReg) (c : Dev nD)

/-- The argument arrays as plain functions of their coordinates. -/
def xF (n : Fin 50000) (k : Fin 128) : EReal := (m ((c.tc : Thread nD τ).loc main_arg0)) (ix2 n k)
def w1F (k : Fin 128) (o : Fin 128) : EReal := (m ((c.tc : Thread nD τ).loc main_arg2)) (ix2 k o)
def b1F (o : Fin 128) : EReal := (m ((c.tc : Thread nD τ).loc main_arg3)) (ix1 o)
def w2F (k : Fin 128) (o : Fin 64) : EReal := (m ((c.tc : Thread nD τ).loc main_arg4)) (ix2 k o)
def b2F (o : Fin 64) : EReal := (m ((c.tc : Thread nD τ).loc main_arg5)) (ix1 o)

/-! ## The padded edge lanes the two aggregations read

Lane j of block t is edge position 256 · t + j: a real position carries the kernel's own words and weight, a padded
one carries weight 0. -/

theorem src1_lane (t : Fin 3321) (j : Fin 256) (h : 256 * t.val + j.val < 850000) :
    KAgg1.srcB (GenP.V7 m ρ) c t j = KBound.srcK m ρ c ⟨256 * t.val + j.val, h⟩ :=
  (KBound.src2_apply m ρ c ⟨256 * t.val + j.val, by omega⟩).trans (dif_pos h)

theorem dst1_lane (t : Fin 3321) (j : Fin 256) (h : 256 * t.val + j.val < 850000) :
    KAgg1.dstB (GenP.V7 m ρ) c t j = KBound.dstK m ρ c ⟨256 * t.val + j.val, h⟩ :=
  (KBound.dst2_apply m ρ c ⟨256 * t.val + j.val, by omega⟩).trans (dif_pos h)

theorem nrm1_lane (t : Fin 3321) (j : Fin 256) (h : 256 * t.val + j.val < 850000) :
    KAgg1.nrmB (GenP.V7 m ρ) c t j = KBound.nrmK m ρ c ⟨256 * t.val + j.val, h⟩ :=
  (KBound.nrm2_apply m ρ c ⟨256 * t.val + j.val, by omega⟩).trans (dif_pos h)

theorem nrm1_pad (t : Fin 3321) (j : Fin 256) (h : 850000 ≤ 256 * t.val + j.val) :
    KAgg1.nrmB (GenP.V7 m ρ) c t j = 0 :=
  (KBound.nrm2_apply m ρ c ⟨256 * t.val + j.val, by omega⟩).trans (dif_neg (Nat.not_lt.mpr h))

theorem bias1_col (o : Fin 128) : KAgg1.biasB (GenP.V7 m ρ) c o = b1F m c o :=
  KBound.bias1_apply m ρ c o

/-- The second aggregation reads the same three padded edge arrays as the first. -/
theorem src3_lane (t : Fin 3321) (j : Fin 256) (h : 256 * t.val + j.val < 850000) :
    KAgg3.srcB (GenP.V10 m ρ) c t j = KBound.srcK m ρ c ⟨256 * t.val + j.val, h⟩ := by
  unfold KAgg3.srcB
  rw [KBound.src3_eq m ρ c]
  exact (KBound.src2_apply m ρ c ⟨256 * t.val + j.val, by omega⟩).trans (dif_pos h)

theorem dst3_lane (t : Fin 3321) (j : Fin 256) (h : 256 * t.val + j.val < 850000) :
    KAgg3.dstB (GenP.V10 m ρ) c t j = KBound.dstK m ρ c ⟨256 * t.val + j.val, h⟩ := by
  unfold KAgg3.dstB
  rw [KBound.dst3_eq m ρ c]
  exact (KBound.dst2_apply m ρ c ⟨256 * t.val + j.val, by omega⟩).trans (dif_pos h)

theorem nrm3_lane (t : Fin 3321) (j : Fin 256) (h : 256 * t.val + j.val < 850000) :
    KAgg3.nrmB (GenP.V10 m ρ) c t j = KBound.nrmK m ρ c ⟨256 * t.val + j.val, h⟩ := by
  unfold KAgg3.nrmB
  rw [KBound.nrm3_eq m ρ c]
  exact (KBound.nrm2_apply m ρ c ⟨256 * t.val + j.val, by omega⟩).trans (dif_pos h)

theorem nrm3_pad (t : Fin 3321) (j : Fin 256) (h : 850000 ≤ 256 * t.val + j.val) :
    KAgg3.nrmB (GenP.V10 m ρ) c t j = 0 := by
  unfold KAgg3.nrmB
  rw [KBound.nrm3_eq m ρ c]
  exact (KBound.nrm2_apply m ρ c ⟨256 * t.val + j.val, by omega⟩).trans (dif_neg (Nat.not_lt.mpr h))

theorem bias3_col (o : Fin 64) : KAgg3.biasB (GenP.V10 m ρ) c o = b2F m c o :=
  KBound.bias3_apply m ρ c o

/-! ## The first layer -/

/-- Row 800 · k + r of the first aggregation's table, where that is a node, is that node's row of x · W1: the padded
    features' row is the node's own, and the product is the contraction over the 128 features. -/
theorem tab1_row (k : Fin 64) (r : Fin 800) (hn : 800 * k.val + r.val < 50000) (o : Fin 128) :
    KAgg1.tabB (GenP.V7 m ρ) c k r o = Cert.Spec.lin (xF m c) (w1F m c) ⟨800 * k.val + r.val, hn⟩ o := by
  refine (KBound.tab1_apply m ρ c ⟨800 * k.val + r.val, by omega⟩ o).trans ?_
  refine (KMat.mat0_apply (GenP.V5 m ρ) c ⟨800 * k.val + r.val, by omega⟩ o).trans ?_
  unfold Cert.Spec.lin
  refine Finset.sum_congr rfl fun k' _ => ?_
  exact congrArg₂ (· * ·) ((KBound.xpad_apply m ρ c ⟨800 * k.val + r.val, by omega⟩ k').trans (dif_pos hn))
    (congrFun (KBound.w1_eq m ρ c) (ix2 k' o))

section Layers

variable (hsrc : ∀ e : Fin 850000, 0 ≤ (KBound.srcK m ρ c e).toInt ∧ (KBound.srcK m ρ c e).toInt < 50000)
include hsrc

/-- The first aggregation's output at a node's row is the hidden layer there: the blocked sum plus the bias is the
    propagation of x · W1, and the kernel's clamp is the hidden layer's. -/
theorem hidden_row (n : Fin 50000) (k' : Fin 128) :
    ((GenP.dat1 (F := Ideal) (GenP.V7 m ρ) c).arrAt 5 cfg1.N : S51200x128.Idx → EReal) (ix2 ⟨n.val, by omega⟩ k')
      = Cert.Spec.hidden (KBound.srcK m ρ c) (KBound.dstK m ρ c) (KBound.nrmK m ρ c) (xF m c) (w1F m c) (b1F m c) n k' := by
  refine (KAgg1.agg1_apply (GenP.V7 m ρ) c ⟨n.val, by omega⟩ k').trans ?_
  unfold Cert.Spec.hidden
  refine congrArg (fun z : EReal => max z 0) ?_
  rw [bias1_col m ρ c k']
  exact Cert.Spec.conv_eq_agg (KBound.srcK m ρ c) (KBound.dstK m ρ c) (KBound.nrmK m ρ c) hsrc
    (KAgg1.srcB (GenP.V7 m ρ) c) (KAgg1.dstB (GenP.V7 m ρ) c) (KAgg1.nrmB (GenP.V7 m ρ) c)
    (src1_lane m ρ c) (dst1_lane m ρ c) (nrm1_lane m ρ c) (nrm1_pad m ρ c)
    (KAgg1.tabB (GenP.V7 m ρ) c) (Cert.Spec.lin (xF m c) (w1F m c)) (tab1_row m ρ c) (b1F m c) n k'

/-! ## The second layer -/

/-- Row 800 · k + r of the second aggregation's table, where that is a node, is that node's row of hidden · W2. -/
theorem tab3_row (k : Fin 64) (r : Fin 800) (hn : 800 * k.val + r.val < 50000) (o : Fin 64) :
    KAgg3.tabB (GenP.V10 m ρ) c k r o
      = Cert.Spec.lin (Cert.Spec.hidden (KBound.srcK m ρ c) (KBound.dstK m ρ c) (KBound.nrmK m ρ c) (xF m c) (w1F m c) (b1F m c))
          (w2F m c) ⟨800 * k.val + r.val, hn⟩ o := by
  refine (KBound.tab3_apply m ρ c ⟨800 * k.val + r.val, by omega⟩ o).trans ?_
  refine (KMat.mat2_apply (GenP.V8 m ρ) c ⟨800 * k.val + r.val, by omega⟩ o).trans ?_
  unfold Cert.Spec.lin
  refine Finset.sum_congr rfl fun k' _ => ?_
  refine congrArg₂ (· * ·) ?_ (congrFun (KBound.w2_eq m ρ c) (ix2 k' o))
  show (GenP.V8 m ρ c (Pipeline.arrRef spec2 0) : S51200x128.Idx → EReal) (ix2 ⟨800 * k.val + r.val, by omega⟩ k') = _
  rw [KBound.in2_eq m ρ c]
  exact hidden_row m ρ c hsrc ⟨800 * k.val + r.val, hn⟩ k'

/-- The kernel's result at (n, o) is the network's output there. -/
theorem kernel_value (n : Fin 50000) (o : Fin 64) :
    (GenP.W12 m ρ c (Proc.devRef .tc main_v48) : S50000x64.Idx → EReal) (ix2 n o)
      = Cert.Spec.out (KBound.srcK m ρ c) (KBound.dstK m ρ c) (KBound.nrmK m ρ c) (xF m c) (w1F m c) (b1F m c)
          (w2F m c) (b2F m c) n o := by
  refine (KBound.result_apply m ρ c n o).trans ?_
  refine (KAgg3.agg3_apply (GenP.V10 m ρ) c ⟨n.val, by omega⟩ o).trans ?_
  unfold Cert.Spec.out
  rw [bias3_col m ρ c o]
  exact Cert.Spec.conv_eq_agg (KBound.srcK m ρ c) (KBound.dstK m ρ c) (KBound.nrmK m ρ c) hsrc
    (KAgg3.srcB (GenP.V10 m ρ) c) (KAgg3.dstB (GenP.V10 m ρ) c) (KAgg3.nrmB (GenP.V10 m ρ) c)
    (src3_lane m ρ c) (dst3_lane m ρ c) (nrm3_lane m ρ c) (nrm3_pad m ρ c)
    (KAgg3.tabB (GenP.V10 m ρ) c)
    (Cert.Spec.lin (Cert.Spec.hidden (KBound.srcK m ρ c) (KBound.dstK m ρ c) (KBound.nrmK m ρ c) (xF m c) (w1F m c) (b1F m c)) (w2F m c))
    (tab3_row m ρ c hsrc) (b2F m c) n o

end Layers

end Cert.KernelIdeal.KValue

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.RefValue.lean ====
/-
  The reference network read entry by entry.

  The reference computes, over 50000 nodes and 850000 weighted edge positions, two propagation layers.  Each layer
  is: a linear map of every node's row (a contraction over 128 features); a gather of the rows at the edges' source
  words; a pointwise product with the edge weights broadcast along the columns; an accumulating scatter of the
  products into a table of zeros at the edges' destination words; and the addition of a bias broadcast along the
  rows.  Between the two layers the table is clamped at zero from below.

  The source word of an edge passes through the wrap of negative positions (a word below zero has the node count
  added) before the gather; on a word that is not negative the wrap is the identity.  The gather reads the row at
  the word's signed value clamped into the node range, which is the node the word names.  The scatter reads the
  destination word signed and unclamped, so an edge contributes to node n exactly when its destination word reads n.
  Hence each layer is the propagation of the specification, and the output is the specification's network.

  The edge words and the edge weights are kept as opaque functions of the edge position throughout.
-/
import proofs.«415787_j87273735454854_1_alg».proof.Proof.ReadRef
import proofs.«415787_j87273735454854_1_alg».proof.Proof.Spec
import proofs.«415787_j87273735454854_1_alg».proof.Proof.LibScatterAdd
import proofs.«415787_j87273735454854_1_alg».proof.Proof.LibGatherRows

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.StableHlo
open scoped BigOperators

/-- The source word of edge position e. -/
def srcR (ei : (⟨S2x800000, .i32⟩ : BufTy).Contents (Elt Ideal)) (e : Fin 850000) : BitVec 32 :=
  ReadP.val_main_v3 (F := Ideal) ei (ValueIdx.ix1 e)

/-- The destination word of edge position e. -/
def dstR (ei : (⟨S2x800000, .i32⟩ : BufTy).Contents (Elt Ideal)) (e : Fin 850000) : BitVec 32 :=
  ReadP.val_main_v6 (F := Ideal) ei (ValueIdx.ix1 e)

/-- The weight of edge position e. -/
def nrmR (ei : (⟨S2x800000, .i32⟩ : BufTy).Contents (Elt Ideal)) (e : Fin 850000) : EReal :=
  ReadP.val_main_v29 (F := Ideal) ei (ValueIdx.ix1 e)

/-! ## The two index operations on literal shapes -/

/-- A gather of rows of a [50000, 128] table: entry (e, k) is the table at the node the start word names. -/
theorem gather128 (T : S50000x128.Idx → EReal) (I : IVec S850000x1 32) (e : Fin 850000) (k : Fin 128) :
    Host.gather gather_S50000x128_S850000x1_S850000x128_1_0_n_n_0_1_1128 T I (ix2 e k)
      = T (ix2 (Cert.Spec.nodeOf (I (ix2 e (0 : Fin 1)))) k) :=
  Cert.Lib.gather_rows_apply (N := 50000) (C := 128) (E := 850000) (by decide)
    gather_S50000x128_S850000x1_S850000x128_1_0_n_n_0_1_1128_wf T I e k

/-- A gather of rows of a [50000, 64] table: entry (e, o) is the table at the node the start word names. -/
theorem gather64 (T : S50000x64.Idx → EReal) (I : IVec S850000x1 32) (e : Fin 850000) (o : Fin 64) :
    Host.gather gather_S50000x64_S850000x1_S850000x64_1_0_n_n_0_1_164 T I (ix2 e o)
      = T (ix2 (Cert.Spec.nodeOf (I (ix2 e (0 : Fin 1)))) o) :=
  Cert.Lib.gather_rows_apply (N := 50000) (C := 64) (E := 850000) (by decide)
    gather_S50000x64_S850000x1_S850000x64_1_0_n_n_0_1_164_wf T I e o

/-- An accumulating scatter of [850000, 128] rows into a [50000, 128] table: entry (n, k) gains entry k of every
    row whose position word reads n. -/
theorem scatter128 (X : S50000x128.Idx → EReal) (I : IVec S850000x1 32) (Upd : S850000x128.Idx → EReal)
    (n : Fin 50000) (k : Fin 128) :
    Host.scatterAdd (F := Ideal) (φ := .f32) scatter_S50000x128_S850000x1_S850000x128_1_0_0_1 X I Upd (ix2 n k)
      = X (ix2 n k) + ∑ e : Fin 850000, if (I (ix2 e (0 : Fin 1))).toInt = (n.val : Int) then Upd (ix2 e k) else 0 :=
  Cert.Lib.scatterAdd_rows_apply (N := 50000) (C := 128) (E := 850000)
    scatter_S50000x128_S850000x1_S850000x128_1_0_0_1_wf X I Upd n k

/-- An accumulating scatter of [850000, 64] rows into a [50000, 64] table. -/
theorem scatter64 (X : S50000x64.Idx → EReal) (I : IVec S850000x1 32) (Upd : S850000x64.Idx → EReal)
    (n : Fin 50000) (o : Fin 64) :
    Host.scatterAdd (F := Ideal) (φ := .f32) scatter_S50000x64_S850000x1_S850000x64_1_0_0_1 X I Upd (ix2 n o)
      = X (ix2 n o) + ∑ e : Fin 850000, if (I (ix2 e (0 : Fin 1))).toInt = (n.val : Int) then Upd (ix2 e o) else 0 :=
  Cert.Lib.scatterAdd_rows_apply (N := 50000) (C := 64) (E := 850000)
    scatter_S50000x64_S850000x1_S850000x64_1_0_0_1_wf X I Upd n o

/-! ## The opaque stages behind the edge functions -/

/-- The wrap of a negative position, select (s < 0) a s, is s itself on a word that is not negative. -/
theorem select_slt_zero (s a : BitVec 32) (h : 0 ≤ s.toInt) :
    Scalar.select (IntOp.cmpi .slt s 0#32) a s = s := by
  have hlt : s.slt 0#32 = false := by
    simp only [BitVec.slt, BitVec.toInt_zero, decide_eq_false_iff_not, Int.not_lt]
    exact h
  show (if BitVec.ofBool (s.slt 0#32) = 1 then a else s) = s
  rw [hlt]
  rfl

/-- The wrap of negative positions leaves a source word that is not negative unchanged (first layer's copy). -/
theorem v36_at (ei : (⟨S2x800000, .i32⟩ : BufTy).Contents (Elt Ideal))
    (hsrc : ∀ e : Fin 850000, 0 ≤ (srcR ei e).toInt ∧ (srcR ei e).toInt < 50000) (e : Fin 850000) :
    ReadP.val_main_v36 (F := Ideal) ei (ix2 e (0 : Fin 1)) = srcR ei e := by
  have hi : idx_main_v36 (ix2 e (0 : Fin 1)) = ix1 e := funext fun a => Fin.ext (by match a with | ⟨0, _⟩ => rfl)
  rw [val_main_v36_apply, val_main_v35_apply, val_main_v32_apply, val_main_v31_apply, val_main_c_6_apply, hi]
  exact select_slt_zero _ _ (hsrc e).1

/-- The wrap of negative positions leaves a source word that is not negative unchanged (second layer's copy). -/
theorem v54_at (ei : (⟨S2x800000, .i32⟩ : BufTy).Contents (Elt Ideal))
    (hsrc : ∀ e : Fin 850000, 0 ≤ (srcR ei e).toInt ∧ (srcR ei e).toInt < 50000) (e : Fin 850000) :
    ReadP.val_main_v54 (F := Ideal) ei (ix2 e (0 : Fin 1)) = srcR ei e := by
  have hi : idx_main_v54 (ix2 e (0 : Fin 1)) = ix1 e := funext fun a => Fin.ext (by match a with | ⟨0, _⟩ => rfl)
  rw [val_main_v54_apply, val_main_v53_apply, val_main_v50_apply, val_main_v49_apply, val_main_c_9_apply, hi]
  exact select_slt_zero _ _ (hsrc e).1

/-- The first layer's scatter positions are the destination words. -/
theorem v42_at (ei : (⟨S2x800000, .i32⟩ : BufTy).Contents (Elt Ideal)) (e : Fin 850000) :
    ReadP.val_main_v42 (F := Ideal) ei (ix2 e (0 : Fin 1)) = dstR ei e := by
  have hi : idx_main_v42 (ix2 e (0 : Fin 1)) = ix1 e := funext fun a => Fin.ext (by match a with | ⟨0, _⟩ => rfl)
  rw [val_main_v42_apply, hi]
  rfl

/-- The second layer's scatter positions are the destination words. -/
theorem v60_at (ei : (⟨S2x800000, .i32⟩ : BufTy).Contents (Elt Ideal)) (e : Fin 850000) :
    ReadP.val_main_v60 (F := Ideal) ei (ix2 e (0 : Fin 1)) = dstR ei e := by
  have hi : idx_main_v60 (ix2 e (0 : Fin 1)) = ix1 e := funext fun a => Fin.ext (by match a with | ⟨0, _⟩ => rfl)
  rw [val_main_v60_apply, hi]
  rfl

/-- The first layer's weights, broadcast along the 128 columns. -/
theorem v39_at (ei : (⟨S2x800000, .i32⟩ : BufTy).Contents (Elt Ideal)) (e : Fin 850000) (k : Fin 128) :
    ReadP.val_main_v39 (F := Ideal) ei (ix2 e k) = nrmR ei e := by
  have hi : idx_main_v38 (idx_main_v39 (ix2 e k)) = ix1 e :=
    funext fun a => Fin.ext (by match a with | ⟨0, _⟩ => rfl)
  rw [val_main_v39_apply, val_main_v38_apply, hi]
  rfl

/-- The second layer's weights, broadcast along the 64 columns. -/
theorem v57_at (ei : (⟨S2x800000, .i32⟩ : BufTy).Contents (Elt Ideal)) (e : Fin 850000) (o : Fin 64) :
    ReadP.val_main_v57 (F := Ideal) ei (ix2 e o) = nrmR ei e := by
  have hi : idx_main_v56 (idx_main_v57 (ix2 e o)) = ix1 e :=
    funext fun a => Fin.ext (by match a with | ⟨0, _⟩ => rfl)
  rw [val_main_v57_apply, val_main_v56_apply, hi]
  rfl

/-! ## The first layer -/

/-- The first linear map: entry (m, k) of x · W1. -/
theorem v30_at (x : (⟨S50000x128, .f32⟩ : BufTy).Contents (Elt Ideal)) (W1 : (⟨S128x128, .f32⟩ : BufTy).Contents (Elt Ideal))
    (m : Fin 50000) (k : Fin 128) :
    ReadP.val_main_v30 (F := Ideal) x W1 (ix2 m k)
      = Cert.Spec.lin (fun n k => x (ix2 n k)) (fun k o => W1 (ix2 k o)) m k := by
  rw [val_main_v30_apply]
  unfold Cert.Spec.lin
  refine Finset.sum_congr rfl fun j _ => ?_
  have hl : lidx_main_v30 (ix2 m k) j = ix2 m j :=
    funext fun a => Fin.ext (by match a with | ⟨0, _⟩ => rfl | ⟨1, _⟩ => rfl)
  have hr : ridx_main_v30 (ix2 m k) j = ix2 j k :=
    funext fun a => Fin.ext (by match a with | ⟨0, _⟩ => rfl | ⟨1, _⟩ => rfl)
  rw [hl, hr]

/-- The gathered rows of the first layer: entry (e, k) is the linear map's row at the source node of edge e. -/
theorem v37_at (x : (⟨S50000x128, .f32⟩ : BufTy).Contents (Elt Ideal)) (ei : (⟨S2x800000, .i32⟩ : BufTy).Contents (Elt Ideal))
    (W1 : (⟨S128x128, .f32⟩ : BufTy).Contents (Elt Ideal))
    (hsrc : ∀ e : Fin 850000, 0 ≤ (srcR ei e).toInt ∧ (srcR ei e).toInt < 50000) (e : Fin 850000) (k : Fin 128) :
    ReadP.val_main_v37 (F := Ideal) x ei W1 (ix2 e k)
      = Cert.Spec.lin (fun n k => x (ix2 n k)) (fun k o => W1 (ix2 k o)) (Cert.Spec.nodeOf (srcR ei e)) k := by
  unfold ReadP.val_main_v37
  rw [gather128, v36_at ei hsrc e, v30_at]

/-- The first layer before its bias: node n collects the weighted source rows of the edges that end at n. -/
theorem v43_at (x : (⟨S50000x128, .f32⟩ : BufTy).Contents (Elt Ideal)) (ei : (⟨S2x800000, .i32⟩ : BufTy).Contents (Elt Ideal))
    (W1 : (⟨S128x128, .f32⟩ : BufTy).Contents (Elt Ideal))
    (hsrc : ∀ e : Fin 850000, 0 ≤ (srcR ei e).toInt ∧ (srcR ei e).toInt < 50000) (n : Fin 50000) (k : Fin 128) :
    ReadP.val_main_v43 (F := Ideal) x ei W1 (ix2 n k)
      = ∑ e : Fin 850000, if (dstR ei e).toInt = (n.val : Int)
          then Cert.Spec.lin (fun n k => x (ix2 n k)) (fun k o => W1 (ix2 k o)) (Cert.Spec.nodeOf (srcR ei e)) k * nrmR ei e
          else 0 := by
  unfold ReadP.val_main_v43
  rw [scatter128, val_main_v41_apply, val_main_cst_8_apply, Ideal.ofBits_def, Ideal.ofBits_zero_f32, zero_add]
  refine Finset.sum_congr rfl fun e _ => ?_
  rw [v42_at, val_main_v40_apply, Ideal.mulf_def, v37_at x ei W1 hsrc, v39_at]

/-- THE HIDDEN LAYER read at (n, k). -/
theorem hidden_apply (x : (⟨S50000x128, .f32⟩ : BufTy).Contents (Elt Ideal)) (ei : (⟨S2x800000, .i32⟩ : BufTy).Contents (Elt Ideal))
    (W1 : (⟨S128x128, .f32⟩ : BufTy).Contents (Elt Ideal)) (b1 : (⟨S128, .f32⟩ : BufTy).Contents (Elt Ideal))
    (hsrc : ∀ e : Fin 850000, 0 ≤ (srcR ei e).toInt ∧ (srcR ei e).toInt < 50000) (n : Fin 50000) (k : Fin 128) :
    ReadP.val_main_v47 (F := Ideal) x ei W1 b1 (ix2 n k)
      = Cert.Spec.hidden (srcR ei) (dstR ei) (nrmR ei) (fun n k => x (ix2 n k)) (fun k o => W1 (ix2 k o))
          (fun o => b1 (ix1 o)) n k := by
  have hb : idx_main_v44 (idx_main_v45 (ix2 n k)) = ix1 k :=
    funext fun a => Fin.ext (by match a with | ⟨0, _⟩ => rfl)
  rw [val_main_v47_apply, val_main_v46_apply, val_main_call1_v0_apply, val_main_call1_cst_apply,
    val_main_v45_apply, val_main_v44_apply, hb, v43_at x ei W1 hsrc,
    Ideal.maximumf_def, Ideal.addf_def, Ideal.ofBits_def, Ideal.ofBits_zero_f32]
  unfold Cert.Spec.hidden Cert.Spec.conv
  rfl

/-! ## The second layer -/

/-- The second linear map: entry (m, o) of hidden · W2. -/
theorem v48_at (x : (⟨S50000x128, .f32⟩ : BufTy).Contents (Elt Ideal)) (ei : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x64, .f32⟩ : BufTy).Contents (Elt Ideal))
    (hsrc : ∀ e : Fin 850000, 0 ≤ (srcR ei e).toInt ∧ (srcR ei e).toInt < 50000) (m : Fin 50000) (o : Fin 64) :
    ReadP.val_main_v48 (F := Ideal) x ei W1 b1 W2 (ix2 m o)
      = Cert.Spec.lin (Cert.Spec.hidden (srcR ei) (dstR ei) (nrmR ei) (fun n k => x (ix2 n k)) (fun k o => W1 (ix2 k o))
          (fun o => b1 (ix1 o))) (fun k o => W2 (ix2 k o)) m o := by
  rw [val_main_v48_apply]
  unfold Cert.Spec.lin
  refine Finset.sum_congr rfl fun j _ => ?_
  have hl : lidx_main_v48 (ix2 m o) j = ix2 m j :=
    funext fun a => Fin.ext (by match a with | ⟨0, _⟩ => rfl | ⟨1, _⟩ => rfl)
  have hr : ridx_main_v48 (ix2 m o) j = ix2 j o :=
    funext fun a => Fin.ext (by match a with | ⟨0, _⟩ => rfl | ⟨1, _⟩ => rfl)
  rw [hl, hr, hidden_apply x ei W1 b1 hsrc]

/-- The gathered rows of the second layer. -/
theorem v55_at (x : (⟨S50000x128, .f32⟩ : BufTy).Contents (Elt Ideal)) (ei : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x64, .f32⟩ : BufTy).Contents (Elt Ideal))
    (hsrc : ∀ e : Fin 850000, 0 ≤ (srcR ei e).toInt ∧ (srcR ei e).toInt < 50000) (e : Fin 850000) (o : Fin 64) :
    ReadP.val_main_v55 (F := Ideal) x ei W1 b1 W2 (ix2 e o)
      = Cert.Spec.lin (Cert.Spec.hidden (srcR ei) (dstR ei) (nrmR ei) (fun n k => x (ix2 n k)) (fun k o => W1 (ix2 k o))
          (fun o => b1 (ix1 o))) (fun k o => W2 (ix2 k o)) (Cert.Spec.nodeOf (srcR ei e)) o := by
  unfold ReadP.val_main_v55
  rw [gather64, v54_at ei hsrc e, v48_at x ei W1 b1 W2 hsrc]

/-- The second layer before its bias. -/
theorem v61_at (x : (⟨S50000x128, .f32⟩ : BufTy).Contents (Elt Ideal)) (ei : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x64, .f32⟩ : BufTy).Contents (Elt Ideal))
    (hsrc : ∀ e : Fin 850000, 0 ≤ (srcR ei e).toInt ∧ (srcR ei e).toInt < 50000) (n : Fin 50000) (o : Fin 64) :
    ReadP.val_main_v61 (F := Ideal) x ei W1 b1 W2 (ix2 n o)
      = ∑ e : Fin 850000, if (dstR ei e).toInt = (n.val : Int)
          then Cert.Spec.lin (Cert.Spec.hidden (srcR ei) (dstR ei) (nrmR ei) (fun n k => x (ix2 n k))
            (fun k o => W1 (ix2 k o)) (fun o => b1 (ix1 o))) (fun k o => W2 (ix2 k o)) (Cert.Spec.nodeOf (srcR ei e)) o * nrmR ei e
          else 0 := by
  unfold ReadP.val_main_v61
  rw [scatter64, val_main_v59_apply, val_main_cst_11_apply, Ideal.ofBits_def, Ideal.ofBits_zero_f32, zero_add]
  refine Finset.sum_congr rfl fun e _ => ?_
  rw [v60_at, val_main_v58_apply, Ideal.mulf_def, v55_at x ei W1 b1 W2 hsrc, v57_at]

/-- THE OUTPUT read at (n, o): the specification's network over the opaque edge words and weights. -/
theorem out_apply (x : (⟨S50000x128, .f32⟩ : BufTy).Contents (Elt Ideal)) (ei : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x64, .f32⟩ : BufTy).Contents (Elt Ideal)) (b2 : (⟨S64, .f32⟩ : BufTy).Contents (Elt Ideal))
    (hsrc : ∀ e : Fin 850000, 0 ≤ (srcR ei e).toInt ∧ (srcR ei e).toInt < 50000)
    (n : Fin 50000) (o : Fin 64) :
    ReadP.val_main_v64 (F := Ideal) x ei W1 b1 W2 b2 (ValueIdx.ix2 n o)
      = Cert.Spec.out (srcR ei) (dstR ei) (nrmR ei) (fun n k => x (ValueIdx.ix2 n k)) (fun k o => W1 (ValueIdx.ix2 k o))
          (fun o => b1 (ValueIdx.ix1 o)) (fun k o => W2 (ValueIdx.ix2 k o)) (fun o => b2 (ValueIdx.ix1 o)) n o := by
  have hb : idx_main_v62 (idx_main_v63 (ix2 n o)) = ix1 o :=
    funext fun a => Fin.ext (by match a with | ⟨0, _⟩ => rfl)
  rw [val_main_v64_apply, val_main_v63_apply, val_main_v62_apply, hb, v61_at x ei W1 b1 W2 hsrc, Ideal.addf_def]
  unfold Cert.Spec.out Cert.Spec.conv
  rfl

end Cert.ReferenceIdeal.RefValue

end
-- ==== Proof.PreDecode.lean ====
/-
  The precondition read back at the source words.

  The certificate's precondition ends with the conjunct "every entry of row 0 of the edge array, read signed, lies in
  [0, 50000)".  The reference's source-word vector has 850000 positions: position e below 800000 holds entry (0, e) of
  the edge array, position 800000 + i holds the word of i (a self-loop's source).  So under the precondition every
  source word, read signed, is a node number: the first 800000 by the conjunct, the last 50000 because they are the
  words of numbers below 50000.
-/
import proofs.«415787_j87273735454854_1_alg».proof.Pre_finite_inputs
import proofs.«415787_j87273735454854_1_alg».proof.Proof.Gen.Pre_finite_inputs
import proofs.«415787_j87273735454854_1_alg».proof.Proof.ReadRef
import Idealize.ShloMosaic.Lib.ReduceAll
import Idealize.ShloMosaic.Lib.StableHlo.Predicate
import Idealize.ShloMosaic.Lib.ValueIdx
import Idealize.ShloMosaic.Lib.Pipeline.Value
import Idealize.ShloMosaic.PureOps.Ideal

namespace Cert.PreDecode

open Idealize.ShloMosaic Idealize.ShloMosaic.ValueIdx

/-- The scalar shape has exactly one index. -/
instance : Subsingleton Cert.Pre_finite_inputs.S_.Idx := ⟨fun a b => funext fun d => d.elim0⟩

/-- Row 0 of a [2, 800000] array, flattened to a vector, read at position e: the array's entry (0, e).
    The flattening keeps the row-major position (0 · 800000 + e = e); the slice starts at offset (0, 0). -/
theorem row0_read {α : Type} (ei : (⟨2, ![2, 800000]⟩ : Shape).Idx → α)
    (hs : (⟨2, ![2, 800000]⟩ : Shape).Slices ![0, 0] ⟨2, ![1, 800000]⟩)
    (hc : (⟨2, ![1, 800000]⟩ : Shape).ShapeCasts ⟨1, ![800000]⟩) (e : Fin 800000) :
    shapeCast (⟨1, ![800000]⟩ : Shape) (extractStridedSlice (⟨2, ![1, 800000]⟩ : Shape) ![0, 0] ei hs) hc (ix1 e)
      = ei (ix2 (0 : Fin 2) e) := by
  refine (shapeCast_apply _ hc (ix1 e) (ix2 (0 : Fin 1) e) ?_).trans ?_
  · rewrite [Shape.rowMajor_val_two, Shape.rowMajor_val_one]
    show 0 * 800000 + e.val = e.val
    omega
  · exact extractStridedSlice_apply ![0, 0] ei hs (ix2 (0 : Fin 1) e) (ix2 (0 : Fin 2) e) (fun a => match a with
      | ⟨0, _⟩ => by show (0 : Nat) = 0 + 0; rfl
      | ⟨1, _⟩ => by show e.val = 0 + e.val; omega)

/-- The precondition's last conjunct, read at one given edge: the edge's source word, read signed, is a node number.
    The precondition is a conjunction of six "all entries" tests; the last one tests, entry by entry of row 0 of the
    edge array, 0 ≤ w (signed) and w < 50000 (signed), each against a scalar constant broadcast along the row. -/
theorem given_src_in_range
    (x : (⟨Cert.ReferenceIdeal.S50000x128, .f32⟩ : BufTy).Contents (Elt Ideal))
    (ei : (⟨Cert.ReferenceIdeal.S2x800000, .i32⟩ : BufTy).Contents (Elt Ideal))
    (W1 : (⟨Cert.ReferenceIdeal.S128x128, .f32⟩ : BufTy).Contents (Elt Ideal))
    (b1 : (⟨Cert.ReferenceIdeal.S128, .f32⟩ : BufTy).Contents (Elt Ideal))
    (W2 : (⟨Cert.ReferenceIdeal.S128x64, .f32⟩ : BufTy).Contents (Elt Ideal))
    (b2 : (⟨Cert.ReferenceIdeal.S64, .f32⟩ : BufTy).Contents (Elt Ideal))
    (hpre : Cert.Pre_finite_inputs.fn (F := Ideal) x ei W1 b1 W2 b2 = fun _ => 1#1) (e : Fin 800000) :
    0 ≤ (ei (ix2 (0 : Fin 2) e)).toInt ∧ (ei (ix2 (0 : Fin 2) e)).toInt < 50000 := by
  have h0 := congrFun hpre ix0
  dsimp only [Cert.Pre_finite_inputs.fn, Cert.Pre_finite_inputs.fn_part1] at h0
  -- the last conjunct of the conjunction
  have h1 := (IntOp.andi_eq_one.1 h0).2
  -- "all entries" that came out one: entry e is one
  have h2 := Host.reduce_andi_all _ _ _ _ ix0 h1 (ix1 e)
  -- entry e is the conjunction of the two signed comparisons
  obtain ⟨hge, hlt⟩ := IntOp.andi_eq_one.1 h2
  have hge' := IntOp.cmpi_sge.1 hge
  have hlt' := IntOp.cmpi_slt.1 hlt
  rw [row0_read] at hge' hlt'
  -- a broadcast scalar constant reads the constant at every position
  have hge'' : (BitVec.ofNat 32 0).toInt ≤ (ei (ix2 (0 : Fin 2) e)).toInt := hge'
  have hlt'' : (ei (ix2 (0 : Fin 2) e)).toInt < (BitVec.ofNat 32 50000).toInt := hlt'
  rw [StableHlo.Predicate.toInt_ofNat_small 0 (by norm_num)] at hge''
  rw [StableHlo.Predicate.toInt_ofNat_small 50000 (by norm_num)] at hlt''
  exact ⟨by exact_mod_cast hge'', by exact_mod_cast hlt''⟩

/-- The source-word vector at a position below 800000: the first piece of the concatenation, row 0 of the edge
    array at that position. -/
theorem src_given (ei : (⟨Cert.ReferenceIdeal.S2x800000, .i32⟩ : BufTy).Contents (Elt Ideal)) (e : Fin 850000)
    (he : e.val < 800000) :
    Cert.ReferenceIdeal.ReadP.val_main_v3 (F := Ideal) ei (ix1 e) = ei (ix2 (0 : Fin 2) (⟨e.val, he⟩ : Fin 800000)) := by
  unfold Cert.ReferenceIdeal.ReadP.val_main_v3
  refine (concatenate_pair_apply_left (t := Cert.ReferenceIdeal.S850000) (s₁ := Cert.ReferenceIdeal.S800000)
    (s₂ := Cert.ReferenceIdeal.S50000) (0 : Fin 1) _ _ _ (ix1 e) rfl (ix1 (⟨e.val, he⟩ : Fin 800000)) ?_).trans ?_
  · intro b
    match b with
    | ⟨0, _⟩ => rfl
  · unfold Cert.ReferenceIdeal.ReadP.val_main_v2 Cert.ReferenceIdeal.ReadP.val_main_v1
    exact row0_read ei _ _ ⟨e.val, he⟩

/-- The source-word vector at a position 800000 + i: the second piece of the concatenation, the word of i. -/
theorem src_loop (ei : (⟨Cert.ReferenceIdeal.S2x800000, .i32⟩ : BufTy).Contents (Elt Ideal)) (e : Fin 850000)
    (he : 800000 ≤ e.val) :
    Cert.ReferenceIdeal.ReadP.val_main_v3 (F := Ideal) ei (ix1 e) = BitVec.ofNat 32 (e.val - 800000) := by
  unfold Cert.ReferenceIdeal.ReadP.val_main_v3
  refine (concatenate_pair_apply_right (t := Cert.ReferenceIdeal.S850000) (s₁ := Cert.ReferenceIdeal.S800000)
    (s₂ := Cert.ReferenceIdeal.S50000) (0 : Fin 1) _ _ _ (ix1 e) rfl rfl
    (ix1 (⟨e.val - 800000, by have := e.isLt; omega⟩ : Fin 50000)) ?_ ?_).trans ?_
  · intro b hb
    match b with
    | ⟨0, _⟩ => exact absurd rfl hb
  · show (e.val - 800000) + 800000 = e.val
    omega
  · rfl

/-- Row 1 of a [2, 800000] array, flattened to a vector, read at position e: the array's entry (1, e). -/
theorem row1_read {α : Type} (ei : (⟨2, ![2, 800000]⟩ : Shape).Idx → α)
    (hs : (⟨2, ![2, 800000]⟩ : Shape).Slices ![1, 0] ⟨2, ![1, 800000]⟩)
    (hc : (⟨2, ![1, 800000]⟩ : Shape).ShapeCasts ⟨1, ![800000]⟩) (e : Fin 800000) :
    shapeCast (⟨1, ![800000]⟩ : Shape) (extractStridedSlice (⟨2, ![1, 800000]⟩ : Shape) ![1, 0] ei hs) hc (ix1 e)
      = ei (ix2 (1 : Fin 2) e) := by
  refine (shapeCast_apply _ hc (ix1 e) (ix2 (0 : Fin 1) e) ?_).trans ?_
  · rewrite [Shape.rowMajor_val_two, Shape.rowMajor_val_one]
    show 0 * 800000 + e.val = e.val
    omega
  · exact extractStridedSlice_apply ![1, 0] ei hs (ix2 (0 : Fin 1) e) (ix2 (1 : Fin 2) e) (fun a => match a with
      | ⟨0, _⟩ => by show (1 : Nat) = 1 + 0; rfl
      | ⟨1, _⟩ => by show e.val = 0 + e.val; omega)

/-- The destination-word vector at a position below 800000: row 1 of the edge array at that position. -/
theorem dst_given (ei : (⟨Cert.ReferenceIdeal.S2x800000, .i32⟩ : BufTy).Contents (Elt Ideal)) (e : Fin 850000)
    (he : e.val < 800000) :
    Cert.ReferenceIdeal.ReadP.val_main_v6 (F := Ideal) ei (ix1 e) = ei (ix2 (1 : Fin 2) (⟨e.val, he⟩ : Fin 800000)) := by
  unfold Cert.ReferenceIdeal.ReadP.val_main_v6
  refine (concatenate_pair_apply_left (t := Cert.ReferenceIdeal.S850000) (s₁ := Cert.ReferenceIdeal.S800000)
    (s₂ := Cert.ReferenceIdeal.S50000) (0 : Fin 1) _ _ _ (ix1 e) rfl (ix1 (⟨e.val, he⟩ : Fin 800000)) ?_).trans ?_
  · intro b
    match b with
    | ⟨0, _⟩ => rfl
  · unfold Cert.ReferenceIdeal.ReadP.val_main_v5 Cert.ReferenceIdeal.ReadP.val_main_v4
    exact row1_read ei _ _ ⟨e.val, he⟩

/-- The destination-word vector at a position 800000 + i: the word of i (a self-loop ends where it starts). -/
theorem dst_loop (ei : (⟨Cert.ReferenceIdeal.S2x800000, .i32⟩ : BufTy).Contents (Elt Ideal)) (e : Fin 850000)
    (he : 800000 ≤ e.val) :
    Cert.ReferenceIdeal.ReadP.val_main_v6 (F := Ideal) ei (ix1 e) = BitVec.ofNat 32 (e.val - 800000) := by
  unfold Cert.ReferenceIdeal.ReadP.val_main_v6
  refine (concatenate_pair_apply_right (t := Cert.ReferenceIdeal.S850000) (s₁ := Cert.ReferenceIdeal.S800000)
    (s₂ := Cert.ReferenceIdeal.S50000) (0 : Fin 1) _ _ _ (ix1 e) rfl rfl
    (ix1 (⟨e.val - 800000, by have := e.isLt; omega⟩ : Fin 50000)) ?_ ?_).trans ?_
  · intro b hb
    match b with
    | ⟨0, _⟩ => exact absurd rfl hb
  · show (e.val - 800000) + 800000 = e.val
    omega
  · rfl

/-- Under the precondition every source word of the reference, read signed, is a node number. -/
theorem src_in_range
    (x : (⟨Cert.ReferenceIdeal.S50000x128, .f32⟩ : BufTy).Contents (Elt Ideal))
    (ei : (⟨Cert.ReferenceIdeal.S2x800000, .i32⟩ : BufTy).Contents (Elt Ideal))
    (W1 : (⟨Cert.ReferenceIdeal.S128x128, .f32⟩ : BufTy).Contents (Elt Ideal))
    (b1 : (⟨Cert.ReferenceIdeal.S128, .f32⟩ : BufTy).Contents (Elt Ideal))
    (W2 : (⟨Cert.ReferenceIdeal.S128x64, .f32⟩ : BufTy).Contents (Elt Ideal))
    (b2 : (⟨Cert.ReferenceIdeal.S64, .f32⟩ : BufTy).Contents (Elt Ideal))
    (hpre : Cert.Pre_finite_inputs.fn (F := Ideal) x ei W1 b1 W2 b2 = fun _ => 1#1) (e : Fin 850000) :
    0 ≤ (Cert.ReferenceIdeal.ReadP.val_main_v3 (F := Ideal) ei (ix1 e)).toInt
      ∧ (Cert.ReferenceIdeal.ReadP.val_main_v3 (F := Ideal) ei (ix1 e)).toInt < 50000 := by
  by_cases he : e.val < 800000
  · rw [src_given ei e he]
    exact given_src_in_range x ei W1 b1 W2 b2 hpre ⟨e.val, he⟩
  · have hlt := e.isLt
    rw [src_loop ei e (by omega), StableHlo.Predicate.toInt_ofNat_small (e.val - 800000) (by omega)]
    omega

end Cert.PreDecode
-- ==== Proof.SharedPrefix.lean ====
import proofs.«415787_j87273735454854_1_alg».proof.Proof.FrameKernelIdeal
import proofs.«415787_j87273735454854_1_alg».proof.Proof.ReadRef
import Idealize.ShloMosaic.Lib.StableHlo.Run

noncomputable section

/-! # The host prefix shared by the two programs

Both programs begin with the same host operations: the source and destination lists of the 850000 edge positions
(the given edges followed by one loop per node), the in-degree of every node by a scatter-add of ones, its inverse
square root where the degree is positive, and the weight of every position, the product of the two end nodes'
values. Here the kernel's buffers %3 (sources), %6 (destinations) and %29 (weights), as they stand when the kernel's
first region is entered, are identified with the reference's stages of the same names, as functions of the edge
array. The one law used is congruence: an operation applied to equal arguments gives equal values. -/

namespace Cert.SharedPrefix

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- A reference that no operation of a stretch writes keeps its contents through the stretch: each written
    reference is another reference. -/
macro "keep_through" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

/-! ## The first stretch, from any entry contents: sources, destinations, the degree's two readings, the zero -/

section Stretch0
variable (V : Valuation τ sig (Elt F))

/-- %3: row 0 of the edge array, flattened, followed by the iota. -/
theorem S0_v3 : StableHlo.after hostOps0 V (Proc.devRef .tc main_v3)
    = Cert.ReferenceIdeal.ReadP.val_main_v3 (F := F) (V (Proc.devRef .tc main_arg1)) := by
  after_results; rfl
/-- %6: row 1 of the edge array, flattened, followed by the iota. -/
theorem S0_v6 : StableHlo.after hostOps0 V (Proc.devRef .tc main_v6)
    = Cert.ReferenceIdeal.ReadP.val_main_v6 (F := F) (V (Proc.devRef .tc main_arg1)) := by
  after_results; rfl
/-- %12: where the degree (ones scatter-added by destination) is positive. -/
theorem S0_v12 : StableHlo.after hostOps0 V (Proc.devRef .tc main_v12)
    = Cert.ReferenceIdeal.ReadP.val_main_v12 (F := F) (V (Proc.devRef .tc main_arg1)) := by
  after_results; rfl
/-- %13: the degree's inverse square root. -/
theorem S0_v13 : StableHlo.after hostOps0 V (Proc.devRef .tc main_v13)
    = Cert.ReferenceIdeal.ReadP.val_main_v13 (F := F) (V (Proc.devRef .tc main_arg1)) := by
  after_results; rfl
/-- The zero the selection falls back to. -/
theorem S0_cst_2 : StableHlo.after hostOps0 V (Proc.devRef .tc main_cst_2)
    = Cert.ReferenceIdeal.ReadP.val_main_cst_2 (F := F) := by
  after_results; rfl

end Stretch0

/-! ## The second stretch (the selection): dinv from the first stretch's three values -/

section Stretch1
variable (V : Valuation τ sig (Elt F)) (x1 : (⟨Cert.ReferenceIdeal.S2x800000, .i32⟩ : BufTy).Contents (Elt F))

/-- %14: the inverse square root where the degree is positive, zero elsewhere. -/
theorem S1_v14
    (h12 : V (Proc.devRef .tc main_v12) = Cert.ReferenceIdeal.ReadP.val_main_v12 (F := F) x1)
    (h13 : V (Proc.devRef .tc main_v13) = Cert.ReferenceIdeal.ReadP.val_main_v13 (F := F) x1)
    (hz : V (Proc.devRef .tc main_cst_2) = Cert.ReferenceIdeal.ReadP.val_main_cst_2 (F := F)) :
    StableHlo.after hostOps0_1 V (Proc.devRef .tc main_v14) = Cert.ReferenceIdeal.ReadP.val_main_v14 (F := F) x1 := by
  after_results
  show select (V (Proc.devRef .tc main_v12) : (⟨S50000, .i1⟩ : BufTy).Contents (Elt F)) (V (Proc.devRef .tc main_v13) : (⟨S50000, .f32⟩ : BufTy).Contents (Elt F))
          (broadcastInDim S50000 ![] bcast_S_S50000 (id (V (Proc.devRef .tc main_cst_2) : (⟨S_, .f32⟩ : BufTy).Contents (Elt F)))) = _
  rw [h12, h13, hz]
  rfl

theorem S1_keep_v3 (V : Valuation τ sig (Elt F)) :
    StableHlo.after hostOps0_1 V (Proc.devRef .tc main_v3) = V (Proc.devRef .tc main_v3) := by
  keep_through hostOps0_1
theorem S1_keep_v6 (V : Valuation τ sig (Elt F)) :
    StableHlo.after hostOps0_1 V (Proc.devRef .tc main_v6) = V (Proc.devRef .tc main_v6) := by
  keep_through hostOps0_1

end Stretch1

/-! ## The third stretch: the weights from sources, destinations and dinv -/

section Stretch2
variable (V : Valuation τ sig (Elt F)) (x1 : (⟨Cert.ReferenceIdeal.S2x800000, .i32⟩ : BufTy).Contents (Elt F))

/-- %29: dinv gathered at the wrapped sources times dinv gathered at the wrapped destinations. -/
theorem S2_v29
    (h3 : V (Proc.devRef .tc main_v3) = Cert.ReferenceIdeal.ReadP.val_main_v3 (F := F) x1)
    (h6 : V (Proc.devRef .tc main_v6) = Cert.ReferenceIdeal.ReadP.val_main_v6 (F := F) x1)
    (h14 : V (Proc.devRef .tc main_v14) = Cert.ReferenceIdeal.ReadP.val_main_v14 (F := F) x1) :
    StableHlo.after hostOps0_2 V (Proc.devRef .tc main_v29) = Cert.ReferenceIdeal.ReadP.val_main_v29 (F := F) x1 := by
  after_results_simp
  rw [h3, h6, h14]
  rfl

theorem S2_keep_v3 (V : Valuation τ sig (Elt F)) :
    StableHlo.after hostOps0_2 V (Proc.devRef .tc main_v3) = V (Proc.devRef .tc main_v3) := by
  keep_through hostOps0_2
theorem S2_keep_v6 (V : Valuation τ sig (Elt F)) :
    StableHlo.after hostOps0_2 V (Proc.devRef .tc main_v6) = V (Proc.devRef .tc main_v6) := by
  keep_through hostOps0_2

end Stretch2

/-! ## The last two stretches before the first region write none of the three -/

theorem S3_keep_v3 (V : Valuation τ sig (Elt F)) :
    StableHlo.after hostOps0_3 V (Proc.devRef .tc main_v3) = V (Proc.devRef .tc main_v3) := by
  keep_through hostOps0_3
theorem S3_keep_v6 (V : Valuation τ sig (Elt F)) :
    StableHlo.after hostOps0_3 V (Proc.devRef .tc main_v6) = V (Proc.devRef .tc main_v6) := by
  keep_through hostOps0_3
theorem S3_keep_v29 (V : Valuation τ sig (Elt F)) :
    StableHlo.after hostOps0_3 V (Proc.devRef .tc main_v29) = V (Proc.devRef .tc main_v29) := by
  keep_through hostOps0_3
theorem S4_keep_v3 (V : Valuation τ sig (Elt F)) :
    StableHlo.after hostOps0_4 V (Proc.devRef .tc main_v3) = V (Proc.devRef .tc main_v3) := by
  keep_through hostOps0_4
theorem S4_keep_v6 (V : Valuation τ sig (Elt F)) :
    StableHlo.after hostOps0_4 V (Proc.devRef .tc main_v6) = V (Proc.devRef .tc main_v6) := by
  keep_through hostOps0_4
theorem S4_keep_v29 (V : Valuation τ sig (Elt F)) :
    StableHlo.after hostOps0_4 V (Proc.devRef .tc main_v29) = V (Proc.devRef .tc main_v29) := by
  keep_through hostOps0_4

/-! ## The run's fold read at the three buffers, at any float family -/

section Fold
variable (m : (ℓ : Loc nD τ sig) → Buf (Elt F) ℓ) (ρ : Dev nD → PrngReg) (c : Dev nD)

theorem W1_v3 : W1 m ρ c (Proc.devRef .tc main_v3) = Cert.ReferenceIdeal.ReadP.val_main_v3 (F := F) (m ((c : Thread nD τ).loc main_arg1)) :=
  S0_v3 (W0 m ρ c)
theorem W1_v6 : W1 m ρ c (Proc.devRef .tc main_v6) = Cert.ReferenceIdeal.ReadP.val_main_v6 (F := F) (m ((c : Thread nD τ).loc main_arg1)) :=
  S0_v6 (W0 m ρ c)
theorem W2_v3 : W2 m ρ c (Proc.devRef .tc main_v3) = Cert.ReferenceIdeal.ReadP.val_main_v3 (F := F) (m ((c : Thread nD τ).loc main_arg1)) :=
  (S1_keep_v3 (W1 m ρ c)).trans (W1_v3 m ρ c)
theorem W2_v6 : W2 m ρ c (Proc.devRef .tc main_v6) = Cert.ReferenceIdeal.ReadP.val_main_v6 (F := F) (m ((c : Thread nD τ).loc main_arg1)) :=
  (S1_keep_v6 (W1 m ρ c)).trans (W1_v6 m ρ c)
theorem W2_v14 : W2 m ρ c (Proc.devRef .tc main_v14) = Cert.ReferenceIdeal.ReadP.val_main_v14 (F := F) (m ((c : Thread nD τ).loc main_arg1)) :=
  S1_v14 (W1 m ρ c) _ (S0_v12 (W0 m ρ c)) (S0_v13 (W0 m ρ c)) (S0_cst_2 (W0 m ρ c))
theorem W3_v3 : W3 m ρ c (Proc.devRef .tc main_v3) = Cert.ReferenceIdeal.ReadP.val_main_v3 (F := F) (m ((c : Thread nD τ).loc main_arg1)) :=
  (S2_keep_v3 (W2 m ρ c)).trans (W2_v3 m ρ c)
theorem W3_v6 : W3 m ρ c (Proc.devRef .tc main_v6) = Cert.ReferenceIdeal.ReadP.val_main_v6 (F := F) (m ((c : Thread nD τ).loc main_arg1)) :=
  (S2_keep_v6 (W2 m ρ c)).trans (W2_v6 m ρ c)
theorem W3_v29 : W3 m ρ c (Proc.devRef .tc main_v29) = Cert.ReferenceIdeal.ReadP.val_main_v29 (F := F) (m ((c : Thread nD τ).loc main_arg1)) :=
  S2_v29 (W2 m ρ c) _ (W2_v3 m ρ c) (W2_v6 m ρ c) (W2_v14 m ρ c)
theorem W5_v3 : W5 m ρ c (Proc.devRef .tc main_v3) = Cert.ReferenceIdeal.ReadP.val_main_v3 (F := F) (m ((c : Thread nD τ).loc main_arg1)) :=
  (S4_keep_v3 (W4 m ρ c)).trans ((S3_keep_v3 (W3 m ρ c)).trans (W3_v3 m ρ c))
theorem W5_v6 : W5 m ρ c (Proc.devRef .tc main_v6) = Cert.ReferenceIdeal.ReadP.val_main_v6 (F := F) (m ((c : Thread nD τ).loc main_arg1)) :=
  (S4_keep_v6 (W4 m ρ c)).trans ((S3_keep_v6 (W3 m ρ c)).trans (W3_v6 m ρ c))
theorem W5_v29 : W5 m ρ c (Proc.devRef .tc main_v29) = Cert.ReferenceIdeal.ReadP.val_main_v29 (F := F) (m ((c : Thread nD τ).loc main_arg1)) :=
  (S4_keep_v29 (W4 m ρ c)).trans ((S3_keep_v29 (W3 m ρ c)).trans (W3_v29 m ρ c))

end Fold

/-! ## The three identifications at the exact instance -/

section AtIdeal
variable (m : (ℓ : Loc nD τ sig) → Buf (Elt Ideal) ℓ) (ρ : Dev nD → PrngReg) (c : Dev nD)

/-- The kernel's source list at its first region's entry is the reference's. -/
theorem src_eq : (V5 m ρ c main_v3 : Cert.ReferenceIdeal.S850000.Idx → BitVec 32)
    = Cert.ReferenceIdeal.ReadP.val_main_v3 (F := Ideal) (m ((c : Thread nD τ).loc main_arg1)) :=
  W5_v3 m ρ c
/-- The kernel's destination list at its first region's entry is the reference's. -/
theorem dst_eq : (V5 m ρ c main_v6 : Cert.ReferenceIdeal.S850000.Idx → BitVec 32)
    = Cert.ReferenceIdeal.ReadP.val_main_v6 (F := Ideal) (m ((c : Thread nD τ).loc main_arg1)) :=
  W5_v6 m ρ c
/-- The kernel's weights at its first region's entry are the reference's. -/
theorem nrm_eq : (V5 m ρ c main_v29 : Cert.ReferenceIdeal.S850000.Idx → EReal)
    = Cert.ReferenceIdeal.ReadP.val_main_v29 (F := Ideal) (m ((c : Thread nD τ).loc main_arg1)) :=
  W5_v29 m ρ c

end AtIdeal

end Cert.SharedPrefix
-- ==== Proof.lean ====
/-
  The certificate's claim: the TPU kernel of kernel.py and the jnp reference of reference.py compute the same
  two-layer graph convolution over the extended reals, on every input whose floats are finite and whose edge
  sources lie in the node range.

  The mathematics is Proof/Spec.lean: out = conv (lin (max (conv (lin x W1) b1) 0) W2) b2, where conv sums, for a
  node n, over the edges that end at n, the source node's row times the edge's weight.  The reference computes it
  by a gather of source rows, a product with the weights and a scatter-add by destination (Proof/RefValue.lean).
  The kernel computes it by one-hot products: for a block of 256 edges a selector matrix against each chunk of 800
  table rows builds the messages, and a one-hot matrix against the destinations adds them into the rows of the
  output, block after block (Proof/KAgg1.lean, Proof/KAgg3.lean); its tables are row-tiled products
  (Proof/KMat.lean).  The two arrangements agree because, with each source in range, a selector row has exactly one
  nonzero entry, and a sum of zeros and one term is that term (Proof/SpecAlgebra.lean); no cancellation or
  distributivity is used, so nothing is asked of the floats' finiteness.  The edge words and weights are computed by
  the same host operations in both programs (Proof/SharedPrefix.lean), and the sources' range is read off the
  precondition (Proof/PreDecode.lean).
-/
import proofs.«415787_j87273735454854_1_alg».proof.Defs
import proofs.«415787_j87273735454854_1_alg».proof.Proof.Gen.Kernel
import proofs.«415787_j87273735454854_1_alg».proof.Proof.Gen.KernelIdeal
import proofs.«415787_j87273735454854_1_alg».proof.Proof.Gen.ReferenceIdeal
import proofs.«415787_j87273735454854_1_alg».proof.Proof.Gen.Pre_finite_inputs
import proofs.«415787_j87273735454854_1_alg».proof.Proof.FrameKernel
import proofs.«415787_j87273735454854_1_alg».proof.Proof.FrameKernelIdeal
import proofs.«415787_j87273735454854_1_alg».proof.Proof.KRun
import proofs.«415787_j87273735454854_1_alg».proof.Proof.ReadRef
import proofs.«415787_j87273735454854_1_alg».proof.Proof.KValue
import proofs.«415787_j87273735454854_1_alg».proof.Proof.RefValue
import proofs.«415787_j87273735454854_1_alg».proof.Proof.PreDecode
import proofs.«415787_j87273735454854_1_alg».proof.Proof.SharedPrefix
import Idealize.ShloMosaic.Adequacy
import Idealize.ShloMosaic.Init

noncomputable section

namespace Cert.Proof

open Idealize.ShloMosaic Idealize.ShloMosaic.ValueIdx Idealize.SL.Sem

/-- Entry by entry, the reference's result and the kernel's result are the same function of the arguments: both are
    `Spec.out` of the edge words and weights, which the two programs compute by the same host operations. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    Cert.ReferenceIdeal.ReadP.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Cert.KernelIdeal.GenP.W12 (F := Ideal) m ρ c (Proc.devRef .tc Cert.KernelIdeal.main_v48) := by
  funext i
  obtain ⟨n, o, rfl⟩ : ∃ (n : Fin 50000) (o : Fin 64), i = ix2 n o := ⟨i 0, i 1, eq_ix2 i⟩
  -- the edge words and weights of the two programs are the same functions of the edge array
  have e1 : Cert.KernelIdeal.KBound.srcK m ρ c
      = Cert.ReferenceIdeal.RefValue.srcR (m ((c.tc : Thread Cert.KernelIdeal.nD Cert.KernelIdeal.τ).loc Cert.KernelIdeal.main_arg1)) :=
    funext fun e => congrFun (Cert.SharedPrefix.src_eq m ρ c) (ix1 e)
  have e2 : Cert.KernelIdeal.KBound.dstK m ρ c
      = Cert.ReferenceIdeal.RefValue.dstR (m ((c.tc : Thread Cert.KernelIdeal.nD Cert.KernelIdeal.τ).loc Cert.KernelIdeal.main_arg1)) :=
    funext fun e => congrFun (Cert.SharedPrefix.dst_eq m ρ c) (ix1 e)
  have e3 : Cert.KernelIdeal.KBound.nrmK m ρ c
      = Cert.ReferenceIdeal.RefValue.nrmR (m ((c.tc : Thread Cert.KernelIdeal.nD Cert.KernelIdeal.τ).loc Cert.KernelIdeal.main_arg1)) :=
    funext fun e => congrFun (Cert.SharedPrefix.nrm_eq m ρ c) (ix1 e)
  -- every source word, the self-loops' included, is in the node range
  have hsrcR := Cert.PreDecode.src_in_range _ _ _ _ _ _ hpre
  have hsrcK : ∀ e : Fin 850000, 0 ≤ (Cert.KernelIdeal.KBound.srcK m ρ c e).toInt
      ∧ (Cert.KernelIdeal.KBound.srcK m ρ c e).toInt < 50000 := fun e => by
    rw [e1]; exact hsrcR e
  rw [Cert.ReferenceIdeal.RefValue.out_apply _ _ _ _ _ _ hsrcR n o]
  refine Eq.trans ?_ (Cert.KernelIdeal.KValue.kernel_value m ρ c hsrcK n o).symm
  rw [e1, e2, e3]
  rfl

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel: nothing to preserve. -/
theorem preserves : Cert.preserves_Kernel_KernelIdeal := trivial

/-- The kernel's run ends with its result buffer at the last boundary's contents, the reference's with its result at
    its operations' composed term; from memories that agree on the arguments the two are one array (`result_eq`). -/
theorem algebraic : Cert.algebraic_KernelIdeal_ReferenceIdeal := by
  intro m ρ m' ρ' hpre hagree
  refine ⟨fun c => Cert.KernelIdeal.GenP.W12 (F := Ideal) m ρ c (Proc.devRef .tc Cert.KernelIdeal.main_v48),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]
  exact result_eq m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
